-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v14)) (v4 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v14) = v3 c
          ∧ r.2.mem ((c.tc : Thread Cert.KernelIdeal.nD Cert.KernelIdeal.τ).loc Cert.KernelIdeal.main_v15) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v11) = v3 c
          ∧ r.2.mem ((c.tc : Thread Cert.ReferenceIdeal.nD Cert.ReferenceIdeal.τ).loc Cert.ReferenceIdeal.main_v19) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x1024 : Shape := ⟨2, ![20000, 1024]⟩
abbrev S1024x91 : Shape := ⟨2, ![1024, 91]⟩
abbrev S91 : Shape := ⟨1, ![91]⟩
abbrev S1024x12 : Shape := ⟨2, ![1024, 12]⟩
abbrev S12 : Shape := ⟨1, ![12]⟩
abbrev S1024x10 : Shape := ⟨2, ![1024, 10]⟩
abbrev S10 : Shape := ⟨1, ![10]⟩
abbrev S1024x8 : Shape := ⟨2, ![1024, 8]⟩
abbrev S8 : Shape := ⟨1, ![8]⟩
abbrev S1024x364 : Shape := ⟨2, ![1024, 364]⟩
abbrev S364 : Shape := ⟨1, ![364]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S1024x91 : S_.BroadcastsInDim S1024x91 (![] : Fin 0 → Fin S1024x91.rank)
  reducesTo_S1024x91_S_d0_1 : S1024x91.ReducesTo [0, 1] S_
  bcast_S_S91 : S_.BroadcastsInDim S91 (![] : Fin 0 → Fin S91.rank)
  reducesTo_S91_S_d0 : S91.ReducesTo [0] S_
  bcast_S_S1024x12 : S_.BroadcastsInDim S1024x12 (![] : Fin 0 → Fin S1024x12.rank)
  reducesTo_S1024x12_S_d0_1 : S1024x12.ReducesTo [0, 1] S_
  bcast_S_S12 : S_.BroadcastsInDim S12 (![] : Fin 0 → Fin S12.rank)
  reducesTo_S12_S_d0 : S12.ReducesTo [0] S_
  bcast_S_S1024x10 : S_.BroadcastsInDim S1024x10 (![] : Fin 0 → Fin S1024x10.rank)
  reducesTo_S1024x10_S_d0_1 : S1024x10.ReducesTo [0, 1] S_
  bcast_S_S10 : S_.BroadcastsInDim S10 (![] : Fin 0 → Fin S10.rank)
  reducesTo_S10_S_d0 : S10.ReducesTo [0] S_
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_
  bcast_S_S1024x364 : S_.BroadcastsInDim S1024x364 (![] : Fin 0 → Fin S1024x364.rank)
  reducesTo_S1024x364_S_d0_1 : S1024x364.ReducesTo [0, 1] S_
  bcast_S_S364 : S_.BroadcastsInDim S364 (![] : Fin 0 → Fin S364.rank)
  reducesTo_S364_S_d0 : S364.ReducesTo [0] S_

variable [Facts]

def fn_part3 {F : FTy → Type} [FloatOps F] (main_v48 : IVec S_ 1) (main_v49 : FVec F S364 .f32) (main_v50 : FVec F S364 .f32) : IVec S_ 1 :=
  let main_v51 : IVec S364 1 := cmpf .olt main_v49 main_v50
  let main_c_19 : IVec S_ 1 := constantI S_ 1 1#1
  let main_v52 : IVec S_ 1 := (fun x v => Host.reduce IntOp.andi x v reducesTo_S364_S_d0 h_S_) main_v51 main_c_19
  let main_v53 : IVec S_ 1 := andi main_v48 main_v52
  main_v53

def fn_part2 {F : FTy → Type} [FloatOps F] (main_arg7 : FVec F S1024x8 .f32) (main_arg8 : FVec F S8 .f32) (main_arg9 : FVec F S1024x364 .f32) (main_arg10 : FVec F S364 .f32) (main_v33 : IVec S_ 1) : IVec S_ 1 :=
  let main_v34 : FVec F S1024x8 .f32 := Host.absf main_arg7
  let main_cst_12 : FVec F S_ .f32 := constant S_ .f32 0x7F800000#32
  let main_v35 : FVec F S1024x8 .f32 := broadcastInDim S1024x8 ![] bcast_S_S1024x8 main_cst_12
  let main_v36 : IVec S1024x8 1 := cmpf .olt main_v34 main_v35
  let main_c_13 : IVec S_ 1 := constantI S_ 1 1#1
  let main_v37 : IVec S_ 1 := (fun x v => Host.reduce IntOp.andi x v reducesTo_S1024x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S1024x364 .f32 := Host.absf main_arg9
  let main_cst_16 : FVec F S_ .f32 := constant S_ .f32 0x7F800000#32
  let main_v45 : FVec F S1024x364 .f32 := broadcastInDim S1024x364 ![] bcast_S_S1024x364 main_cst_16
  let main_v46 : IVec S1024x364 1 := cmpf .olt main_v44 main_v45
  let main_c_17 : IVec S_ 1 := constantI S_ 1 1#1
  let main_v47 : IVec S_ 1 := (fun x v => Host.reduce IntOp.andi x v reducesTo_S1024x364_S_d0_1 h_S_) main_v46 main_c_17
  let main_v48 : IVec S_ 1 := andi main_v43 main_v47
  let main_v49 : FVec F S364 .f32 := Host.absf main_arg10
  let main_cst_18 : FVec F S_ .f32 := constant S_ .f32 0x7F800000#32
  let main_v50 : FVec F S364 .f32 := broadcastInDim S364 ![] bcast_S_S364 main_cst_18
  fn_part3 (F := F) main_v48 main_v49 main_v50

def fn_part1 {F : FTy → Type} [FloatOps F] (main_arg4 : FVec F S12 .f32) (main_arg5 : FVec F S1024x10 .f32) (main_arg6 : FVec F S10 .f32) (main_arg7 : FVec F S1024x8 .f32) (main_arg8 : FVec F S8 .f32) (main_arg9 : FVec F S1024x364 .f32) (main_arg10 : FVec F S364 .f32) (main_v13 : IVec S_ 1) (main_v16 : IVec S1024x12 1) : IVec S_ 1 :=
  let main_c_5 : IVec S_ 1 := constantI S_ 1 1#1
  let main_v17 : IVec S_ 1 := (fun x v => Host.reduce IntOp.andi x v reducesTo_S1024x12_S_d0_1 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S1024x10 .f32 := Host.absf main_arg5
  let main_cst_8 : FVec F S_ .f32 := constant S_ .f32 0x7F800000#32
  let main_v25 : FVec F S1024x10 .f32 := broadcastInDim S1024x10 ![] bcast_S_S1024x10 main_cst_8
  let main_v26 : IVec S1024x10 1 := cmpf .olt main_v24 main_v25
  let main_c_9 : IVec S_ 1 := constantI S_ 1 1#1
  let main_v27 : IVec S_ 1 := (fun x v => Host.reduce IntOp.andi x v reducesTo_S1024x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S20000x1024 .f32) (main_arg1 : FVec F S1024x91 .f32) (main_arg2 : FVec F S91 .f32) (main_arg3 : FVec F S1024x12 .f32) (main_arg4 : FVec F S12 .f32) (main_arg5 : FVec F S1024x10 .f32) (main_arg6 : FVec F S10 .f32) (main_arg7 : FVec F S1024x8 .f32) (main_arg8 : FVec F S8 .f32) (main_arg9 : FVec F S1024x364 .f32) (main_arg10 : FVec F S364 .f32) : IVec S_ 1 :=
  let main_v0 : FVec F S20000x1024 .f32 := Host.absf main_arg0
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S1024x91 .f32 := Host.absf main_arg1
  let main_cst_0 : FVec F S_ .f32 := constant S_ .f32 0x7F800000#32
  let main_v5 : FVec F S1024x91 .f32 := broadcastInDim S1024x91 ![] bcast_S_S1024x91 main_cst_0
  let main_v6 : IVec S1024x91 1 := cmpf .olt main_v4 main_v5
  let main_c_1 : IVec S_ 1 := constantI S_ 1 1#1
  let main_v7 : IVec S_ 1 := (fun x v => Host.reduce IntOp.andi x v reducesTo_S1024x91_S_d0_1 h_S_) main_v6 main_c_1
  let main_v8 : IVec S_ 1 := andi main_v3 main_v7
  let main_v9 : FVec F S91 .f32 := Host.absf main_arg2
  let main_cst_2 : FVec F S_ .f32 := constant S_ .f32 0x7F800000#32
  let main_v10 : FVec F S91 .f32 := broadcastInDim S91 ![] bcast_S_S91 main_cst_2
  let main_v11 : IVec S91 1 := cmpf .olt main_v9 main_v10
  let main_c_3 : IVec S_ 1 := constantI S_ 1 1#1
  let main_v12 : IVec S_ 1 := (fun x v => Host.reduce IntOp.andi x v reducesTo_S91_S_d0 h_S_) main_v11 main_c_3
  let main_v13 : IVec S_ 1 := andi main_v8 main_v12
  let main_v14 : FVec F S1024x12 .f32 := Host.absf main_arg3
  let main_cst_4 : FVec F S_ .f32 := constant S_ .f32 0x7F800000#32
  let main_v15 : FVec F S1024x12 .f32 := broadcastInDim S1024x12 ![] bcast_S_S1024x12 main_cst_4
  let main_v16 : IVec S1024x12 1 := cmpf .olt main_v14 main_v15
  fn_part1 (F := F) main_arg4 main_arg5 main_arg6 main_arg7 main_arg8 main_arg9 main_arg10 main_v13 main_v16
-- ==== Kernel.lean ====
abbrev S20000x1024 : Shape := ⟨2, ![20000, 1024]⟩
abbrev S1024x91 : Shape := ⟨2, ![1024, 91]⟩
abbrev S91 : Shape := ⟨1, ![91]⟩
abbrev S1024x12 : Shape := ⟨2, ![1024, 12]⟩
abbrev S12 : Shape := ⟨1, ![12]⟩
abbrev S1024x10 : Shape := ⟨2, ![1024, 10]⟩
abbrev S10 : Shape := ⟨1, ![10]⟩
abbrev S1024x8 : Shape := ⟨2, ![1024, 8]⟩
abbrev S8 : Shape := ⟨1, ![8]⟩
abbrev S1024x364 : Shape := ⟨2, ![1024, 364]⟩
abbrev S364 : Shape := ⟨1, ![364]⟩
abbrev S91x1024 : Shape := ⟨2, ![91, 1024]⟩
abbrev S1x91 : Shape := ⟨2, ![1, 91]⟩
abbrev S12x1024 : Shape := ⟨2, ![12, 1024]⟩
abbrev S1x12 : Shape := ⟨2, ![1, 12]⟩
abbrev S10x1024 : Shape := ⟨2, ![10, 1024]⟩
abbrev S1x10 : Shape := ⟨2, ![1, 10]⟩
abbrev S8x1024 : Shape := ⟨2, ![8, 1024]⟩
abbrev S1x8 : Shape := ⟨2, ![1, 8]⟩
abbrev S364x1024 : Shape := ⟨2, ![364, 1024]⟩
abbrev S1x364 : Shape := ⟨2, ![1, 364]⟩
abbrev S91x20000 : Shape := ⟨2, ![91, 20000]⟩
abbrev S12x20000 : Shape := ⟨2, ![12, 20000]⟩
abbrev S10x20000 : Shape := ⟨2, ![10, 20000]⟩
abbrev S8x20000 : Shape := ⟨2, ![8, 20000]⟩
abbrev S364x20000 : Shape := ⟨2, ![364, 20000]⟩
abbrev S2048x512 : Shape := ⟨2, ![2048, 512]⟩
abbrev S91x2048 : Shape := ⟨2, ![91, 2048]⟩
abbrev S12x2048 : Shape := ⟨2, ![12, 2048]⟩
abbrev S10x2048 : Shape := ⟨2, ![10, 2048]⟩
abbrev S8x2048 : Shape := ⟨2, ![8, 2048]⟩
abbrev S364x2048 : Shape := ⟨2, ![364, 2048]⟩
abbrev S500x1024 : Shape := ⟨2, ![500, 1024]⟩
abbrev S500x1 : Shape := ⟨2, ![500, 1]⟩
abbrev S92x1024 : Shape := ⟨2, ![92, 1024]⟩
abbrev S91x1 : Shape := ⟨2, ![91, 1]⟩
abbrev S12x1 : Shape := ⟨2, ![12, 1]⟩
abbrev S10x1 : Shape := ⟨2, ![10, 1]⟩
abbrev S8x1 : Shape := ⟨2, ![8, 1]⟩
abbrev S364x1 : Shape := ⟨2, ![364, 1]⟩
abbrev S500x512 : Shape := ⟨2, ![500, 512]⟩
abbrev S500x2048 : Shape := ⟨2, ![500, 2048]⟩
abbrev S20000x91 : Shape := ⟨2, ![20000, 91]⟩
abbrev S20000x12 : Shape := ⟨2, ![20000, 12]⟩
abbrev S20000x10 : Shape := ⟨2, ![20000, 10]⟩
abbrev S20000x8 : Shape := ⟨2, ![20000, 8]⟩
abbrev S20000x364 : Shape := ⟨2, ![20000, 364]⟩

abbrev nBuf : Space → Nat
  | .hbm => 31
  | .vmem => 26
  | .smem => 0
  | _ => 0

abbrev bufTy : (tb : Table) → Fin (tcTables nBuf tb) → BufTy
  | .hbm, ⟨0, _⟩ => ⟨S20000x1024, .f32⟩
  | .hbm, ⟨1, _⟩ => ⟨S1024x91, .f32⟩
  | .hbm, ⟨2, _⟩ => ⟨S91, .f32⟩
  | .hbm, ⟨3, _⟩ => ⟨S1024x12, .f32⟩
  | .hbm, ⟨4, _⟩ => ⟨S12, .f32⟩
  | .hbm, ⟨5, _⟩ => ⟨S1024x10, .f32⟩
  | .hbm, ⟨6, _⟩ => ⟨S10, .f32⟩
  | .hbm, ⟨7, _⟩ => ⟨S1024x8, .f32⟩
  | .hbm, ⟨8, _⟩ => ⟨S8, .f32⟩
  | .hbm, ⟨9, _⟩ => ⟨S1024x364, .f32⟩
  | .hbm, ⟨10, _⟩ => ⟨S364, .f32⟩
  | .hbm, ⟨11, _⟩ => ⟨S91x1024, .f32⟩
  | .hbm, ⟨12, _⟩ => ⟨S1x91, .f32⟩
  | .hbm, ⟨13, _⟩ => ⟨S12x1024, .f32⟩
  | .hbm, ⟨14, _⟩ => ⟨S1x12, .f32⟩
  | .hbm, ⟨15, _⟩ => ⟨S10x1024, .f32⟩
  | .hbm, ⟨16, _⟩ => ⟨S1x10, .f32⟩
  | .hbm, ⟨17, _⟩ => ⟨S8x1024, .f32⟩
  | .hbm, ⟨18, _⟩ => ⟨S1x8, .f32⟩
  | .hbm, ⟨19, _⟩ => ⟨S364x1024, .f32⟩
  | .hbm, ⟨20, _⟩ => ⟨S1x364, .f32⟩
  | .hbm, ⟨21, _⟩ => ⟨S91x20000, .f32⟩
  | .hbm, ⟨22, _⟩ => ⟨S12x20000, .f32⟩
  | .hbm, ⟨23, _⟩ => ⟨S10x20000, .f32⟩
  | .hbm, ⟨24, _⟩ => ⟨S8x20000, .f32⟩
  | .hbm, ⟨25, _⟩ => ⟨S364x20000, .f32⟩
  | .hbm, ⟨26, _⟩ => ⟨S20000x91, .f32⟩
  | .hbm, ⟨27, _⟩ => ⟨S20000x12, .f32⟩
  | .hbm, ⟨28, _⟩ => ⟨S20000x10, .f32⟩
  | .hbm, ⟨29, _⟩ => ⟨S20000x8, .f32⟩
  | .hbm, ⟨30, _⟩ => ⟨S20000x364, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S91x1024, .f32⟩
  | .local _ .vmem, ⟨5, _⟩ => ⟨S1x91, .f32⟩
  | .local _ .vmem, ⟨6, _⟩ => ⟨S12x1024, .f32⟩
  | .local _ .vmem, ⟨7, _⟩ => ⟨S1x12, .f32⟩
  | .local _ .vmem, ⟨8, _⟩ => ⟨S10x1024, .f32⟩
  | .local _ .vmem, ⟨9, _⟩ => ⟨S1x10, .f32⟩
  | .local _ .vmem, ⟨10, _⟩ => ⟨S8x1024, .f32⟩
  | .local _ .vmem, ⟨11, _⟩ => ⟨S1x8, .f32⟩
  | .local _ .vmem, ⟨12, _⟩ => ⟨S364x1024, .f32⟩
  | .local _ .vmem, ⟨13, _⟩ => ⟨S1x364, .f32⟩
  | .local _ .vmem, ⟨14, _⟩ => ⟨S91x2048, .f32⟩
  | .local _ .vmem, ⟨15, _⟩ => ⟨S91x2048, .f32⟩
  | .local _ .vmem, ⟨16, _⟩ => ⟨S12x2048, .f32⟩
  | .local _ .vmem, ⟨17, _⟩ => ⟨S12x2048, .f32⟩
  | .local _ .vmem, ⟨18, _⟩ => ⟨S10x2048, .f32⟩
  | .local _ .vmem, ⟨19, _⟩ => ⟨S10x2048, .f32⟩
  | .local _ .vmem, ⟨20, _⟩ => ⟨S8x2048, .f32⟩
  | .local _ .vmem, ⟨21, _⟩ => ⟨S8x2048, .f32⟩
  | .local _ .vmem, ⟨22, _⟩ => ⟨S364x2048, .f32⟩
  | .local _ .vmem, ⟨23, _⟩ => ⟨S364x2048, .f32⟩
  | .local _ .vmem, ⟨24, _⟩ => ⟨S500x1024, .bf16⟩
  | .local _ .vmem, ⟨25, _⟩ => ⟨S500x1, .f32⟩
  | _, _ => ⟨S20000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S91x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x91 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S364x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x364 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S91x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S12x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S10x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S364x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S1024x91_S91x1024_1_0 : S1024x91.Transposes [1, 0] S91x1024
  shapeCasts_S91_S1x91 : S91.ShapeCasts S1x91
  transposes_S1024x12_S12x1024_1_0 : S1024x12.Transposes [1, 0] S12x1024
  shapeCasts_S12_S1x12 : S12.ShapeCasts S1x12
  transposes_S1024x10_S10x1024_1_0 : S1024x10.Transposes [1, 0] S10x1024
  shapeCasts_S10_S1x10 : S10.ShapeCasts S1x10
  transposes_S1024x8_S8x1024_1_0 : S1024x8.Transposes [1, 0] S8x1024
  shapeCasts_S8_S1x8 : S8.ShapeCasts S1x8
  transposes_S1024x364_S364x1024_1_0 : S1024x364.Transposes [1, 0] S364x1024
  shapeCasts_S364_S1x364 : S364.ShapeCasts S1x364
  inb_S91x1024_S91x1024_0_0 : ∀ a, (![0, 0] : Fin 2 → Nat) a + S91x1024.size a ≤ S91x1024.size a
  h_S91x1024 : 0 < S91x1024.numel
  shapeCasts_S91x1024_S91x1024 : S91x1024.ShapeCasts S91x1024
  bitsLt_bf16_f32 : FTy.bits .bf16 < FTy.bits .f32
  inb_S500x1024_S91x1024_0_0 : ∀ a, (![0, 0] : Fin 2 → Nat) a + S91x1024.size a ≤ S500x1024.size a
  inb_S500x1024_S92x1024_0_0 : ∀ a, (![0, 0] : Fin 2 → Nat) a + S92x1024.size a ≤ S500x1024.size a
  h_S92x1024 : 0 < S92x1024.numel
  slices_S92x1024_S91x1024_0_0 : S92x1024.Slices ![0, 0] S91x1024
  packedbf16_S500x1024_S92x1024_0_0 : (Rect.unit (s := S500x1024) ![0, 0] S92x1024.size inb_S500x1024_S92x1024_0_0).PackedRows (EltTy.packing .bf16)
  inb_S1x91_S1x91_0_0 : ∀ a, (![0, 0] : Fin 2 → Nat) a + S1x91.size a ≤ S1x91.size a
  h_S1x91 : 0 < S1x91.numel
  shapeCasts_S1x91_S1x91 : S1x91.ShapeCasts S1x91
  transposes_S1x91_p1_0_S91x1 : S1x91.Transposes [1, 0] S91x1
  inb_S500x1_S91x1_0_0 : ∀ a, (![0, 0] : Fin 2 → Nat) a + S91x1.size a ≤ S500x1.size a
  h_S91x1 : 0 < S91x1.numel
  shapeCasts_S91x1_S91x1 : S91x1.ShapeCasts S91x1
  inb_S12x1024_S12x1024_0_0 : ∀ a, (![0, 0] : Fin 2 → Nat) a + S12x1024.size a ≤ S12x1024.size a
  h_S12x1024 : 0 < S12x1024.numel
  shapeCasts_S12x1024_S12x1024 : S12x1024.ShapeCasts S12x1024
  inb_S500x1024_S12x1024_96_0 : ∀ a, (![96, 0] : Fin 2 → Nat) a + S12x1024.size a ≤ S500x1024.size a
  packedbf16_S500x1024_S12x1024_96_0 : (Rect.unit (s := S500x1024) ![96, 0] S12x1024.size inb_S500x1024_S12x1024_96_0).PackedRows (EltTy.packing .bf16)
  inb_S1x12_S1x12_0_0 : ∀ a, (![0, 0] : Fin 2 → Nat) a + S1x12.size a ≤ S1x12.size a
  h_S1x12 : 0 < S1x12.numel
  shapeCasts_S1x12_S1x12 : S1x12.ShapeCasts S1x12
  transposes_S1x12_p1_0_S12x1 : S1x12.Transposes [1, 0] S12x1
  inb_S500x1_S12x1_96_0 : ∀ a, (![96, 0] : Fin 2 → Nat) a + S12x1.size a ≤ S500x1.size a
  h_S12x1 : 0 < S12x1.numel
  shapeCasts_S12x1_S12x1 : S12x1.ShapeCasts S12x1
  inb_S10x1024_S10x1024_0_0 : ∀ a, (![0, 0] : Fin 2 → Nat) a + S10x1024.size a ≤ S10x1024.size a
  h_S10x1024 : 0 < S10x1024.numel
  shapeCasts_S10x1024_S10x1024 : S10x1024.ShapeCasts S10x1024
  inb_S500x1024_S10x1024_112_0 : ∀ a, (![112, 0] : Fin 2 → Nat) a + S10x1024.size a ≤ S500x1024.size a
  packedbf16_S500x1024_S10x1024_112_0 : (Rect.unit (s := S500x1024) ![112, 0] S10x1024.size inb_S500x1024_S10x1024_112_0).PackedRows (EltTy.packing .bf16)
  inb_S1x10_S1x10_0_0 : ∀ a, (![0, 0] : Fin 2 → Nat) a + S1x10.size a ≤ S1x10.size a
  h_S1x10 : 0 < S1x10.numel
  shapeCasts_S1x10_S1x10 : S1x10.ShapeCasts S1x10
  transposes_S1x10_p1_0_S10x1 : S1x10.Transposes [1, 0] S10x1
  inb_S500x1_S10x1_112_0 : ∀ a, (![112, 0] : Fin 2 → Nat) a + S10x1.size a ≤ S500x1.size a
  h_S10x1 : 0 < S10x1.numel
  shapeCasts_S10x1_S10x1 : S10x1.ShapeCasts S10x1
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S500x1024_S8x1024_128_0 : ∀ a, (![128, 0] : Fin 2 → Nat) a + S8x1024.size a ≤ S500x1024.size a
  packedbf16_S500x1024_S8x1024_128_0 : (Rect.unit (s := S500x1024) ![128, 0] S8x1024.size inb_S500x1024_S8x1024_128_0).PackedRows (EltTy.packing .bf16)
  inb_S1x8_S1x8_0_0 : ∀ a, (![0, 0] : Fin 2 → Nat) a + S1x8.size a ≤ S1x8.size a
  h_S1x8 : 0 < S1x8.numel
  shapeCasts_S1x8_S1x8 : S1x8.ShapeCasts S1x8
  transposes_S1x8_p1_0_S8x1 : S1x8.Transposes [1, 0] S8x1
  inb_S500x1_S8x1_128_0 : ∀ a, (![128, 0] : Fin 2 → Nat) a + S8x1.size a ≤ S500x1.size a
  h_S8x1 : 0 < S8x1.numel
  shapeCasts_S8x1_S8x1 : S8x1.ShapeCasts S8x1
  inb_S364x1024_S364x1024_0_0 : ∀ a, (![0, 0] : Fin 2 → Nat) a + S364x1024.size a ≤ S364x1024.size a
  h_S364x1024 : 0 < S364x1024.numel
  shapeCasts_S364x1024_S364x1024 : S364x1024.ShapeCasts S364x1024
  inb_S500x1024_S364x1024_136_0 : ∀ a, (![136, 0] : Fin 2 → Nat) a + S364x1024.size a ≤ S500x1024.size a
  packedbf16_S500x1024_S364x1024_136_0 : (Rect.unit (s := S500x1024) ![136, 0] S364x1024.size inb_S500x1024_S364x1024_136_0).PackedRows (EltTy.packing .bf16)
  inb_S1x364_S1x364_0_0 : ∀ a, (![0, 0] : Fin 2 → Nat) a + S1x364.size a ≤ S1x364.size a
  h_S1x364 : 0 < S1x364.numel
  shapeCasts_S1x364_S1x364 : S1x364.ShapeCasts S1x364
  transposes_S1x364_p1_0_S364x1 : S1x364.Transposes [1, 0] S364x1
  inb_S500x1_S364x1_136_0 : ∀ a, (![136, 0] : Fin 2 → Nat) a + S364x1.size a ≤ S500x1.size a
  h_S364x1 : 0 < S364x1.numel
  shapeCasts_S364x1_S364x1 : S364x1.ShapeCasts S364x1
  inb_S2048x512_S2048x512_0_0 : ∀ a, (![0, 0] : Fin 2 → Nat) a + S2048x512.size a ≤ S2048x512.size a
  h_S2048x512 : 0 < S2048x512.numel
  inb_S500x1024_S500x512_0_0 : ∀ a, (![0, 0] : Fin 2 → Nat) a + S500x512.size a ≤ S500x1024.size a
  h_S500x512 : 0 < S500x512.numel
  inb_S500x1024_S500x512_0_512 : ∀ a, (![0, 512] : Fin 2 → Nat) a + S500x512.size a ≤ S500x1024.size a
  inb_S500x1_S500x1_0_0 : ∀ a, (![0, 0] : Fin 2 → Nat) a + S500x1.size a ≤ S500x1.size a
  h_S500x1 : 0 < S500x1.numel
  broadcasts_S500x1_S500x2048 : S500x1.Broadcasts S500x2048
  slices_S500x2048_o0_0_S91x2048 : S500x2048.Slices ![0, 0] S91x2048
  inb_S91x2048_S91x2048_0_0 : ∀ a, (![0, 0] : Fin 2 → Nat) a + S91x2048.size a ≤ S91x2048.size a
  h_S91x2048 : 0 < S91x2048.numel
  slices_S500x2048_o96_0_S12x2048 : S500x2048.Slices ![96, 0] S12x2048
  inb_S12x2048_S12x2048_0_0 : ∀ a, (![0, 0] : Fin 2 → Nat) a + S12x2048.size a ≤ S12x2048.size a
  h_S12x2048 : 0 < S12x2048.numel
  slices_S500x2048_o112_0_S10x2048 : S500x2048.Slices ![112, 0] S10x2048
  inb_S10x2048_S10x2048_0_0 : ∀ a, (![0, 0] : Fin 2 → Nat) a + S10x2048.size a ≤ S10x2048.size a
  h_S10x2048 : 0 < S10x2048.numel
  slices_S500x2048_o128_0_S8x2048 : S500x2048.Slices ![128, 0] S8x2048
  inb_S8x2048_S8x2048_0_0 : ∀ a, (![0, 0] : Fin 2 → Nat) a + S8x2048.size a ≤ S8x2048.size a
  h_S8x2048 : 0 < S8x2048.numel
  slices_S500x2048_o136_0_S364x2048 : S500x2048.Slices ![136, 0] S364x2048
  inb_S364x2048_S364x2048_0_0 : ∀ a, (![0, 0] : Fin 2 → Nat) a + S364x2048.size a ≤ S364x2048.size a
  h_S364x2048 : 0 < S364x2048.numel
  transposes_S91x20000_S20000x91_1_0 : S91x20000.Transposes [1, 0] S20000x91
  transposes_S12x20000_S20000x12_1_0 : S12x20000.Transposes [1, 0] S20000x12
  transposes_S10x20000_S20000x10_1_0 : S10x20000.Transposes [1, 0] S20000x10
  transposes_S8x20000_S20000x8_1_0 : S8x20000.Transposes [1, 0] S20000x8
  transposes_S364x20000_S20000x364_1_0 : S364x20000.Transposes [1, 0] S20000x364
  dot_S500x512_S2048x512_S500x2048_1_1_0_0_n_n_wf : DotDims.WF S500x512 S2048x512 S500x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x512.size a < S20000x1024.size a
  hwx0_0 : ∀ i : grid0.Coords, EltTy.bits .f32 = 32 ∨ (Rect.unit (s := S20000x1024) (fun a => cc0_transform_0 i a * S2048x512.size a) (fun a => (Pipeline.Clip.of (cc0_transform_0 i a) (S2048x512.size a) (S20000x1024.size a)).extent (S2048x512.size a)) fun a => Pipeline.Clip.inb (Pipeline.Clip.ok_of (hstart0_0 i a))).WholeWords (EltTy.packing .f32)
  hwxs0_0 : ∀ i : grid0.Coords, EltTy.bits .f32 = 32 ∨ (Rect.unit (s := S2048x512) (fun _ => 0) (fun a => (Pipeline.Clip.of (cc0_transform_0 i a) (S2048x512.size a) (S20000x1024.size a)).extent (S2048x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S20000x1024.size a
  hwx0_1 : ∀ i : grid0.Coords, EltTy.bits .f32 = 32 ∨ (Rect.unit (s := S20000x1024) (fun a => cc0_transform_1 i a * S2048x512.size a) (fun a => (Pipeline.Clip.of (cc0_transform_1 i a) (S2048x512.size a) (S20000x1024.size a)).extent (S2048x512.size a)) fun a => Pipeline.Clip.inb (Pipeline.Clip.ok_of (hstart0_1 i a))).WholeWords (EltTy.packing .f32)
  hwxs0_1 : ∀ i : grid0.Coords, EltTy.bits .f32 = 32 ∨ (Rect.unit (s := S2048x512) (fun _ => 0) (fun a => (Pipeline.Clip.of (cc0_transform_1 i a) (S2048x512.size a) (S20000x1024.size a)).extent (S2048x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S91x1024.size a ≤ S91x1024.size a
  hwx0_2 : ∀ i : grid0.Coords, EltTy.bits .f32 = 32 ∨ (Rect.block (s := S91x1024) S91x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x91.size a ≤ S1x91.size a
  hwx0_3 : ∀ i : grid0.Coords, EltTy.bits .f32 = 32 ∨ (Rect.block (s := S1x91) S1x91.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12x1024.size a ≤ S12x1024.size a
  hwx0_4 : ∀ i : grid0.Coords, EltTy.bits .f32 = 32 ∨ (Rect.block (s := S12x1024) S12x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x12.size a ≤ S1x12.size a
  hwx0_5 : ∀ i : grid0.Coords, EltTy.bits .f32 = 32 ∨ (Rect.block (s := S1x12) S1x12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10x1024.size a ≤ S10x1024.size a
  hwx0_6 : ∀ i : grid0.Coords, EltTy.bits .f32 = 32 ∨ (Rect.block (s := S10x1024) S10x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x1024.size a ≤ S8x1024.size a
  hwx0_8 : ∀ i : grid0.Coords, EltTy.bits .f32 = 32 ∨ (Rect.block (s := S8x1024) S8x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x8.size a ≤ S1x8.size a
  hwx0_9 : ∀ i : grid0.Coords, EltTy.bits .f32 = 32 ∨ (Rect.block (s := S1x8) S1x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S364x1024.size a ≤ S364x1024.size a
  hwx0_10 : ∀ i : grid0.Coords, EltTy.bits .f32 = 32 ∨ (Rect.block (s := S364x1024) S364x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x364.size a ≤ S1x364.size a
  hwx0_11 : ∀ i : grid0.Coords, EltTy.bits .f32 = 32 ∨ (Rect.block (s := S1x364) S1x364.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hstart0_12 : ∀ (i : grid0.Coords) a, cc0_transform_12 i a * S91x2048.size a < S91x20000.size a
  hwx0_12 : ∀ i : grid0.Coords, EltTy.bits .f32 = 32 ∨ (Rect.unit (s := S91x20000) (fun a => cc0_transform_12 i a * S91x2048.size a) (fun a => (Pipeline.Clip.of (cc0_transform_12 i a) (S91x2048.size a) (S91x20000.size a)).extent (S91x2048.size a)) fun a => Pipeline.Clip.inb (Pipeline.Clip.ok_of (hstart0_12 i a))).WholeWords (EltTy.packing .f32)
  hwxs0_12 : ∀ i : grid0.Coords, EltTy.bits .f32 = 32 ∨ (Rect.unit (s := S91x2048) (fun _ => 0) (fun a => (Pipeline.Clip.of (cc0_transform_12 i a) (S91x2048.size a) (S91x20000.size a)).extent (S91x2048.size a)) fun a => (Nat.zero_add _).trans_le (Pipeline.Clip.extent_le (Pipeline.Clip.ok_of (hstart0_12 i a)))).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hstart0_13 : ∀ (i : grid0.Coords) a, cc0_transform_13 i a * S12x2048.size a < S12x20000.size a
  hwx0_13 : ∀ i : grid0.Coords, EltTy.bits .f32 = 32 ∨ (Rect.unit (s := S12x20000) (fun a => cc0_transform_13 i a * S12x2048.size a) (fun a => (Pipeline.Clip.of (cc0_transform_13 i a) (S12x2048.size a) (S12x20000.size a)).extent (S12x2048.size a)) fun a => Pipeline.Clip.inb (Pipeline.Clip.ok_of (hstart0_13 i a))).WholeWords (EltTy.packing .f32)
  hwxs0_13 : ∀ i : grid0.Coords, EltTy.bits .f32 = 32 ∨ (Rect.unit (s := S12x2048) (fun _ => 0) (fun a => (Pipeline.Clip.of (cc0_transform_13 i a) (S12x2048.size a) (S12x20000.size a)).extent (S12x2048.size a)) fun a => (Nat.zero_add _).trans_le (Pipeline.Clip.extent_le (Pipeline.Clip.ok_of (hstart0_13 i a)))).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hstart0_14 : ∀ (i : grid0.Coords) a, cc0_transform_14 i a * S10x2048.size a < S10x20000.size a
  hwx0_14 : ∀ i : grid0.Coords, EltTy.bits .f32 = 32 ∨ (Rect.unit (s := S10x20000) (fun a => cc0_transform_14 i a * S10x2048.size a) (fun a => (Pipeline.Clip.of (cc0_transform_14 i a) (S10x2048.size a) (S10x20000.size a)).extent (S10x2048.size a)) fun a => Pipeline.Clip.inb (Pipeline.Clip.ok_of (hstart0_14 i a))).WholeWords (EltTy.packing .f32)
  hwxs0_14 : ∀ i : grid0.Coords, EltTy.bits .f32 = 32 ∨ (Rect.unit (s := S10x2048) (fun _ => 0) (fun a => (Pipeline.Clip.of (cc0_transform_14 i a) (S10x2048.size a) (S10x20000.size a)).extent (S10x2048.size a)) fun a => (Nat.zero_add _).trans_le (Pipeline.Clip.extent_le (Pipeline.Clip.ok_of (hstart0_14 i a)))).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hstart0_15 : ∀ (i : grid0.Coords) a, cc0_transform_15 i a * S8x2048.size a < S8x20000.size a
  hwx0_15 : ∀ i : grid0.Coords, EltTy.bits .f32 = 32 ∨ (Rect.unit (s := S8x20000) (fun a => cc0_transform_15 i a * S8x2048.size a) (fun a => (Pipeline.Clip.of (cc0_transform_15 i a) (S8x2048.size a) (S8x20000.size a)).extent (S8x2048.size a)) fun a => Pipeline.Clip.inb (Pipeline.Clip.ok_of (hstart0_15 i a))).WholeWords (EltTy.packing .f32)
  hwxs0_15 : ∀ i : grid0.Coords, EltTy.bits .f32 = 32 ∨ (Rect.unit (s := S8x2048) (fun _ => 0) (fun a => (Pipeline.Clip.of (cc0_transform_15 i a) (S8x2048.size a) (S8x20000.size a)).extent (S8x2048.size a)) fun a => (Nat.zero_add _).trans_le (Pipeline.Clip.extent_le (Pipeline.Clip.ok_of (hstart0_15 i a)))).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hstart0_16 : ∀ (i : grid0.Coords) a, cc0_transform_16 i a * S364x2048.size a < S364x20000.size a
  hwx0_16 : ∀ i : grid0.Coords, EltTy.bits .f32 = 32 ∨ (Rect.unit (s := S364x20000) (fun a => cc0_transform_16 i a * S364x2048.size a) (fun a => (Pipeline.Clip.of (cc0_transform_16 i a) (S364x2048.size a) (S364x20000.size a)).extent (S364x2048.size a)) fun a => Pipeline.Clip.inb (Pipeline.Clip.ok_of (hstart0_16 i a))).WholeWords (EltTy.packing .f32)
  hwxs0_16 : ∀ i : grid0.Coords, EltTy.bits .f32 = 32 ∨ (Rect.unit (s := S364x2048) (fun _ => 0) (fun a => (Pipeline.Clip.of (cc0_transform_16 i a) (S364x2048.size a) (S364x20000.size a)).extent (S364x2048.size a)) fun a => (Nat.zero_add _).trans_le (Pipeline.Clip.extent_le (Pipeline.Clip.ok_of (hstart0_16 i a)))).WholeWords (EltTy.packing .f32)

variable [Facts₀]

def dot_S500x512_S2048x512_S500x2048_1_1_0_0_n_n : DotDims S500x512 S2048x512 S500x2048 where
  lhsContracting := [1]
  rhsContracting := [1]
  lhsNonContracting := [0]
  rhsNonContracting := [0]
  lhsBatch := []
  rhsBatch := []
  wf := dot_S500x512_S2048x512_S500x2048_1_1_0_0_n_n_wf

abbrev win0_0 : Pipeline.Window sig grid0 :=
  Pipeline.Window.ofSpecClip (Memref.whole main_arg0) S2048x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S91x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x91.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S12x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S10x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S8x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S364x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x364.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpecClip (Memref.whole main_v10_0) S91x2048.size cc0_transform_12 reads0_12 true false 2 stage0_12 sem0_12
    hrank0 hreads0_12 hstart0_12 nbuf0_12 (Memref.isWhole_whole _) hwx0_12 hwxs0_12 hstage0_12

abbrev win0_13 : Pipeline.Window sig grid0 :=
  Pipeline.Window.ofSpecClip (Memref.whole main_v10_1) S12x2048.size cc0_transform_13 reads0_13 true false 2 stage0_13 sem0_13
    hrank0 hreads0_13 hstart0_13 nbuf0_13 (Memref.isWhole_whole _) hwx0_13 hwxs0_13 hstage0_13

abbrev win0_14 : Pipeline.Window sig grid0 :=
  Pipeline.Window.ofSpecClip (Memref.whole main_v10_2) S10x2048.size cc0_transform_14 reads0_14 true false 2 stage0_14 sem0_14
    hrank0 hreads0_14 hstart0_14 nbuf0_14 (Memref.isWhole_whole _) hwx0_14 hwxs0_14 hstage0_14

abbrev win0_15 : Pipeline.Window sig grid0 :=
  Pipeline.Window.ofSpecClip (Memref.whole main_v10_3) S8x2048.size cc0_transform_15 reads0_15 true false 2 stage0_15 sem0_15
    hrank0 hreads0_15 hstart0_15 nbuf0_15 (Memref.isWhole_whole _) hwx0_15 hwxs0_15 hstage0_15

abbrev win0_16 : Pipeline.Window sig grid0 :=
  Pipeline.Window.ofSpecClip (Memref.whole main_v10_4) S364x2048.size cc0_transform_16 reads0_16 true false 2 stage0_16 sem0_16
    hrank0 hreads0_16 hstart0_16 nbuf0_16 (Memref.isWhole_whole _) hwx0_16 hwxs0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S20000x1024 : Shape := ⟨2, ![20000, 1024]⟩
abbrev S1024x91 : Shape := ⟨2, ![1024, 91]⟩
abbrev S91 : Shape := ⟨1, ![91]⟩
abbrev S1024x12 : Shape := ⟨2, ![1024, 12]⟩
abbrev S12 : Shape := ⟨1, ![12]⟩
abbrev S1024x10 : Shape := ⟨2, ![1024, 10]⟩
abbrev S10 : Shape := ⟨1, ![10]⟩
abbrev S1024x8 : Shape := ⟨2, ![1024, 8]⟩
abbrev S8 : Shape := ⟨1, ![8]⟩
abbrev S1024x364 : Shape := ⟨2, ![1024, 364]⟩
abbrev S364 : Shape := ⟨1, ![364]⟩
abbrev S20000x12 : Shape := ⟨2, ![20000, 12]⟩
abbrev S1x12 : Shape := ⟨2, ![1, 12]⟩
abbrev S20000x10 : Shape := ⟨2, ![20000, 10]⟩
abbrev S1x10 : Shape := ⟨2, ![1, 10]⟩
abbrev S20000x8 : Shape := ⟨2, ![20000, 8]⟩
abbrev S1x8 : Shape := ⟨2, ![1, 8]⟩
abbrev S20000x91 : Shape := ⟨2, ![20000, 91]⟩
abbrev S1x91 : Shape := ⟨2, ![1, 91]⟩
abbrev S20000x364 : Shape := ⟨2, ![20000, 364]⟩
abbrev S1x364 : Shape := ⟨2, ![1, 364]⟩

abbrev nBuf : Space → Nat
  | .hbm => 31
  | .vmem => 0
  | .smem => 0
  | _ => 0

abbrev bufTy : (tb : Table) → Fin (tcTables nBuf tb) → BufTy
  | .hbm, ⟨0, _⟩ => ⟨S20000x1024, .f32⟩
  | .hbm, ⟨1, _⟩ => ⟨S1024x91, .f32⟩
  | .hbm, ⟨2, _⟩ => ⟨S91, .f32⟩
  | .hbm, ⟨3, _⟩ => ⟨S1024x12, .f32⟩
  | .hbm, ⟨4, _⟩ => ⟨S12, .f32⟩
  | .hbm, ⟨5, _⟩ => ⟨S1024x10, .f32⟩
  | .hbm, ⟨6, _⟩ => ⟨S10, .f32⟩
  | .hbm, ⟨7, _⟩ => ⟨S1024x8, .f32⟩
  | .hbm, ⟨8, _⟩ => ⟨S8, .f32⟩
  | .hbm, ⟨9, _⟩ => ⟨S1024x364, .f32⟩
  | .hbm, ⟨10, _⟩ => ⟨S364, .f32⟩
  | .hbm, ⟨11, _⟩ => ⟨S20000x12, .f32⟩
  | .hbm, ⟨12, _⟩ => ⟨S1x12, .f32⟩
  | .hbm, ⟨13, _⟩ => ⟨S20000x12, .f32⟩
  | .hbm, ⟨14, _⟩ => ⟨S20000x12, .f32⟩
  | .hbm, ⟨15, _⟩ => ⟨S20000x10, .f32⟩
  | .hbm, ⟨16, _⟩ => ⟨S1x10, .f32⟩
  | .hbm, ⟨17, _⟩ => ⟨S20000x10, .f32⟩
  | .hbm, ⟨18, _⟩ => ⟨S20000x10, .f32⟩
  | .hbm, ⟨19, _⟩ => ⟨S20000x8, .f32⟩
  | .hbm, ⟨20, _⟩ => ⟨S1x8, .f32⟩
  | .hbm, ⟨21, _⟩ => ⟨S20000x8, .f32⟩
  | .hbm, ⟨22, _⟩ => ⟨S20000x8, .f32⟩
  | .hbm, ⟨23, _⟩ => ⟨S20000x91, .f32⟩
  | .hbm, ⟨24, _⟩ => ⟨S1x91, .f32⟩
  | .hbm, ⟨25, _⟩ => ⟨S20000x91, .f32⟩
  | .hbm, ⟨26, _⟩ => ⟨S20000x91, .f32⟩
  | .hbm, ⟨27, _⟩ => ⟨S20000x364, .f32⟩
  | .hbm, ⟨28, _⟩ => ⟨S1x364, .f32⟩
  | .hbm, ⟨29, _⟩ => ⟨S20000x364, .f32⟩
  | .hbm, ⟨30, _⟩ => ⟨S20000x364, .f32⟩
  | _, _ => ⟨S20000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S12_S1x12_1 : S12.BroadcastsInDim S1x12 (![1] : Fin 1 → Fin S1x12.rank)
  bcast_S1x12_S20000x12_0_1 : S1x12.BroadcastsInDim S20000x12 (![0, 1] : Fin 2 → Fin S20000x12.rank)
  bcast_S10_S1x10_1 : S10.BroadcastsInDim S1x10 (![1] : Fin 1 → Fin S1x10.rank)
  bcast_S1x10_S20000x10_0_1 : S1x10.BroadcastsInDim S20000x10 (![0, 1] : Fin 2 → Fin S20000x10.rank)
  bcast_S8_S1x8_1 : S8.BroadcastsInDim S1x8 (![1] : Fin 1 → Fin S1x8.rank)
  bcast_S1x8_S20000x8_0_1 : S1x8.BroadcastsInDim S20000x8 (![0, 1] : Fin 2 → Fin S20000x8.rank)
  bcast_S91_S1x91_1 : S91.BroadcastsInDim S1x91 (![1] : Fin 1 → Fin S1x91.rank)
  bcast_S1x91_S20000x91_0_1 : S1x91.BroadcastsInDim S20000x91 (![0, 1] : Fin 2 → Fin S20000x91.rank)
  bcast_S364_S1x364_1 : S364.BroadcastsInDim S1x364 (![1] : Fin 1 → Fin S1x364.rank)
  bcast_S1x364_S20000x364_0_1 : S1x364.BroadcastsInDim S20000x364 (![0, 1] : Fin 2 → Fin S20000x364.rank)
  dot_S20000x1024_S1024x12_S20000x12_1_0_0_1_n_n_wf : DotDims.WF S20000x1024 S1024x12 S20000x12 [1] [0] [0] [1] [] []
  dot_S20000x1024_S1024x10_S20000x10_1_0_0_1_n_n_wf : DotDims.WF S20000x1024 S1024x10 S20000x10 [1] [0] [0] [1] [] []
  dot_S20000x1024_S1024x8_S20000x8_1_0_0_1_n_n_wf : DotDims.WF S20000x1024 S1024x8 S20000x8 [1] [0] [0] [1] [] []
  dot_S20000x1024_S1024x91_S20000x91_1_0_0_1_n_n_wf : DotDims.WF S20000x1024 S1024x91 S20000x91 [1] [0] [0] [1] [] []
  dot_S20000x1024_S1024x364_S20000x364_1_0_0_1_n_n_wf : DotDims.WF S20000x1024 S1024x364 S20000x364 [1] [0] [0] [1] [] []

variable [Facts₀]

def dot_S20000x1024_S1024x12_S20000x12_1_0_0_1_n_n : DotDims S20000x1024 S1024x12 S20000x12 where
  lhsContracting := [1]
  rhsContracting := [0]
  lhsNonContracting := [0]
  rhsNonContracting := [1]
  lhsBatch := []
  rhsBatch := []
  wf := dot_S20000x1024_S1024x12_S20000x12_1_0_0_1_n_n_wf
def dot_S20000x1024_S1024x10_S20000x10_1_0_0_1_n_n : DotDims S20000x1024 S1024x10 S20000x10 where
  lhsContracting := [1]
  rhsContracting := [0]
  lhsNonContracting := [0]
  rhsNonContracting := [1]
  lhsBatch := []
  rhsBatch := []
  wf := dot_S20000x1024_S1024x10_S20000x10_1_0_0_1_n_n_wf
def dot_S20000x1024_S1024x8_S20000x8_1_0_0_1_n_n : DotDims S20000x1024 S1024x8 S20000x8 where
  lhsContracting := [1]
  rhsContracting := [0]
  lhsNonContracting := [0]
  rhsNonContracting := [1]
  lhsBatch := []
  rhsBatch := []
  wf := dot_S20000x1024_S1024x8_S20000x8_1_0_0_1_n_n_wf
def dot_S20000x1024_S1024x91_S20000x91_1_0_0_1_n_n : DotDims S20000x1024 S1024x91 S20000x91 where
  lhsContracting := [1]
  rhsContracting := [0]
  lhsNonContracting := [0]
  rhsNonContracting := [1]
  lhsBatch := []
  rhsBatch := []
  wf := dot_S20000x1024_S1024x91_S20000x91_1_0_0_1_n_n_wf
def dot_S20000x1024_S1024x364_S20000x364_1_0_0_1_n_n : DotDims S20000x1024 S1024x364 S20000x364 where
  lhsContracting := [1]
  rhsContracting := [0]
  lhsNonContracting := [0]
  rhsNonContracting := [1]
  lhsBatch := []
  rhsBatch := []
  wf := dot_S20000x1024_S1024x364_S20000x364_1_0_0_1_n_n_wf

class Facts : Prop extends Facts₀ where

variable [Facts]
-- ==== Proof.K.Data.lean ====
/-
  The proof data of the kernel's one pipeline, read at the word level, for the frame alone.

  The region is entered after ten host operations (five transposes of the weights, five reshapes of the biases). The
  activations x : [20000, 1024] are read through two windows on the one array, the column halves of blocks of 2048 rows;
  the ten weight and bias arrays through whole-array windows; the five results [d_h, 20000] are written through windows of
  2048 columns, the tenth of which overhangs the array. At the word level the matrix product is opaque in a whole operand
  and the tenth block of x is only partly filled by its fetch, so nothing is said of what the body leaves in any staging
  buffer: every window's relation holds of all contents. Between grid points the kernel keeps two scratch buffers, of which
  the invariant says only that they are held whole at some contents. The two windows on x hold the two halves of the full
  share of the one array.
-/
import proofs.«152352_g44014824849815_cont_8to1_c_708_17_alg».proof.Proof.Gen.Kernel.Launch
import proofs.«152352_g44014824849815_cont_8to1_c_708_17_alg».proof.Proof.Gen.Kernel.Points
import Idealize.ShloMosaic.Lib.Pipeline.Kit
import Idealize.ShloMosaic.Lib.Pipeline.FrameSuffix
import Idealize.ShloMosaic.Lib.StableHlo.Run

noncomputable section

namespace Cert.Proof.K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-- Core c's buffers when the region is entered: the ten transposes and reshapes have run from the launch memory. -/
abbrev V (c : Dev nD) (b : Ref sig .tc) : Buf (Elt F) ((c : Thread nD τ).loc b) :=
  StableHlo.after [hostOps0 (F := F)].flatten (fun b => m (c, b)) b

/-- The proof data on core c: every windowed array as the region finds it, the two windows on x at the two halves of
    the full share; of what the body leaves in a staging buffer nothing is asked; the invariant is the two scratch
    buffers whole at some contents; nothing owed. -/
def rdats (_ : Fin 1) (c : Dev nD) : RDat τ (Elt F) Unit ℕ (UR sig nD τ) ℕ cfg0 c where
  A w := V m c (Pipeline.arrRef spec0 w)
  after _ _ _ _ := True
  Φ _ := Pipeline.scopedRest spec0 c
  q w := match w with
    | ⟨0, _⟩ => fullShare.left
    | ⟨1, _⟩ => fullShare.right
    | _ => fullShare
  owed _ := 0

/-- The kernel's variants: none. -/
abbrev 𝒱₀ : Variants := Variants.none

/-- The proof's resource algebra: one copy of the rounds library's, the pipeline's. -/
abbrev EP : Emb (UR sig nD τ) (MT nD τ sig Unit (Elt F) ℕ (UR sig nD τ) ℕ) := emb₁

/-- The buffers that bypass the region, as it is entered: the ten weight and bias arguments and the five final results,
    each whole at its entry contents. -/
def Zc (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg3) ↦{fullShare} V m c main_arg3) ∗ (((c : Thread nD τ).loc main_arg4) ↦{fullShare} V m c main_arg4)
    ∗ (((c : Thread nD τ).loc main_arg5) ↦{fullShare} V m c main_arg5) ∗ (((c : Thread nD τ).loc main_arg6) ↦{fullShare} V m c main_arg6)
    ∗ (((c : Thread nD τ).loc main_arg7) ↦{fullShare} V m c main_arg7) ∗ (((c : Thread nD τ).loc main_arg8) ↦{fullShare} V m c main_arg8)
    ∗ (((c : Thread nD τ).loc main_arg9) ↦{fullShare} V m c main_arg9) ∗ (((c : Thread nD τ).loc main_arg10) ↦{fullShare} V m c main_arg10)
    ∗ (((c : Thread nD τ).loc main_v11) ↦{fullShare} V m c main_v11) ∗ (((c : Thread nD τ).loc main_v12) ↦{fullShare} V m c main_v12)
    ∗ (((c : Thread nD τ).loc main_v13) ↦{fullShare} V m c main_v13) ∗ (((c : Thread nD τ).loc main_v14) ↦{fullShare} V m c main_v14)
    ∗ (((c : Thread nD τ).loc main_v15) ↦{fullShare} V m c main_v15))

/-- The same buffers after the five transposes that follow the region: the arguments as they were, the five final
    results at some contents. -/
def Zc' (c : Dev nD) : sProp 𝕄 :=
  iprop((((c : Thread nD τ).loc main_arg1) ↦{fullShare} V m c main_arg1) ∗ (((c : Thread nD τ).loc main_arg2) ↦{fullShare} V m c main_arg2)
    ∗ (((c : Thread nD τ).loc main_arg3) ↦{fullShare} V m c main_arg3) ∗ (((c : Thread nD τ).loc main_arg4) ↦{fullShare} V m c main_arg4)
    ∗ (((c : Thread nD τ).loc main_arg5) ↦{fullShare} V m c main_arg5) ∗ (((c : Thread nD τ).loc main_arg6) ↦{fullShare} V m c main_arg6)
    ∗ (((c : Thread nD τ).loc main_arg7) ↦{fullShare} V m c main_arg7) ∗ (((c : Thread nD τ).loc main_arg8) ↦{fullShare} V m c main_arg8)
    ∗ (((c : Thread nD τ).loc main_arg9) ↦{fullShare} V m c main_arg9) ∗ (((c : Thread nD τ).loc main_arg10) ↦{fullShare} V m c main_arg10)
    ∗ (∃ f, ((c : Thread nD τ).loc main_v11) ↦{fullShare} f) ∗ (∃ f, ((c : Thread nD τ).loc main_v12) ↦{fullShare} f)
    ∗ (∃ f, ((c : Thread nD τ).loc main_v13) ↦{fullShare} f) ∗ (∃ f, ((c : Thread nD τ).loc main_v14) ↦{fullShare} f)
    ∗ (∃ f, ((c : Thread nD τ).loc main_v15) ↦{fullShare} f))

end Cert.Proof.K

end
-- ==== Proof.K.Body.lean ====
/-
  The body of the kernel at the word level, for the frame: from every staging buffer and the two scratch buffers held whole
  at some contents, the body runs to its return and hands all of them back, each whole at some contents. At grid point 0
  the body first stacks the five transposed weights (as bf16) and the five biases into the scratch buffers; at every point it
  loads the two halves of the block of x, multiplies, adds the bias column and stores the five result blocks. Which of the
  two it does is decided by the grid coordinate; the proof runs both.
-/
import proofs.«152352_g44014824849815_cont_8to1_c_708_17_alg».proof.Proof.K.Data
import proofs.«152352_g44014824849815_cont_8to1_c_708_17_alg».proof.Proof.Gen.Kernel.Skeleton
import Idealize.ShloMosaic.Lib.Tactic

noncomputable section

namespace Cert.Proof.K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Idealize.ShloMosaic.Tactic
variable {F : FTy → Type} [FloatOps F]

local notation "𝕄" => MT nD τ sig Unit (Elt F) ℕ (UR sig nD τ) ℕ

variable (m : (ℓ : Loc nD τ sig) → Buf (Elt F) ℓ)

/-- A memref's buffer held whole at some contents. -/
abbrev anyAt (c : Dev nD) {sp : Space} {S : Shape} {e : EltTy} (M : Memref sig .tc sp S e) : sProp 𝕄 :=
  iprop(∃ f : Buf (Elt F) (M.view.loc (c : Thread nD τ)), M.view.loc (c : Thread nD τ) ↦[M.view.set]{fullShare} f)

/-- The body's one branch condition, from the grid coordinate: the coordinate is zero. -/
abbrev cond0 (i : grid0.Coords) : Prop :=
  Scalar.cmpi .ne (Scalar.extui (Scalar.cmpi .eq (BitVec.ofNat 32 (i 0).val) 0#32)) 0#32 = 1#1

set_option maxRecDepth 65536 in
/-- The body on whole memrefs, each held at some contents, runs to its return holding each at some contents. -/
theorem sound_kernel (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole)
    (K : PUnit → sProp 𝕄) :
    iprop(anyAt c arg1 ∗ anyAt c arg2 ∗ anyAt c arg3 ∗ anyAt c arg4 ∗ anyAt c arg5 ∗ anyAt c arg6 ∗ anyAt c arg7 ∗ anyAt c arg8 ∗ anyAt c arg9 ∗ anyAt c arg10 ∗ anyAt c arg11 ∗ anyAt c arg12 ∗ anyAt c arg13 ∗ anyAt c arg14 ∗ anyAt c arg15 ∗ anyAt c arg16 ∗ anyAt c arg17 ∗ anyAt c arg18 ∗ anyAt c arg19
        ∗ (iprop(anyAt c arg1 ∗ anyAt c arg2 ∗ anyAt c arg3 ∗ anyAt c arg4 ∗ anyAt c arg5 ∗ anyAt c arg6 ∗ anyAt c arg7 ∗ anyAt c arg8 ∗ anyAt c arg9 ∗ anyAt c arg10 ∗ anyAt c arg11 ∗ anyAt c arg12 ∗ anyAt c arg13 ∗ anyAt c arg14 ∗ anyAt c arg15 ∗ anyAt c arg16 ∗ anyAt c arg17 ∗ anyAt c arg18 ∗ anyAt c arg19) -∗ K ⟨⟩))
      ⊢ wp frame (wpE (defs₀ (F := F)) 𝒱₀ c none) Set.univ (cc0__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__heads_kernel_eq_skeleton]; unfold cc0__heads_kernel_skel
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, Hk⟩
  by_cases hc : cond0 i
  · sl_exec (disch := first | sl_exact hc | omega)
    sl_step
    iapply Hk
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19
  · sl_exec (disch := first | sl_exact hc | omega)
    sl_step
    iapply Hk
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

/-- The scratch buffers as the invariant holds them and as the body's run names them: one points-to each. -/
theorem scr0_eq (c : Dev nD) (f : Buf (Elt F) ((c : Thread nD τ).loc cc0_scratch0)) :
    ((Memref.whole cc0_scratch0 : Memref sig .tc .vmem S500x1024 .bf16).view.loc (c : Thread nD τ)
        ↦[(Memref.whole cc0_scratch0 : Memref sig .tc .vmem S500x1024 .bf16).view.set]{fullShare} f : sProp 𝕄)
      = ((c : Thread nD τ).loc cc0_scratch0) ↦{fullShare} f := by
  simp only [Memref.view_whole, View.set_whole]
theorem scr1_eq (c : Dev nD) (f : Buf (Elt F) ((c : Thread nD τ).loc cc0_scratch1)) :
    ((Memref.whole cc0_scratch1 : Memref sig .tc .vmem S500x1 .f32).view.loc (c : Thread nD τ)
        ↦[(Memref.whole cc0_scratch1 : Memref sig .tc .vmem S500x1 .f32).view.set]{fullShare} f : sProp 𝕄)
      = ((c : Thread nD τ).loc cc0_scratch1) ↦{fullShare} f := by
  simp only [Memref.view_whole, View.set_whole]

/-- The body at any grid point: every current staging buffer is handed over at the contents it holds and taken back at
    what the body left, of which nothing is asked; the invariant yields the two scratch buffers and takes them back; the
    core's owed tallies pass through unread. -/
theorem sound_body (c : Dev nD) (t : Fin cfg0.N) (Y : (w : Fin cfg0.W) → (cfg0.win w).block.Idx → Elt F (cfg0.win w).elt) :
    iprop((rdats m 0 c).Φ t.castSucc ∗ (rdats m 0 c).owesAt () t.castSucc
        ∗ owns (c : Thread nD τ) ((cfg0.win 0).stage (cfg0.slots t 0)) fullShare (Y 0)
        ∗ owns (c : Thread nD τ) ((cfg0.win 1).stage (cfg0.slots t 1)) fullShare (Y 1)
        ∗ owns (c : Thread nD τ) ((cfg0.win 2).stage (cfg0.slots t 2)) fullShare (Y 2)
        ∗ owns (c : Thread nD τ) ((cfg0.win 3).stage (cfg0.slots t 3)) fullShare (Y 3)
        ∗ owns (c : Thread nD τ) ((cfg0.win 4).stage (cfg0.slots t 4)) fullShare (Y 4)
        ∗ owns (c : Thread nD τ) ((cfg0.win 5).stage (cfg0.slots t 5)) fullShare (Y 5)
        ∗ owns (c : Thread nD τ) ((cfg0.win 6).stage (cfg0.slots t 6)) fullShare (Y 6)
        ∗ owns (c : Thread nD τ) ((cfg0.win 7).stage (cfg0.slots t 7)) fullShare (Y 7)
        ∗ owns (c : Thread nD τ) ((cfg0.win 8).stage (cfg0.slots t 8)) fullShare (Y 8)
        ∗ owns (c : Thread nD τ) ((cfg0.win 9).stage (cfg0.slots t 9)) fullShare (Y 9)
        ∗ owns (c : Thread nD τ) ((cfg0.win 10).stage (cfg0.slots t 10)) fullShare (Y 10)
        ∗ owns (c : Thread nD τ) ((cfg0.win 11).stage (cfg0.slots t 11)) fullShare (Y 11)
        ∗ owns (c : Thread nD τ) ((cfg0.win 12).stage (cfg0.slots t 12)) fullShare (Y 12)
        ∗ owns (c : Thread nD τ) ((cfg0.win 13).stage (cfg0.slots t 13)) fullShare (Y 13)
        ∗ owns (c : Thread nD τ) ((cfg0.win 14).stage (cfg0.slots t 14)) fullShare (Y 14)
        ∗ owns (c : Thread nD τ) ((cfg0.win 15).stage (cfg0.slots t 15)) fullShare (Y 15)
        ∗ owns (c : Thread nD τ) ((cfg0.win 16).stage (cfg0.slots t 16)) fullShare (Y 16))
      ⊢ wp frame (wpE (defs₀ (F := F)) 𝒱₀ c none) Set.univ (bodyAt0 t) (fun _ =>
        iprop((rdats m 0 c).Φ t.succ ∗ (rdats m 0 c).owesAt () t.succ
          ∗ (∃ X, ⌜(rdats m 0 c).after 0 t (Y 0) X⌝ ∗ owns (c : Thread nD τ) ((cfg0.win 0).stage (cfg0.slots t 0)) fullShare X)
          ∗ (∃ X, ⌜(rdats m 0 c).after 1 t (Y 1) X⌝ ∗ owns (c : Thread nD τ) ((cfg0.win 1).stage (cfg0.slots t 1)) fullShare X)
          ∗ (∃ X, ⌜(rdats m 0 c).after 2 t (Y 2) X⌝ ∗ owns (c : Thread nD τ) ((cfg0.win 2).stage (cfg0.slots t 2)) fullShare X)
          ∗ (∃ X, ⌜(rdats m 0 c).after 3 t (Y 3) X⌝ ∗ owns (c : Thread nD τ) ((cfg0.win 3).stage (cfg0.slots t 3)) fullShare X)
          ∗ (∃ X, ⌜(rdats m 0 c).after 4 t (Y 4) X⌝ ∗ owns (c : Thread nD τ) ((cfg0.win 4).stage (cfg0.slots t 4)) fullShare X)
          ∗ (∃ X, ⌜(rdats m 0 c).after 5 t (Y 5) X⌝ ∗ owns (c : Thread nD τ) ((cfg0.win 5).stage (cfg0.slots t 5)) fullShare X)
          ∗ (∃ X, ⌜(rdats m 0 c).after 6 t (Y 6) X⌝ ∗ owns (c : Thread nD τ) ((cfg0.win 6).stage (cfg0.slots t 6)) fullShare X)
          ∗ (∃ X, ⌜(rdats m 0 c).after 7 t (Y 7) X⌝ ∗ owns (c : Thread nD τ) ((cfg0.win 7).stage (cfg0.slots t 7)) fullShare X)
          ∗ (∃ X, ⌜(rdats m 0 c).after 8 t (Y 8) X⌝ ∗ owns (c : Thread nD τ) ((cfg0.win 8).stage (cfg0.slots t 8)) fullShare X)
          ∗ (∃ X, ⌜(rdats m 0 c).after 9 t (Y 9) X⌝ ∗ owns (c : Thread nD τ) ((cfg0.win 9).stage (cfg0.slots t 9)) fullShare X)
          ∗ (∃ X, ⌜(rdats m 0 c).after 10 t (Y 10) X⌝ ∗ owns (c : Thread nD τ) ((cfg0.win 10).stage (cfg0.slots t 10)) fullShare X)
          ∗ (∃ X, ⌜(rdats m 0 c).after 11 t (Y 11) X⌝ ∗ owns (c : Thread nD τ) ((cfg0.win 11).stage (cfg0.slots t 11)) fullShare X)
          ∗ (∃ X, ⌜(rdats m 0 c).after 12 t (Y 12) X⌝ ∗ owns (c : Thread nD τ) ((cfg0.win 12).stage (cfg0.slots t 12)) fullShare X)
          ∗ (∃ X, ⌜(rdats m 0 c).after 13 t (Y 13) X⌝ ∗ owns (c : Thread nD τ) ((cfg0.win 13).stage (cfg0.slots t 13)) fullShare X)
          ∗ (∃ X, ⌜(rdats m 0 c).after 14 t (Y 14) X⌝ ∗ owns (c : Thread nD τ) ((cfg0.win 14).stage (cfg0.slots t 14)) fullShare X)
          ∗ (∃ X, ⌜(rdats m 0 c).after 15 t (Y 15) X⌝ ∗ owns (c : Thread nD τ) ((cfg0.win 15).stage (cfg0.slots t 15)) fullShare X)
          ∗ (∃ X, ⌜(rdats m 0 c).after 16 t (Y 16) X⌝ ∗ owns (c : Thread nD τ) ((cfg0.win 16).stage (cfg0.slots t 16)) fullShare X))) := by
  rw [show (rdats m 0 c).Φ t.castSucc = Pipeline.scopedRest spec0 c from rfl,
    show (rdats m 0 c).Φ t.succ = Pipeline.scopedRest spec0 c from rfl,
    show (rdats m 0 c).owesAt () t.succ = (rdats m 0 c).owesAt () t.castSucc from rfl, scopedRest0_eq]
  unfold owns bodyAt0
  iintro ⟨⟨⟨%g18, H18⟩, ⟨%g19, H19⟩⟩, HO, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩, ⟨%f10, -, H10⟩, ⟨%f11, -, H11⟩, ⟨%f12, -, H12⟩, ⟨%f13, -, H13⟩, ⟨%f14, -, H14⟩, ⟨%f15, -, H15⟩, ⟨%f16, -, H16⟩, ⟨%f17, -, H17⟩⟩
  iapply (sound_kernel c (grid0.coords t) _ _ _ _ _ _ _ _ _ _ _ _ _ _ _ _ _ _ _ _ _ _ _ _ _ _ _ _ _ _ _ _ _ _ (Memref.whole cc0_scratch0) (Memref.isWhole_whole _) (Memref.whole cc0_scratch1) (Memref.isWhole_whole _) _)
  isplitl [H1]; · iexists f1; iexact H1
  isplitl [H2]; · iexists f2; iexact H2
  isplitl [H3]; · iexists f3; iexact H3
  isplitl [H4]; · iexists f4; iexact H4
  isplitl [H5]; · iexists f5; iexact H5
  isplitl [H6]; · iexists f6; iexact H6
  isplitl [H7]; · iexists f7; iexact H7
  isplitl [H8]; · iexists f8; iexact H8
  isplitl [H9]; · iexists f9; iexact H9
  isplitl [H10]; · iexists f10; iexact H10
  isplitl [H11]; · iexists f11; iexact H11
  isplitl [H12]; · iexists f12; iexact H12
  isplitl [H13]; · iexists f13; iexact H13
  isplitl [H14]; · iexists f14; iexact H14
  isplitl [H15]; · iexists f15; iexact H15
  isplitl [H16]; · iexists f16; iexact H16
  isplitl [H17]; · iexists f17; iexact H17
  isplitl [H18]; · iexists g18; rw [scr0_eq]; iexact H18
  isplitl [H19]; · iexists g19; rw [scr1_eq]; iexact H19
  iintro ⟨⟨%f1', H1⟩, ⟨%f2', H2⟩, ⟨%f3', H3⟩, ⟨%f4', H4⟩, ⟨%f5', H5⟩, ⟨%f6', H6⟩, ⟨%f7', H7⟩, ⟨%f8', H8⟩, ⟨%f9', H9⟩, ⟨%f10', H10⟩, ⟨%f11', H11⟩, ⟨%f12', H12⟩, ⟨%f13', H13⟩, ⟨%f14', H14⟩, ⟨%f15', H15⟩, ⟨%f16', H16⟩, ⟨%f17', H17⟩, ⟨%g18', H18⟩, ⟨%g19', H19⟩⟩
  isplitl [H18 H19]
  · isplitl [H18]; · iexists g18'; rw [← scr0_eq]; iexact H18
    iexists g19'; rw [← scr1_eq]; iexact H19
  isplitl [HO]; · iexact HO
  isplitl [H1]
  · iexists ((win0_0.stage (cfg0.slots t 0)).view.read (Elt F) f1'); isplitr; · ipureintro; trivial
    iexists f1'; isplitr; · ipureintro; rfl
    iexact H1
  isplitl [H2]
  · iexists ((win0_1.stage (cfg0.slots t 1)).view.read (Elt F) f2'); isplitr; · ipureintro; trivial
    iexists f2'; isplitr; · ipureintro; rfl
    iexact H2
  isplitl [H3]
  · iexists ((win0_2.stage (cfg0.slots t 2)).view.read (Elt F) f3'); isplitr; · ipureintro; trivial
    iexists f3'; isplitr; · ipureintro; rfl
    iexact H3
  isplitl [H4]
  · iexists ((win0_3.stage (cfg0.slots t 3)).view.read (Elt F) f4'); isplitr; · ipureintro; trivial
    iexists f4'; isplitr; · ipureintro; rfl
    iexact H4
  isplitl [H5]
  · iexists ((win0_4.stage (cfg0.slots t 4)).view.read (Elt F) f5'); isplitr; · ipureintro; trivial
    iexists f5'; isplitr; · ipureintro; rfl
    iexact H5
  isplitl [H6]
  · iexists ((win0_5.stage (cfg0.slots t 5)).view.read (Elt F) f6'); isplitr; · ipureintro; trivial
    iexists f6'; isplitr; · ipureintro; rfl
    iexact H6
  isplitl [H7]
  · iexists ((win0_6.stage (cfg0.slots t 6)).view.read (Elt F) f7'); isplitr; · ipureintro; trivial
    iexists f7'; isplitr; · ipureintro; rfl
    iexact H7
  isplitl [H8]
  · iexists ((win0_7.stage (cfg0.slots t 7)).view.read (Elt F) f8'); isplitr; · ipureintro; trivial
    iexists f8'; isplitr; · ipureintro; rfl
    iexact H8
  isplitl [H9]
  · iexists ((win0_8.stage (cfg0.slots t 8)).view.read (Elt F) f9'); isplitr; · ipureintro; trivial
    iexists f9'; isplitr; · ipureintro; rfl
    iexact H9
  isplitl [H10]
  · iexists ((win0_9.stage (cfg0.slots t 9)).view.read (Elt F) f10'); isplitr; · ipureintro; trivial
    iexists f10'; isplitr; · ipureintro; rfl
    iexact H10
  isplitl [H11]
  · iexists ((win0_10.stage (cfg0.slots t 10)).view.read (Elt F) f11'); isplitr; · ipureintro; trivial
    iexists f11'; isplitr; · ipureintro; rfl
    iexact H11
  isplitl [H12]
  · iexists ((win0_11.stage (cfg0.slots t 11)).view.read (Elt F) f12'); isplitr; · ipureintro; trivial
    iexists f12'; isplitr; · ipureintro; rfl
    iexact H12
  isplitl [H13]
  · iexists ((win0_12.stage (cfg0.slots t 12)).view.read (Elt F) f13'); isplitr; · ipureintro; trivial
    iexists f13'; isplitr; · ipureintro; rfl
    iexact H13
  isplitl [H14]
  · iexists ((win0_13.stage (cfg0.slots t 13)).view.read (Elt F) f14'); isplitr; · ipureintro; trivial
    iexists f14'; isplitr; · ipureintro; rfl
    iexact H14
  isplitl [H15]
  · iexists ((win0_14.stage (cfg0.slots t 14)).view.read (Elt F) f15'); isplitr; · ipureintro; trivial
    iexists f15'; isplitr; · ipureintro; rfl
    iexact H15
  isplitl [H16]
  · iexists ((win0_15.stage (cfg0.slots t 15)).view.read (Elt F) f16'); isplitr; · ipureintro; trivial
    iexists f16'; isplitr; · ipureintro; rfl
    iexact H16
  · iexists ((win0_16.stage (cfg0.slots t 16)).view.read (Elt F) f17'); isplitr; · ipureintro; trivial
    iexists f17'; isplitr; · ipureintro; rfl
    iexact H17

/-- The library's body obligation, at every grid point. -/
theorem body_obligation (c : Dev nD) : (rdats m 0 c).BodyObligation (defs₀ (F := F)) 𝒱₀ () Set.univ := fun t Y _ => by
  rw [bigSep_W0, bigSep_W0]
  exact sound_body m c t Y

end Cert.Proof.K

end
-- ==== Proof.K.Split.lean ====
/-
  The windows' arrays at the region's entry, read at the word level.

  Seventeen windows read or write sixteen distinct buffers: the activations x are read through two windows, the column
  halves of a block of rows, and each of the ten weight and bias arrays and of the five result arrays through one window.
  The launch hands the pipeline each of the sixteen buffers whole at the full share. The pipeline asks for one points-to
  per window, the two windows on x at the two halves of the full share. A points-to at a share q is the separating
  conjunction of the points-tos at the two halves of q, so the full share of x splits into the two the windows want and
  every other buffer passes as it is.
-/
import proofs.«152352_g44014824849815_cont_8to1_c_708_17_alg».proof.Proof.K.Data

set_option maxRecDepth 2688

noncomputable section

namespace Cert.Proof.K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-- The sixteen distinct buffers behind the seventeen windows' arrays, one by one. -/
theorem arrBufs_list (c : Dev nD) (V : (b : Ref sig .tc) → Buf (Elt F) ((c : Thread nD τ).loc b)) :
    (Pipeline.arrBufs spec0 c V : sProp 𝕄)
      = iprop((((c : Thread nD τ).loc main_arg0) ↦{fullShare} V main_arg0)
      ∗ (((c : Thread nD τ).loc main_v0) ↦{fullShare} V main_v0)
      ∗ (((c : Thread nD τ).loc main_v1) ↦{fullShare} V main_v1)
      ∗ (((c : Thread nD τ).loc main_v2) ↦{fullShare} V main_v2)
      ∗ (((c : Thread nD τ).loc main_v3) ↦{fullShare} V main_v3)
      ∗ (((c : Thread nD τ).loc main_v4) ↦{fullShare} V main_v4)
      ∗ (((c : Thread nD τ).loc main_v5) ↦{fullShare} V main_v5)
      ∗ (((c : Thread nD τ).loc main_v6) ↦{fullShare} V main_v6)
      ∗ (((c : Thread nD τ).loc main_v7) ↦{fullShare} V main_v7)
      ∗ (((c : Thread nD τ).loc main_v8) ↦{fullShare} V main_v8)
      ∗ (((c : Thread nD τ).loc main_v9) ↦{fullShare} V main_v9)
      ∗ (((c : Thread nD τ).loc main_v10_0) ↦{fullShare} V main_v10_0)
      ∗ (((c : Thread nD τ).loc main_v10_1) ↦{fullShare} V main_v10_1)
      ∗ (((c : Thread nD τ).loc main_v10_2) ↦{fullShare} V main_v10_2)
      ∗ (((c : Thread nD τ).loc main_v10_3) ↦{fullShare} V main_v10_3)
      ∗ (((c : Thread nD τ).loc main_v10_4) ↦{fullShare} V main_v10_4)) := by
  unfold Pipeline.arrBufs
  exact bigSep_eq_bigSepL_of_eq [main_arg0, main_v0, main_v1, main_v2, main_v3, main_v4, main_v5, main_v6, main_v7, main_v8, main_v9, main_v10_0, main_v10_1, main_v10_2, main_v10_3, main_v10_4] (by decide) (by decide) _

/-- The windowed arrays as whole-buffer points-tos, each at its window's share. -/
theorem arrays_whole (c : Dev nD) :
    (rdats m 0 c).arrays (rdats m 0 c).A
      = bigSep Finset.univ fun w : Fin 17 =>
          ((((c : Thread nD τ).loc (Pipeline.arrRef spec0 w)) ↦{(rdats m 0 c).share w} V m c (Pipeline.arrRef spec0 w)) : sProp 𝕄) := by
  unfold RDat.arrays
  exact bigSep_congr fun w _ => by rw [(arr_whole0 w).set_eq_univ]; rfl

/-- The windowed arrays one by one: the activations twice, at the two halves of the full share, then the ten weight and
    bias arrays and the five result arrays, whole at the full share. -/
theorem arrays_list (c : Dev nD) :
    (rdats m 0 c).arrays (rdats m 0 c).A
      = (iprop((((c : Thread nD τ).loc main_arg0) ↦{fullShare.left} V m c main_arg0)
      ∗ (((c : Thread nD τ).loc main_arg0) ↦{fullShare.right} V m c main_arg0)
      ∗ (((c : Thread nD τ).loc main_v0) ↦{fullShare} V m c main_v0)
      ∗ (((c : Thread nD τ).loc main_v1) ↦{fullShare} V m c main_v1)
      ∗ (((c : Thread nD τ).loc main_v2) ↦{fullShare} V m c main_v2)
      ∗ (((c : Thread nD τ).loc main_v3) ↦{fullShare} V m c main_v3)
      ∗ (((c : Thread nD τ).loc main_v4) ↦{fullShare} V m c main_v4)
      ∗ (((c : Thread nD τ).loc main_v5) ↦{fullShare} V m c main_v5)
      ∗ (((c : Thread nD τ).loc main_v6) ↦{fullShare} V m c main_v6)
      ∗ (((c : Thread nD τ).loc main_v7) ↦{fullShare} V m c main_v7)
      ∗ (((c : Thread nD τ).loc main_v8) ↦{fullShare} V m c main_v8)
      ∗ (((c : Thread nD τ).loc main_v9) ↦{fullShare} V m c main_v9)
      ∗ (((c : Thread nD τ).loc main_v10_0) ↦{fullShare} V m c main_v10_0)
      ∗ (((c : Thread nD τ).loc main_v10_1) ↦{fullShare} V m c main_v10_1)
      ∗ (((c : Thread nD τ).loc main_v10_2) ↦{fullShare} V m c main_v10_2)
      ∗ (((c : Thread nD τ).loc main_v10_3) ↦{fullShare} V m c main_v10_3)
      ∗ (((c : Thread nD τ).loc main_v10_4) ↦{fullShare} V m c main_v10_4)) : sProp 𝕄) := by
  rw [arrays_whole, Gen.bigSep_W0]
  rfl

/-- The sixteen buffers behind the windows' arrays, each whole at the full share, give the pipeline its seventeen
    arrays: the full share of the activations is cut into its two halves, one for each of the two windows on them. -/
theorem hsplit (c : Dev nD) :
    (Pipeline.arrBufs spec0 c (V m c) : sProp 𝕄) ⊢ (rdats m 0 c).arrays (rdats m 0 c).A := by
  rw [arrBufs_list, arrays_list]
  iintro ⟨Hx, H0, H1, H2, H3, H4, H5, H6, H7, H8, H9, Ho0, Ho1, Ho2, Ho3, Ho4⟩
  ihave Hx := (pointsTo_share (PosShare.mem_left_op_right fullShare)).1 $$ Hx
  icases Hx with ⟨Hxl, Hxr⟩
  isplitl [Hxl]; · iexact Hxl
  isplitl [Hxr]; · iexact Hxr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ho0]; · iexact Ho0
  isplitl [Ho1]; · iexact Ho1
  isplitl [Ho2]; · iexact Ho2
  isplitl [Ho3]; · iexact Ho3
  iexact Ho4

end Cert.Proof.K

end
-- ==== Proof.K.Tail.lean ====
/-
  The five host transposes that follow the region, for the frame at the word level.

  The kernel leaves its five results [d_h, 20000] in the arrays of its five output windows; @main then transposes each into
  a final result [20000, d_h]. At the region's exit the windowed arrays are held at SOME contents they may hold after every
  write-back, so the transposes are run from whatever those contents are: the five output windows are opened (each a whole
  buffer at the full share), the transposes run within the ten buffers they touch — five read, five written — at the
  valuation that puts the opened contents at the kernel's results and the region-entry contents everywhere else, and the
  arrays are handed back at the very contents, and with the very facts, they were opened at: no transpose writes one. The
  two windows on x, which hold the two halves of the full share of one array, and the ten weight and bias windows are
  carried across unopened, and so are the ten argument buffers that bypass the region; the five final results come back at
  whatever the transposes left in them.
-/
import proofs.«152352_g44014824849815_cont_8to1_c_708_17_alg».proof.Proof.K.Data

noncomputable section

namespace Cert.Proof.K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-- The ten buffers the five transposes touch: the kernel's five results, which they read, and the five final results,
    which they write. -/
def tailList : List (Ref sig .tc) :=
  [main_v10_0, main_v10_1, main_v10_2, main_v10_3, main_v10_4, main_v11, main_v12, main_v13, main_v14, main_v15]

/-- The same as a set of device buffers. -/
def tailSet : Finset (DevRef τ sig) :=
  tailList.toFinset.map ⟨Proc.devRef (sig := sig) (.tc : Proc τ), Proc.devRef_injective _⟩

/-- The ten buffers held whole at a valuation, one by one. -/
theorem held_tailSet (c : Dev nD) (W : Valuation τ sig (Elt F)) :
    (StableHlo.held (c : Thread nD τ) tailSet W : sProp 𝕄)
      = iprop((((c : Thread nD τ).loc main_v10_0) ↦{fullShare} W (Proc.devRef .tc main_v10_0))
          ∗ (((c : Thread nD τ).loc main_v10_1) ↦{fullShare} W (Proc.devRef .tc main_v10_1))
          ∗ (((c : Thread nD τ).loc main_v10_2) ↦{fullShare} W (Proc.devRef .tc main_v10_2))
          ∗ (((c : Thread nD τ).loc main_v10_3) ↦{fullShare} W (Proc.devRef .tc main_v10_3))
          ∗ (((c : Thread nD τ).loc main_v10_4) ↦{fullShare} W (Proc.devRef .tc main_v10_4))
          ∗ (((c : Thread nD τ).loc main_v11) ↦{fullShare} W (Proc.devRef .tc main_v11))
          ∗ (((c : Thread nD τ).loc main_v12) ↦{fullShare} W (Proc.devRef .tc main_v12))
          ∗ (((c : Thread nD τ).loc main_v13) ↦{fullShare} W (Proc.devRef .tc main_v13))
          ∗ (((c : Thread nD τ).loc main_v14) ↦{fullShare} W (Proc.devRef .tc main_v14))
          ∗ (((c : Thread nD τ).loc main_v15) ↦{fullShare} W (Proc.devRef .tc main_v15))) := by
  unfold StableHlo.held tailSet
  rw [bigSep_map, bigSep_eq_bigSepL tailList (by decide)]
  rfl

/-- The buffer contents as the five transposes find them: the kernel's five results at the given contents, every other
    buffer as the region was entered. -/
def Wt (c : Dev nD) (G0 : Buf (Elt F) ((c : Thread nD τ).loc main_v10_0)) (G1 : Buf (Elt F) ((c : Thread nD τ).loc main_v10_1))
    (G2 : Buf (Elt F) ((c : Thread nD τ).loc main_v10_2)) (G3 : Buf (Elt F) ((c : Thread nD τ).loc main_v10_3))
    (G4 : Buf (Elt F) ((c : Thread nD τ).loc main_v10_4)) : Valuation τ sig (Elt F) :=
  Function.update (Function.update (Function.update (Function.update (Function.update
    (StableHlo.after [hostOps0 (F := F)].flatten (fun b => m (c, b)))
    (Proc.devRef .tc main_v10_0) G0) (Proc.devRef .tc main_v10_1) G1) (Proc.devRef .tc main_v10_2) G2)
    (Proc.devRef .tc main_v10_3) G3) (Proc.devRef .tc main_v10_4) G4

/-- It holds the given contents at the kernel's results, -/
theorem Wt_0 (c : Dev nD) (G0 G1 G2 G3 G4) : Wt m c G0 G1 G2 G3 G4 (Proc.devRef .tc main_v10_0) = G0 := by
  unfold Wt
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)),
    Function.update_self]
theorem Wt_1 (c : Dev nD) (G0 G1 G2 G3 G4) : Wt m c G0 G1 G2 G3 G4 (Proc.devRef .tc main_v10_1) = G1 := by
  unfold Wt
  rw [Function.update_of_ne (StableHlo.devRef_ne_of_ne (by decide)), Function.update_of_ne (StableHlo.devRef_ne_of_ne (by decide)),
    Function.update_of_ne (StableHlo.devRef_ne_of_ne (by decide)), Function.update_self]
theorem Wt_2 (c : Dev nD) (G0 G1 G2 G3 G4) : Wt m c G0 G1 G2 G3 G4 (Proc.devRef .tc main_v10_2) = G2 := by
  unfold Wt
  rw [Function.update_of_ne (StableHlo.devRef_ne_of_ne (by decide)), Function.update_of_ne (StableHlo.devRef_ne_of_ne (by decide)),
    Function.update_self]
theorem Wt_3 (c : Dev nD) (G0 G1 G2 G3 G4) : Wt m c G0 G1 G2 G3 G4 (Proc.devRef .tc main_v10_3) = G3 := by
  unfold Wt
  rw [Function.update_of_ne (StableHlo.devRef_ne_of_ne (by decide)), Function.update_self]
theorem Wt_4 (c : Dev nD) (G0 G1 G2 G3 G4) : Wt m c G0 G1 G2 G3 G4 (Proc.devRef .tc main_v10_4) = G4 := by
  unfold Wt
  rw [Function.update_self]

/-- and every other buffer's contents as the region was entered. -/
theorem Wt_of_ne (c : Dev nD) (G0 G1 G2 G3 G4) (b : Ref sig .tc)
    (hb : b ≠ main_v10_0 ∧ b ≠ main_v10_1 ∧ b ≠ main_v10_2 ∧ b ≠ main_v10_3 ∧ b ≠ main_v10_4) :
    Wt m c G0 G1 G2 G3 G4 (Proc.devRef .tc b) = V m c b := by
  obtain ⟨h0, h1, h2, h3, h4⟩ := hb
  unfold Wt
  rw [Function.update_of_ne (StableHlo.devRef_ne_of_ne h4), Function.update_of_ne (StableHlo.devRef_ne_of_ne h3),
    Function.update_of_ne (StableHlo.devRef_ne_of_ne h2), Function.update_of_ne (StableHlo.devRef_ne_of_ne h1),
    Function.update_of_ne (StableHlo.devRef_ne_of_ne h0)]

/-- Each transpose touches two of the ten buffers. -/
theorem hostOps1_within : ∀ op ∈ hostOps1 (F := F), op.bufs ⊆ tailSet := by
  intro op hop
  simp only [List.mem_cons, List.mem_nil_iff, or_false] at hop
  rcases hop with rfl | rfl | rfl | rfl | rfl <;>
    (rw [StableHlo.unary_bufs]
     intro b hb
     simp only [Finset.mem_insert, Finset.mem_singleton] at hb
     rcases hb with rfl | rfl <;> exact Finset.mem_map_of_mem _ (by decide))

/-- None allocates. -/
theorem hostOps1_fresh : ∀ op ∈ hostOps1 (F := F), op.fresh = ∅ := by
  intro op hop
  simp only [List.mem_cons, List.mem_nil_iff, or_false] at hop
  rcases hop with rfl | rfl | rfl | rfl | rfl <;> rfl

/-- None writes a buffer other than the five final results: the kernel's results stay as the region left them. -/
theorem hostOps1_keeps (b : Ref sig .tc) (hb : b ≠ main_v11 ∧ b ≠ main_v12 ∧ b ≠ main_v13 ∧ b ≠ main_v14 ∧ b ≠ main_v15) :
    ∀ op ∈ hostOps1 (F := F), Proc.devRef .tc b ∉ op.writes := by
  obtain ⟨h1, h2, h3, h4, h5⟩ := hb
  intro op hop
  simp only [List.mem_cons, List.mem_nil_iff, or_false] at hop
  rcases hop with rfl | rfl | rfl | rfl | rfl <;>
    simp only [StableHlo.unary_writes, Finset.mem_singleton] <;>
    exact StableHlo.devRef_ne_of_ne ‹_›

/-- The ten buffers held at a valuation whose values there are known. -/
theorem held_tailSet_of (c : Dev nD) (W : Valuation τ sig (Elt F))
    {X0 : Buf (Elt F) ((c : Thread nD τ).loc main_v10_0)} {X1 : Buf (Elt F) ((c : Thread nD τ).loc main_v10_1)}
    {X2 : Buf (Elt F) ((c : Thread nD τ).loc main_v10_2)} {X3 : Buf (Elt F) ((c : Thread nD τ).loc main_v10_3)}
    {X4 : Buf (Elt F) ((c : Thread nD τ).loc main_v10_4)} {Y1 : Buf (Elt F) ((c : Thread nD τ).loc main_v11)}
    {Y2 : Buf (Elt F) ((c : Thread nD τ).loc main_v12)} {Y3 : Buf (Elt F) ((c : Thread nD τ).loc main_v13)}
    {Y4 : Buf (Elt F) ((c : Thread nD τ).loc main_v14)} {Y5 : Buf (Elt F) ((c : Thread nD τ).loc main_v15)}
    (e0 : W (Proc.devRef .tc main_v10_0) = X0) (e1 : W (Proc.devRef .tc main_v10_1) = X1) (e2 : W (Proc.devRef .tc main_v10_2) = X2)
    (e3 : W (Proc.devRef .tc main_v10_3) = X3) (e4 : W (Proc.devRef .tc main_v10_4) = X4) (d1 : W (Proc.devRef .tc main_v11) = Y1)
    (d2 : W (Proc.devRef .tc main_v12) = Y2) (d3 : W (Proc.devRef .tc main_v13) = Y3) (d4 : W (Proc.devRef .tc main_v14) = Y4)
    (d5 : W (Proc.devRef .tc main_v15) = Y5) :
    (StableHlo.held (c : Thread nD τ) tailSet W : sProp 𝕄)
      = iprop((((c : Thread nD τ).loc main_v10_0) ↦{fullShare} X0) ∗ (((c : Thread nD τ).loc main_v10_1) ↦{fullShare} X1)
          ∗ (((c : Thread nD τ).loc main_v10_2) ↦{fullShare} X2) ∗ (((c : Thread nD τ).loc main_v10_3) ↦{fullShare} X3)
          ∗ (((c : Thread nD τ).loc main_v10_4) ↦{fullShare} X4) ∗ (((c : Thread nD τ).loc main_v11) ↦{fullShare} Y1)
          ∗ (((c : Thread nD τ).loc main_v12) ↦{fullShare} Y2) ∗ (((c : Thread nD τ).loc main_v13) ↦{fullShare} Y3)
          ∗ (((c : Thread nD τ).loc main_v14) ↦{fullShare} Y4) ∗ (((c : Thread nD τ).loc main_v15) ↦{fullShare} Y5)) := by
  subst e0 e1 e2 e3 e4 d1 d2 d3 d4 d5
  exact held_tailSet c W

/-- The ten buffers as the transposes find them: the kernel's results at the given contents, the final results as the
    region was entered. -/
theorem held_Wt (c : Dev nD) (G0 G1 G2 G3 G4) :
    (StableHlo.held (c : Thread nD τ) tailSet (Wt m c G0 G1 G2 G3 G4) : sProp 𝕄)
      = iprop((((c : Thread nD τ).loc main_v10_0) ↦{fullShare} G0) ∗ (((c : Thread nD τ).loc main_v10_1) ↦{fullShare} G1)
          ∗ (((c : Thread nD τ).loc main_v10_2) ↦{fullShare} G2) ∗ (((c : Thread nD τ).loc main_v10_3) ↦{fullShare} G3)
          ∗ (((c : Thread nD τ).loc main_v10_4) ↦{fullShare} G4) ∗ (((c : Thread nD τ).loc main_v11) ↦{fullShare} V m c main_v11)
          ∗ (((c : Thread nD τ).loc main_v12) ↦{fullShare} V m c main_v12) ∗ (((c : Thread nD τ).loc main_v13) ↦{fullShare} V m c main_v13)
          ∗ (((c : Thread nD τ).loc main_v14) ↦{fullShare} V m c main_v14) ∗ (((c : Thread nD τ).loc main_v15) ↦{fullShare} V m c main_v15)) :=
  held_tailSet_of c (Wt m c G0 G1 G2 G3 G4) (Wt_0 m c G0 G1 G2 G3 G4) (Wt_1 m c G0 G1 G2 G3 G4) (Wt_2 m c G0 G1 G2 G3 G4)
    (Wt_3 m c G0 G1 G2 G3 G4) (Wt_4 m c G0 G1 G2 G3 G4) (Wt_of_ne m c G0 G1 G2 G3 G4 main_v11 (by decide))
    (Wt_of_ne m c G0 G1 G2 G3 G4 main_v12 (by decide)) (Wt_of_ne m c G0 G1 G2 G3 G4 main_v13 (by decide))
    (Wt_of_ne m c G0 G1 G2 G3 G4 main_v14 (by decide)) (Wt_of_ne m c G0 G1 G2 G3 G4 main_v15 (by decide))

/-- The contents after the five transposes, from there. -/
abbrev Wt' (c : Dev nD) (G0 : Buf (Elt F) ((c : Thread nD τ).loc main_v10_0)) (G1 : Buf (Elt F) ((c : Thread nD τ).loc main_v10_1))
    (G2 : Buf (Elt F) ((c : Thread nD τ).loc main_v10_2)) (G3 : Buf (Elt F) ((c : Thread nD τ).loc main_v10_3))
    (G4 : Buf (Elt F) ((c : Thread nD τ).loc main_v10_4)) : Valuation τ sig (Elt F) :=
  StableHlo.after (hostOps1 (F := F)) (Wt m c G0 G1 G2 G3 G4)

/-- A kernel's result is as the transposes found it: none writes it. -/
theorem Wt'_keep (c : Dev nD) (G0 G1 G2 G3 G4) (b : Ref sig .tc)
    (hb : b ≠ main_v11 ∧ b ≠ main_v12 ∧ b ≠ main_v13 ∧ b ≠ main_v14 ∧ b ≠ main_v15) :
    Wt' m c G0 G1 G2 G3 G4 (Proc.devRef .tc b) = Wt m c G0 G1 G2 G3 G4 (Proc.devRef .tc b) :=
  StableHlo.after_of_forall_not_mem (b := Proc.devRef .tc b) (hostOps1 (F := F)) (Wt m c G0 G1 G2 G3 G4) (hostOps1_keeps b hb)

/-- The ten buffers after the transposes: the kernel's results as found, the final results at what the transposes left. -/
theorem held_Wt' (c : Dev nD) (G0 G1 G2 G3 G4) :
    (StableHlo.held (c : Thread nD τ) tailSet (Wt' m c G0 G1 G2 G3 G4) : sProp 𝕄)
      = iprop((((c : Thread nD τ).loc main_v10_0) ↦{fullShare} G0) ∗ (((c : Thread nD τ).loc main_v10_1) ↦{fullShare} G1)
          ∗ (((c : Thread nD τ).loc main_v10_2) ↦{fullShare} G2) ∗ (((c : Thread nD τ).loc main_v10_3) ↦{fullShare} G3)
          ∗ (((c : Thread nD τ).loc main_v10_4) ↦{fullShare} G4)
          ∗ (((c : Thread nD τ).loc main_v11) ↦{fullShare} Wt' m c G0 G1 G2 G3 G4 (Proc.devRef .tc main_v11))
          ∗ (((c : Thread nD τ).loc main_v12) ↦{fullShare} Wt' m c G0 G1 G2 G3 G4 (Proc.devRef .tc main_v12))
          ∗ (((c : Thread nD τ).loc main_v13) ↦{fullShare} Wt' m c G0 G1 G2 G3 G4 (Proc.devRef .tc main_v13))
          ∗ (((c : Thread nD τ).loc main_v14) ↦{fullShare} Wt' m c G0 G1 G2 G3 G4 (Proc.devRef .tc main_v14))
          ∗ (((c : Thread nD τ).loc main_v15) ↦{fullShare} Wt' m c G0 G1 G2 G3 G4 (Proc.devRef .tc main_v15))) :=
  held_tailSet_of c (Wt' m c G0 G1 G2 G3 G4)
    ((Wt'_keep m c G0 G1 G2 G3 G4 main_v10_0 (by decide)).trans (Wt_0 m c G0 G1 G2 G3 G4))
    ((Wt'_keep m c G0 G1 G2 G3 G4 main_v10_1 (by decide)).trans (Wt_1 m c G0 G1 G2 G3 G4))
    ((Wt'_keep m c G0 G1 G2 G3 G4 main_v10_2 (by decide)).trans (Wt_2 m c G0 G1 G2 G3 G4))
    ((Wt'_keep m c G0 G1 G2 G3 G4 main_v10_3 (by decide)).trans (Wt_3 m c G0 G1 G2 G3 G4))
    ((Wt'_keep m c G0 G1 G2 G3 G4 main_v10_4 (by decide)).trans (Wt_4 m c G0 G1 G2 G3 G4)) rfl rfl rfl rfl rfl

-- the rule for a straight line of operations is stated for any thread; at the TensorCore thread it unifies only when
-- unification may unfold plain definitions in a metavariable's type
set_option backward.isDefEq.respectTransparency.types false in
/-- The run over the ten buffers alone: from the kernel's five results at any contents and the five final results as the
    region was entered, the transposes leave the former as they were and the latter at some contents. -/
theorem htail_core (c : Dev nD) (Q' : PUnit → sProp 𝕄) (G0 : Buf (Elt F) ((c : Thread nD τ).loc main_v10_0))
    (G1 : Buf (Elt F) ((c : Thread nD τ).loc main_v10_1)) (G2 : Buf (Elt F) ((c : Thread nD τ).loc main_v10_2))
    (G3 : Buf (Elt F) ((c : Thread nD τ).loc main_v10_3)) (G4 : Buf (Elt F) ((c : Thread nD τ).loc main_v10_4)) :
    iprop((iprop((((c : Thread nD τ).loc main_v10_0) ↦{fullShare} G0) ∗ (((c : Thread nD τ).loc main_v10_1) ↦{fullShare} G1)
            ∗ (((c : Thread nD τ).loc main_v10_2) ↦{fullShare} G2) ∗ (((c : Thread nD τ).loc main_v10_3) ↦{fullShare} G3)
            ∗ (((c : Thread nD τ).loc main_v10_4) ↦{fullShare} G4)
            ∗ (∃ f, ((c : Thread nD τ).loc main_v11) ↦{fullShare} f) ∗ (∃ f, ((c : Thread nD τ).loc main_v12) ↦{fullShare} f)
            ∗ (∃ f, ((c : Thread nD τ).loc main_v13) ↦{fullShare} f) ∗ (∃ f, ((c : Thread nD τ).loc main_v14) ↦{fullShare} f)
            ∗ (∃ f, ((c : Thread nD τ).loc main_v15) ↦{fullShare} f)) -∗ Q' ⟨⟩)
        ∗ boundary (c : Thread nD τ)
        ∗ (((c : Thread nD τ).loc main_v10_0) ↦{fullShare} G0) ∗ (((c : Thread nD τ).loc main_v10_1) ↦{fullShare} G1)
        ∗ (((c : Thread nD τ).loc main_v10_2) ↦{fullShare} G2) ∗ (((c : Thread nD τ).loc main_v10_3) ↦{fullShare} G3)
        ∗ (((c : Thread nD τ).loc main_v10_4) ↦{fullShare} G4) ∗ (((c : Thread nD τ).loc main_v11) ↦{fullShare} V m c main_v11)
        ∗ (((c : Thread nD τ).loc main_v12) ↦{fullShare} V m c main_v12) ∗ (((c : Thread nD τ).loc main_v13) ↦{fullShare} V m c main_v13)
        ∗ (((c : Thread nD τ).loc main_v14) ↦{fullShare} V m c main_v14) ∗ (((c : Thread nD τ).loc main_v15) ↦{fullShare} V m c main_v15))
      ⊢ wp frame (wpE (Pipeline.defs (pcfgs (F := F)) defs₀) (Variants.lift 𝒱₀) (c : Thread nD τ) none) Set.univ
          (Pipeline.chain ([hostOps1 (F := F)].map StableHlo.seq)) Q' := by
  rw [← held_Wt m c G0 G1 G2 G3 G4, List.map_cons, List.map_nil, Pipeline.chain_cons]
  iintro ⟨Hk, Hb⟩
  iapply (StableHlo.wp_seq (Variants.lift 𝒱₀) none Set.univ c tailSet _ (hostOps1 (F := F)) hostOps1_within hostOps1_fresh
    (Wt m c G0 G1 G2 G3 G4)) $$ Hb
  rw [show StableHlo.after (hostOps1 (F := F)) (Wt m c G0 G1 G2 G3 G4) = Wt' m c G0 G1 G2 G3 G4 from rfl, held_Wt' m c G0 G1 G2 G3 G4,
    Pipeline.chain_nil, wp_pure]
  iintro ⟨-, A0, A1, A2, A3, A4, B1, B2, B3, B4, B5⟩
  imodintro
  iapply Hk
  isplitl [A0]; · iexact A0
  isplitl [A1]; · iexact A1
  isplitl [A2]; · iexact A2
  isplitl [A3]; · iexact A3
  isplitl [A4]; · iexact A4
  isplitl [B1]; · iexists _; iexact B1
  isplitl [B2]; · iexists _; iexact B2
  isplitl [B3]; · iexists _; iexact B3
  isplitl [B4]; · iexists _; iexact B4
  iexists _; iexact B5

/-- An output window's array is a whole buffer held at the full share. -/
theorem out_pts (c : Dev nD) (w : Fin 17) (hout : (cfg0.win w).isOut = true)
    (G : Buf (Elt F) ((cfg0.win w).arr.view.loc (c : Thread nD τ))) :
    (((cfg0.win w).arr.view.loc (c : Thread nD τ)) ↦[(cfg0.win w).arr.view.set]{(rdats m 0 c).share w} G : sProp 𝕄)
      = (((c : Thread nD τ).loc (Pipeline.arrRef spec0 w)) ↦{fullShare} G) := by
  rw [(arr_whole0 w).set_eq_univ]
  unfold RDat.share
  rw [if_pos hout]

/-- THE FIVE TRANSPOSES AFTER THE REGION. From the region's exit — the boundary, the windowed arrays at some contents they
    may hold after every write-back, the bypassing buffers as the region was entered — the transposes run within the ten
    buffers they touch: each reads one of the kernel's results, which none writes, and writes one of the final results.
    They hand back the arrays at the very contents they were found at, and the bypassing buffers: the arguments as they were,
    the final results at whatever the transposes left. The two windows on x and the ten weight and bias windows are carried
    across unopened. -/
theorem htail (c : Dev nD) (Q' : PUnit → sProp 𝕄) :
    iprop((iprop((rdats m 0 c).arraysAt cfg0.N ∗ Zc' m c) -∗ Q' ⟨⟩)
        ∗ boundary (c : Thread nD τ) ∗ (rdats m 0 c).arraysAt cfg0.N ∗ Zc m c)
      ⊢ wp frame (wpE (Pipeline.defs (pcfgs (F := F)) defs₀) (Variants.lift 𝒱₀) (c : Thread nD τ) none) Set.univ
          (Pipeline.chain ([hostOps1 (F := F)].map StableHlo.seq)) Q' := by
  unfold RDat.arraysAt Zc Zc'
  rw [bigSep_W0]
  iintro ⟨Hk, Hb, ⟨H0, H1, H2, H3, H4, H5, H6, H7, H8, H9, H10, H11, ⟨%F12, %h12, H12⟩, ⟨%F13, %h13, H13⟩, ⟨%F14, %h14, H14⟩, ⟨%F15, %h15, H15⟩, ⟨%F16, %h16, H16⟩⟩,
    ⟨Z1, Z2, Z3, Z4, Z5, Z6, Z7, Z8, Z9, Z10, Z11, Z12, Z13, Z14, Z15⟩⟩
  -- the kernel's five results, each a whole buffer at the full share
  ihave A0 := (Entails.of_eq (out_pts m c 12 rfl F12)) $$ H12
  ihave A1 := (Entails.of_eq (out_pts m c 13 rfl F13)) $$ H13
  ihave A2 := (Entails.of_eq (out_pts m c 14 rfl F14)) $$ H14
  ihave A3 := (Entails.of_eq (out_pts m c 15 rfl F15)) $$ H15
  ihave A4 := (Entails.of_eq (out_pts m c 16 rfl F16)) $$ H16
  iapply (htail_core m c Q' F12 F13 F14 F15 F16)
  isplitl [Hk H0 H1 H2 H3 H4 H5 H6 H7 H8 H9 H10 H11 Z1 Z2 Z3 Z4 Z5 Z6 Z7 Z8 Z9 Z10]
  · iintro ⟨A0, A1, A2, A3, A4, B1, B2, B3, B4, B5⟩
    iapply Hk
    isplitl [H0 H1 H2 H3 H4 H5 H6 H7 H8 H9 H10 H11 A0 A1 A2 A3 A4]
    · -- the arrays, each at the contents it was found at
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [A0]
      · iexists F12; isplitr; · ipureintro; exact h12
        iapply (Entails.of_eq (out_pts m c 12 rfl F12).symm); iexact A0
      isplitl [A1]
      · iexists F13; isplitr; · ipureintro; exact h13
        iapply (Entails.of_eq (out_pts m c 13 rfl F13).symm); iexact A1
      isplitl [A2]
      · iexists F14; isplitr; · ipureintro; exact h14
        iapply (Entails.of_eq (out_pts m c 14 rfl F14).symm); iexact A2
      isplitl [A3]
      · iexists F15; isplitr; · ipureintro; exact h15
        iapply (Entails.of_eq (out_pts m c 15 rfl F15).symm); iexact A3
      iexists F16; isplitr; · ipureintro; exact h16
      iapply (Entails.of_eq (out_pts m c 16 rfl F16).symm); iexact A4
    -- the bypassing buffers: the arguments untouched, the final results at what the transposes left
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [B1]; · iexact B1
    isplitl [B2]; · iexact B2
    isplitl [B3]; · iexact B3
    isplitl [B4]; · iexact B4
    iexact B5
  isplitl [Hb]; · iexact Hb
  isplitl [A0]; · iexact A0
  isplitl [A1]; · iexact A1
  isplitl [A2]; · iexact A2
  isplitl [A3]; · iexact A3
  isplitl [A4]; · iexact A4
  isplitl [Z11]; · iexact Z11
  isplitl [Z12]; · iexact Z12
  isplitl [Z13]; · iexact Z13
  isplitl [Z14]; · iexact Z14
  iexact Z15

end Cert.Proof.K

end
-- ==== Proof.K.Run.lean ====
/-
  The launch of the kernel's one pipeline at the word level, and its run.

  @main is ten host operations (the weights transposed, the biases reshaped), the kernel region, five transposes of the
  region's results. The region is entered holding every windowed array as the host operations left it, the activations'
  array split in halves between its two windows; the ten weight and bias arguments and the five final results bypass the
  region; the two scratch buffers are the invariant. After the region the five transposes read the results' arrays, at
  whatever contents the region left, and write the final results. At the end the ten bypassing arguments are read back
  off their points-tos, which nothing wrote; the activations' array is an input window's, which the pipeline never
  writes, so it ends at its entry contents; and no host operation writes an argument.
-/
import proofs.«152352_g44014824849815_cont_8to1_c_708_17_alg».proof.Proof.K.Data
import proofs.«152352_g44014824849815_cont_8to1_c_708_17_alg».proof.Proof.K.Body
import proofs.«152352_g44014824849815_cont_8to1_c_708_17_alg».proof.Proof.K.Split
import proofs.«152352_g44014824849815_cont_8to1_c_708_17_alg».proof.Proof.K.Tail

noncomputable section

namespace Cert.Proof.K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-! ## The host operations before the region write no argument -/

/-- No host operation before the region writes a buffer other than its ten results. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    ∀ op ∈ [hostOps0 (F := F)].flatten, Proc.devRef .tc b ∉ op.writes := by
  obtain ⟨h0, h1, h2, h3, h4, h5, h6, h7, h8, h9⟩ := hb
  intro op hop
  simp only [List.flatten_cons, List.flatten_nil, List.append_nil, List.mem_cons, List.mem_nil_iff, or_false] at hop
  rcases hop with rfl | rfl | rfl | rfl | rfl | rfl | rfl | rfl | rfl | rfl <;>
    simp only [StableHlo.unary_writes, StableHlo.reshape_writes, Finset.mem_singleton] <;>
    exact StableHlo.devRef_ne_of_ne ‹_›

/-- Each argument reaches the region, and the end, as launched. -/
theorem V_arg (c : Dev nD) (b : Ref sig .tc) (hb : b ≠ main_v0 ∧ b ≠ main_v1 ∧ b ≠ main_v2 ∧ b ≠ main_v3 ∧ b ≠ main_v4 ∧ b ≠ main_v5 ∧ b ≠ main_v6 ∧ b ≠ main_v7 ∧ b ≠ main_v8 ∧ b ≠ main_v9) :
    V m c b = m ((c : Thread nD τ).loc b) :=
  StableHlo.after_of_forall_not_mem (b := Proc.devRef .tc b) [hostOps0 (F := F)].flatten (fun b => m (c, b)) (not_written b hb)

/-! ## @main around the region -/

/-- @main is the ten host operations, the region, the five transposes. -/
theorem hmain : Pipeline.HMainK (Ix := Unit) (Name := ℕ) (U := UR sig nD τ) (Lvl := ℕ) cfgs (0 : Fin 1) (defs₀ (F := F)) 𝒱₀ m (main (F := F)) (V m)
    (fun _ => Pipeline.chain ([hostOps1 (F := F)].map StableHlo.seq)) :=
  Pipeline.hmain_around cfgs 0 defs₀ 𝒱₀ m main [hostOps0] [hostOps1] hostOps0_sub
    (show (hostOps0 (F := F)).Forall (fun op => op.fresh = ∅) from List.forall_iff_forall_mem.mpr (by intro _ h; (repeat (cases h with | head => rfl | tail _ h => ?_)); exact nomatch h))
    (fun c => (main_chain c).trans rfl)

/-! ## The launch -/

/-- What is read back of the final state beside the windows' arrays: the ten weight and bias arguments as launched. -/
def QY (c : Dev nD) (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)
  ∧ s.mem ((c : Thread nD τ).loc main_arg10) = m ((c : Thread nD τ).loc main_arg10)

set_option backward.isDefEq.respectTransparency.types false in
/-- At the compiled mesh, from any memory with zero counters: every weakly fair execution of @main on the TensorCores
    terminates, nothing faulting, and every final state has the eleven argument arrays as they were. -/
theorem run_main (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.RDat.θ_run_region_pf_tail (fun p => (cfgs p).toPCfg (Val := Elt F)) (fun p => (cfgs p).toPCfg_adm) (rdats m) () cellOf_inj (0 : Fin 1)
    winFacts₀0 (Pipeline.OwnSemFacts.none _) (Pipeline.PreFacts.none _) EP defs₀ 𝒱₀ m g main
    (fun _ => Pipeline.chain ([hostOps1 (F := F)].map StableHlo.seq))
    (hbody := body_obligation m) (hne := block_pos0) (harr := arr_whole0) (hstage := stage_whole0) (howed := fun _ _ => rfl)
    (G := fun _ => iprop(emp)) (u₀ := initOf (Pipeline.cells (Pipeline.pin (fun p => (cfgs p).toPCfg (Val := Elt F)) fun p => (cfgs p).toPCfg_adm) cellOf_inj)
      (Pipeline.launchToks (Pipeline.pin (fun p => (cfgs p).toPCfg (Val := Elt F)) fun p => (cfgs p).toPCfg_adm) cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (V := V m) (hmain := hmain m) (hsplit := hsplit m) (hpf := fun _ k => k.elim0)
    (X := fun _ => iprop(emp)) (Y := fun _ => iprop(emp)) (Z := Zc m) (Z' := Zc' m)
    (hX := fun c => by
      rw [Pipeline.unscopedRestP_none, unscopedRest0_eq]
      unfold Zc
      iintro ⟨H, -⟩
      imodintro
      isplitr; · iempintro
      iexact H)
    (hin := fun c => by
      rw [show (rdats m 0 c).Φ 0 = Pipeline.scopedRest spec0 c from rfl]
      iintro ⟨-, -, H⟩
      iexact H)
    (hout := fun c => by
      rw [show (rdats m 0 c).Φ (Fin.last cfg0.N) = Pipeline.scopedRest spec0 c from rfl, Pipeline.ownSems0_none]
      iintro H
      isplitr; · iempintro
      isplitr; · iempintro
      iexact H)
    (htail := htail m)
    (QY := QY m)
    (hY := fun c s' => by
      unfold Zc'
      iintro ⟨-, ⟨H1, H2, H3, H4, H5, H6, H7, H8, H9, H10, -⟩, HSI⟩
      icombine HSI H1 gives %h1
      icombine HSI H2 gives %h2
      icombine HSI H3 gives %h3
      icombine HSI H4 gives %h4
      icombine HSI H5 gives %h5
      icombine HSI H6 gives %h6
      icombine HSI H7 gives %h7
      icombine HSI H8 gives %h8
      icombine HSI H9 gives %h9
      icombine HSI H10 gives %h10
      imodintro
      isplitr
      · ipureintro
        exact ⟨(Buf.eq_of_forall_mem_univ h1).trans (V_arg m c main_arg1 (by decide)),
          (Buf.eq_of_forall_mem_univ h2).trans (V_arg m c main_arg2 (by decide)),
          (Buf.eq_of_forall_mem_univ h3).trans (V_arg m c main_arg3 (by decide)),
          (Buf.eq_of_forall_mem_univ h4).trans (V_arg m c main_arg4 (by decide)),
          (Buf.eq_of_forall_mem_univ h5).trans (V_arg m c main_arg5 (by decide)),
          (Buf.eq_of_forall_mem_univ h6).trans (V_arg m c main_arg6 (by decide)),
          (Buf.eq_of_forall_mem_univ h7).trans (V_arg m c main_arg7 (by decide)),
          (Buf.eq_of_forall_mem_univ h8).trans (V_arg m c main_arg8 (by decide)),
          (Buf.eq_of_forall_mem_univ h9).trans (V_arg m c main_arg9 (by decide)),
          (Buf.eq_of_forall_mem_univ h10).trans (V_arg m c main_arg10 (by decide))⟩
      · iexact HSI)
    (hQ := fun s h c => by
      obtain ⟨ha, -, hy⟩ := h c
      have h0 := ha 0
      rw [(rdats m 0 c).ArrAt_in 0 rfl] at h0
      exact ⟨h0.trans (V_arg m c main_arg0 (by decide)), hy⟩)

end Cert.Proof.K

end
-- ==== Proof.K.Frame.lean ====
/-
  The frame of the kernel as printed, read at the word level: the statement of the claim, from the run.
-/
import proofs.«152352_g44014824849815_cont_8to1_c_708_17_alg».proof.Proof.K.Run
import proofs.«152352_g44014824849815_cont_8to1_c_708_17_alg».proof.Defs
import proofs.«152352_g44014824849815_cont_8to1_c_708_17_alg».proof.Proof.Gen.Pre_finite_inputs

noncomputable section

namespace Cert.Proof.K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ)

/-- THE FRAME of the kernel as printed, at the word level: @main runs to its end, nothing faulting, and leaves its eleven
    argument arrays as they were. -/
theorem frame : Cert.frame_Kernel := fun m g _ => run_main (F := Bits) m g

end Cert.Proof.K

end
-- ==== Proof.Spec.lean ====
/-
  Five linear heads on one activation array, as functions over the extended reals.
  A head with weight W : [1024, d] and bias b : [d] sends x : [20000, 1024] to the array whose entry (n, r) is
  the sum over k of x (n, k) · W (k, r), plus b r. The same entry, computed the other way round: with the weight stored
  output-major (Wt (r, k) = W (k, r)), the channel axis cut into its two halves of 512, each half contracted on its own,
  the factors in the other order, the bias read from a [1, d] row. Addition on the extended reals is commutative and
  associative and so is multiplication, so a sum over 1024 indices splits at 512 with no condition on the terms, and
  nothing here needs finite values.
-/
import Idealize.ShloMosaic.PureOps.Ideal.Laws
import Idealize.ShloMosaic.Lib.ValueIdx
import Mathlib.Algebra.BigOperators.Fin

noncomputable section

namespace Cert.Spec

open Idealize.ShloMosaic Idealize.ShloMosaic.ValueIdx
open scoped BigOperators

/-- Channel k of the first half of the 1024 channels. -/
abbrev lo (k : Fin 512) : Fin 1024 := ⟨k.val, by have := k.isLt; omega⟩
/-- Channel 512 + k, of the second half. -/
abbrev hi (k : Fin 512) : Fin 1024 := ⟨512 + k.val, by have := k.isLt; omega⟩

/-- One head, as the row-major product with the bias added along the rows: entry (n, r) is Σₖ x (n, k) · W (k, r) + b r. -/
def head {d : Nat} (x : FVec Ideal ⟨2, ![20000, 1024]⟩ .f32) (w : FVec Ideal ⟨2, ![1024, d]⟩ .f32)
    (b : FVec Ideal ⟨1, ![d]⟩ .f32) : FVec Ideal ⟨2, ![20000, d]⟩ .f32 :=
  fun i => (∑ k : Fin 1024, x (ix2 (i 0) k) * w (ix2 k (i 1))) + b (ix1 (i 1))

theorem head_apply {d : Nat} (x : FVec Ideal ⟨2, ![20000, 1024]⟩ .f32) (w : FVec Ideal ⟨2, ![1024, d]⟩ .f32)
    (b : FVec Ideal ⟨1, ![d]⟩ .f32) (n : Fin 20000) (r : Fin d) :
    head x w b (ix2 n r) = (∑ k : Fin 1024, x (ix2 n k) * w (ix2 k r)) + b (ix1 r) := rfl

/-- One head, transposed and in halves: from the output-major weight Wt : [d, 1024] and the bias row bR : [1, d],
    entry (r, n) is (Σ_{k<512} Wt (r, k) · x (n, k) + Σ_{k<512} Wt (r, 512 + k) · x (n, 512 + k)) + bR (0, r). -/
def headT {d : Nat} (wt : FVec Ideal ⟨2, ![d, 1024]⟩ .f32) (bR : FVec Ideal ⟨2, ![1, d]⟩ .f32)
    (x : FVec Ideal ⟨2, ![20000, 1024]⟩ .f32) : FVec Ideal ⟨2, ![d, 20000]⟩ .f32 :=
  fun i => ((∑ k : Fin 512, wt (ix2 (i 0) (lo k)) * x (ix2 (i 1) (lo k)))
      + ∑ k : Fin 512, wt (ix2 (i 0) (hi k)) * x (ix2 (i 1) (hi k))) + bR (ix2 (0 : Fin 1) (i 0))

theorem headT_apply {d : Nat} (wt : FVec Ideal ⟨2, ![d, 1024]⟩ .f32) (bR : FVec Ideal ⟨2, ![1, d]⟩ .f32)
    (x : FVec Ideal ⟨2, ![20000, 1024]⟩ .f32) (r : Fin d) (n : Fin 20000) :
    headT wt bR x (ix2 r n) = ((∑ k : Fin 512, wt (ix2 r (lo k)) * x (ix2 n (lo k)))
      + ∑ k : Fin 512, wt (ix2 r (hi k)) * x (ix2 n (hi k))) + bR (ix2 (0 : Fin 1) r) := rfl

/-- A sum over the 1024 channels is the sum over the first 512 plus the sum over the last 512. -/
theorem sum_halves (f : Fin 1024 → EReal) :
    ∑ k : Fin 1024, f k = (∑ k : Fin 512, f (lo k)) + ∑ k : Fin 512, f (hi k) := by
  rw [show (∑ k : Fin 1024, f k) = ∑ k : Fin (512 + 512), f k from rfl, Fin.sum_univ_add]
  rfl

/-- The two computations agree entry by entry when the output-major weight is the transpose of the weight and the
    bias row holds the bias: entry (r, n) of the one is entry (n, r) of the other. -/
theorem headT_eq_head {d : Nat} (x : FVec Ideal ⟨2, ![20000, 1024]⟩ .f32) (w : FVec Ideal ⟨2, ![1024, d]⟩ .f32)
    (b : FVec Ideal ⟨1, ![d]⟩ .f32) (wt : FVec Ideal ⟨2, ![d, 1024]⟩ .f32) (bR : FVec Ideal ⟨2, ![1, d]⟩ .f32)
    (hw : ∀ (r : Fin d) (k : Fin 1024), wt (ix2 r k) = w (ix2 k r)) (hb : ∀ r : Fin d, bR (ix2 (0 : Fin 1) r) = b (ix1 r))
    (n : Fin 20000) (r : Fin d) : headT wt bR x (ix2 r n) = head x w b (ix2 n r) := by
  rw [headT_apply, head_apply, sum_halves (fun k => x (ix2 n k) * w (ix2 k r)), hb]
  congr 2 <;> exact Finset.sum_congr rfl fun k _ => by rw [hw, mul_comm]

end Cert.Spec

end
-- ==== Proof.KI.Data.lean ====
/-
  The proof data of the idealized kernel's one pipeline, over the extended reals.

  The region is entered after ten host operations: each weight W_h : [1024, d_h] transposed to Wt_h : [d_h, 1024], each
  bias b_h : [d_h] reshaped to a row [1, d_h]. The activations x : [20000, 1024] are read through two windows, the
  column halves of blocks of 2048 rows; the ten weight and bias arrays through whole-array windows fetched once; the five
  results y_h : [d_h, 20000] are written through windows of 2048 columns. 20000 = 9 · 2048 + 1568, so the tenth block of
  x and of every y_h overhangs its array by 480 rows (columns): the fetch fills only the leading 1568 rows of the staging
  buffer and the write-back moves only the leading 1568 columns.

  What every staging buffer holds after the body at grid point t, on the part its transfers move:
    the two x windows, the block of x they fetched; the weight and bias windows, their arrays; the result window of head
    h, the block of columns [2048 t, 2048 t + 2048) of the array whose entry (r, n) is
        (Σ_{k<512} Wt_h (r, k) · x (n, k) + Σ_{k<512} Wt_h (r, 512 + k) · x (n, 512 + k)) + bias row_h (0, r)
    (`Cert.Spec.headT`). Past the array's end nothing is stated; the filler below is never read.
  Between grid points the kernel keeps two scratch buffers: a [500, 1024] stack of the five Wt_h at row offsets
  0, 96, 112, 128, 136 and a [500, 1] stack of the five biases at the same offsets, both written at grid point 0. The
  invariant says so from point 1 on (`Stacked`); the rows between the heads hold whatever the scratch held.
-/
import proofs.«152352_g44014824849815_cont_8to1_c_708_17_alg».proof.Proof.Gen.KernelIdeal.Launch
import proofs.«152352_g44014824849815_cont_8to1_c_708_17_alg».proof.Proof.Gen.KernelIdeal.Points
import proofs.«152352_g44014824849815_cont_8to1_c_708_17_alg».proof.Proof.Gen.KernelIdeal.Skeleton
import proofs.«152352_g44014824849815_cont_8to1_c_708_17_alg».proof.Proof.Spec
import Idealize.ShloMosaic.Lib.Pipeline.Kit
import Idealize.ShloMosaic.Lib.StableHlo.Run

noncomputable section

namespace Cert.Proof.KI

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## The buffers when the region is entered -/

/-- Core c's buffers at launch, as the host operations' valuation; -/
abbrev V₀ (c : Dev nD) : Valuation τ sig (Elt Ideal) := fun b => m (c, b)
/-- and when the region is entered: the ten transposes and reshapes have run. -/
abbrev V (c : Dev nD) (b : Ref sig .tc) : Buf (Elt Ideal) ((c : Thread nD τ).loc b) :=
  StableHlo.after (hostOps0 (F := Ideal)) (V₀ m c) (Proc.devRef .tc b)

/-- The activations, and per head the output-major weight and the bias row, as the region finds them. -/
abbrev xA (c : Dev nD) : FVec Ideal S20000x1024 .f32 := V m c main_arg0
abbrev wt0 (c : Dev nD) : FVec Ideal S91x1024 .f32 := V m c main_v0
abbrev br0 (c : Dev nD) : FVec Ideal S1x91 .f32 := V m c main_v1
abbrev wt1 (c : Dev nD) : FVec Ideal S12x1024 .f32 := V m c main_v2
abbrev br1 (c : Dev nD) : FVec Ideal S1x12 .f32 := V m c main_v3
abbrev wt2 (c : Dev nD) : FVec Ideal S10x1024 .f32 := V m c main_v4
abbrev br2 (c : Dev nD) : FVec Ideal S1x10 .f32 := V m c main_v5
abbrev wt3 (c : Dev nD) : FVec Ideal S8x1024 .f32 := V m c main_v6
abbrev br3 (c : Dev nD) : FVec Ideal S1x8 .f32 := V m c main_v7
abbrev wt4 (c : Dev nD) : FVec Ideal S364x1024 .f32 := V m c main_v8
abbrev br4 (c : Dev nD) : FVec Ideal S1x364 .f32 := V m c main_v9

/-- The five result arrays [d_h, 20000] the kernel computes. -/
def y0 (c : Dev nD) : FVec Ideal S91x20000 .f32 := Cert.Spec.headT (wt0 m c) (br0 m c) (xA m c)
def y1 (c : Dev nD) : FVec Ideal S12x20000 .f32 := Cert.Spec.headT (wt1 m c) (br1 m c) (xA m c)
def y2 (c : Dev nD) : FVec Ideal S10x20000 .f32 := Cert.Spec.headT (wt2 m c) (br2 m c) (xA m c)
def y3 (c : Dev nD) : FVec Ideal S8x20000 .f32 := Cert.Spec.headT (wt3 m c) (br3 m c) (xA m c)
def y4 (c : Dev nD) : FVec Ideal S364x20000 .f32 := Cert.Spec.headT (wt4 m c) (br4 m c) (xA m c)

/-! ## The proof data -/

/-- The array each window's staging buffer is a block of after the body: an input window's array as the region found
    it, a result window's the head it computes. -/
def target (c : Dev nD) : (w : Fin 17) → Buf (Elt Ideal) ((cfg0.win w).arr.view.loc (c : Thread nD τ))
  | ⟨0, _⟩ => V m c main_arg0
  | ⟨1, _⟩ => V m c main_arg0
  | ⟨2, _⟩ => V m c main_v0
  | ⟨3, _⟩ => V m c main_v1
  | ⟨4, _⟩ => V m c main_v2
  | ⟨5, _⟩ => V m c main_v3
  | ⟨6, _⟩ => V m c main_v4
  | ⟨7, _⟩ => V m c main_v5
  | ⟨8, _⟩ => V m c main_v6
  | ⟨9, _⟩ => V m c main_v7
  | ⟨10, _⟩ => V m c main_v8
  | ⟨11, _⟩ => V m c main_v9
  | ⟨12, _⟩ => y0 m c
  | ⟨13, _⟩ => y1 m c
  | ⟨14, _⟩ => y2 m c
  | ⟨15, _⟩ => y3 m c
  | ⟨16, _⟩ => y4 m c
  | ⟨_ + 17, h⟩ => absurd h (Nat.not_lt.2 (Nat.le_add_left _ _))

/-- Window w's block of an array G at grid point t, as a staging buffer's contents: the block's part inside the array on
    the buffer's leading part, and past the array's end a filler nothing reads. -/
def blockAt (c : Dev nD) (w : Fin 17) (t : Fin cfg0.N) (G : Buf (Elt Ideal) ((cfg0.win w).arr.view.loc (c : Thread nD τ))) :
    (cfg0.win w).block.Idx → Elt Ideal (cfg0.win w).elt :=
  (cfg0.win w).fill (grid0.coords t) (fun _ => Classical.arbitrary _) (((cfg0.win w).blk t).view.read (Elt Ideal) G)

/-- The scratch buffers hold the stacked weights and biases: rows [off_h, off_h + d_h) of the [500, 1024] stack are Wt_h,
    and of the [500, 1] stack the bias of head h, at offsets 0, 96, 112, 128, 136. -/
structure Stacked (c : Dev nD) (ws : FVec Ideal S500x1024 .bf16) (bs : FVec Ideal S500x1 .f32) : Prop where
  w0 : ∀ (r : Fin 91) (k : Fin 1024), (ws (ix2 (⟨r.val, by omega⟩ : Fin 500) k) : EReal) = wt0 m c (ix2 r k)
  w1 : ∀ (r : Fin 12) (k : Fin 1024), (ws (ix2 (⟨96 + r.val, by omega⟩ : Fin 500) k) : EReal) = wt1 m c (ix2 r k)
  w2 : ∀ (r : Fin 10) (k : Fin 1024), (ws (ix2 (⟨112 + r.val, by omega⟩ : Fin 500) k) : EReal) = wt2 m c (ix2 r k)
  w3 : ∀ (r : Fin 8) (k : Fin 1024), (ws (ix2 (⟨128 + r.val, by omega⟩ : Fin 500) k) : EReal) = wt3 m c (ix2 r k)
  w4 : ∀ (r : Fin 364) (k : Fin 1024), (ws (ix2 (⟨136 + r.val, by omega⟩ : Fin 500) k) : EReal) = wt4 m c (ix2 r k)
  b0 : ∀ r : Fin 91, bs (ix2 (⟨r.val, by omega⟩ : Fin 500) (0 : Fin 1)) = br0 m c (ix2 (0 : Fin 1) r)
  b1 : ∀ r : Fin 12, bs (ix2 (⟨96 + r.val, by omega⟩ : Fin 500) (0 : Fin 1)) = br1 m c (ix2 (0 : Fin 1) r)
  b2 : ∀ r : Fin 10, bs (ix2 (⟨112 + r.val, by omega⟩ : Fin 500) (0 : Fin 1)) = br2 m c (ix2 (0 : Fin 1) r)
  b3 : ∀ r : Fin 8, bs (ix2 (⟨128 + r.val, by omega⟩ : Fin 500) (0 : Fin 1)) = br3 m c (ix2 (0 : Fin 1) r)
  b4 : ∀ r : Fin 364, bs (ix2 (⟨136 + r.val, by omega⟩ : Fin 500) (0 : Fin 1)) = br4 m c (ix2 (0 : Fin 1) r)

/-- The invariant between grid points: the two scratch buffers whole, at some contents; from grid point 1 on, contents
    that hold the stacks. -/
def Φc (c : Dev nD) (t : Fin (cfg0.N + 1)) : sProp 𝕄 :=
  iprop(∃ (ws : Buf (Elt Ideal) ((c : Thread nD τ).loc cc0_scratch0)) (bs : Buf (Elt Ideal) ((c : Thread nD τ).loc cc0_scratch1)),
    ⌜t.val ≠ 0 → Stacked m c ws bs⌝ ∗ (((c : Thread nD τ).loc cc0_scratch0) ↦{fullShare} ws)
      ∗ (((c : Thread nD τ).loc cc0_scratch1) ↦{fullShare} bs))

/-- The proof data on core c: every windowed array as the region finds it (the two windows on x at half shares of the
    one array); after the body each staging buffer at its window's block of `target`; the scratch invariant; nothing
    owed. -/
def dats (_ : Fin 1) (c : Dev nD) : Dat τ (Elt Ideal) Unit ℕ (UR sig nD τ) ℕ cfg0 c where
  A w := V m c (Pipeline.arrRef spec0 w)
  after w t := blockAt c w t (target m c w)
  Φ t := Φc m c t
  q w := match w with
    | ⟨0, _⟩ => fullShare.left
    | ⟨1, _⟩ => fullShare.right
    | _ => fullShare
  owed _ := 0

/-- The kernel's variants: none. -/
abbrev 𝒱₀ : Variants := Variants.none

/-- The proof's resource algebra: one copy of the rounds library's, the pipeline's. -/
abbrev EP : Emb (UR sig nD τ) (MT nD τ sig Unit (Elt Ideal) ℕ (UR sig nD τ) ℕ) := emb₁

end Cert.Proof.KI

end
-- ==== Proof.KI.Before.lean ====
/-
  What the body finds in each staging buffer at a grid point, and the part of a result block that its write-back moves.

  The two windows on x are fetched at every grid point: at point t each buffer holds its block of x, rows
  [2048 t, 2048 t + 2048) and columns [0, 512) resp. [512, 1024), on the rows inside the array (all 2048 at points 0..8,
  the leading 1568 at point 9, since 20000 = 9 · 2048 + 1568) and contents nothing states below them. So entry (n, k) of
  the buffer is x (2048 t + n, k) resp. x (2048 t + n, 512 + k) whenever 2048 t + n < 20000.
  The ten weight and bias windows each span their whole array, are fetched once and never written: the one block of
  such a window is the array (block index (0, 0), nothing cut), and at every grid point the buffer holds the array.
  The five result buffers are written back at every grid point, so each arrives holding contents nothing states.
  The write-back of a result block at point t moves all rows and exactly the columns n with 2048 t + n < 20000; contents
  that agree with head h at (r, 2048 t + n) for those n therefore have the same moved part as the block of head h.
-/
import proofs.«152352_g44014824849815_cont_8to1_c_708_17_alg».proof.Proof.KI.Data
import Idealize.ShloMosaic.Lib.Pipeline.FrameBody

noncomputable section

namespace Cert.Proof.KI

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## The two windows on the activations -/

theorem x0_idx : ∀ t : Fin cfg0.N, win0_0.index t (0 : Fin 2) = t.val ∧ win0_0.index t (1 : Fin 2) = 0
    ∧ win0_0.xsize (grid0.coords t) (0 : Fin 2) = min 2048 (20000 - t.val * 2048)
    ∧ win0_0.xsize (grid0.coords t) (1 : Fin 2) = 512 :=
  (by decide +kernel : ∀ t : Fin grid0.N, _)

theorem before_x0 (c : Dev nD) (t : Fin cfg0.N) (d) :
    (dats m 0 c).before (0 : Fin 17) t d
      = win0_0.fill (grid0.coords t) d ((win0_0.blk t).view.read (Elt Ideal) (xA m c)) := by
  rw [(dats m 0 c).before_fetched (0 : Fin 17) t (fetch0_0 t) d]; rfl

theorem x1_idx : ∀ t : Fin cfg0.N, win0_1.index t (0 : Fin 2) = t.val ∧ win0_1.index t (1 : Fin 2) = 1
    ∧ win0_1.xsize (grid0.coords t) (0 : Fin 2) = min 2048 (20000 - t.val * 2048)
    ∧ win0_1.xsize (grid0.coords t) (1 : Fin 2) = 512 :=
  (by decide +kernel : ∀ t : Fin grid0.N, _)

theorem before_x1 (c : Dev nD) (t : Fin cfg0.N) (d) :
    (dats m 0 c).before (1 : Fin 17) t d
      = win0_1.fill (grid0.coords t) d ((win0_1.blk t).view.read (Elt Ideal) (xA m c)) := by
  rw [(dats m 0 c).before_fetched (1 : Fin 17) t (fetch0_1 t) d]; rfl

theorem x0_at (c : Dev nD) (t : Fin cfg0.N) (d) (n : Fin 2048) (k : Fin 512) (hn : t.val * 2048 + n.val < 20000) :
    win0_0.fill (grid0.coords t) d ((win0_0.blk t).view.read (Elt Ideal) (xA m c)) (ix2 n k)
      = xA m c (ix2 ⟨t.val * 2048 + n.val, hn⟩ (Cert.Spec.lo k)) := by
  obtain ⟨e0, e1, s0, s1⟩ := x0_idx t
  have hm : win0_0.moved (grid0.coords t) (ix2 n k) = true := by
    rw [Window.moved_iff]; intro a
    match a with
    | ⟨0, _⟩ => show n.val < win0_0.xsize (grid0.coords t) (0 : Fin 2); rw [s0]; have := n.isLt; omega
    | ⟨1, _⟩ => show k.val < win0_0.xsize (grid0.coords t) (1 : Fin 2); rw [s1]; exact k.isLt
  unfold Window.fill; rw [dif_pos hm]
  show xA m c ((win0_0.blk t).view.emb _) = xA m c _
  congr 1
  funext a; apply Fin.ext
  match a with
  | ⟨0, _⟩ => show win0_0.index t (0 : Fin 2) * 2048 + 1 * n.val = t.val * 2048 + n.val; rw [e0]; omega
  | ⟨1, _⟩ => show win0_0.index t (1 : Fin 2) * 512 + 1 * k.val = k.val; rw [e1]; omega

theorem x1_at (c : Dev nD) (t : Fin cfg0.N) (d) (n : Fin 2048) (k : Fin 512) (hn : t.val * 2048 + n.val < 20000) :
    win0_1.fill (grid0.coords t) d ((win0_1.blk t).view.read (Elt Ideal) (xA m c)) (ix2 n k)
      = xA m c (ix2 ⟨t.val * 2048 + n.val, hn⟩ (Cert.Spec.hi k)) := by
  obtain ⟨e0, e1, s0, s1⟩ := x1_idx t
  have hm : win0_1.moved (grid0.coords t) (ix2 n k) = true := by
    rw [Window.moved_iff]; intro a
    match a with
    | ⟨0, _⟩ => show n.val < win0_1.xsize (grid0.coords t) (0 : Fin 2); rw [s0]; have := n.isLt; omega
    | ⟨1, _⟩ => show k.val < win0_1.xsize (grid0.coords t) (1 : Fin 2); rw [s1]; exact k.isLt
  unfold Window.fill; rw [dif_pos hm]
  show xA m c ((win0_1.blk t).view.emb _) = xA m c _
  congr 1
  funext a; apply Fin.ext
  match a with
  | ⟨0, _⟩ => show win0_1.index t (0 : Fin 2) * 2048 + 1 * n.val = t.val * 2048 + n.val; rw [e0]; omega
  | ⟨1, _⟩ => show win0_1.index t (1 : Fin 2) * 512 + 1 * k.val = 512 + k.val; rw [e1]; omega

/-- What the body leaves in the buffer of this window, on the part the fetch moves, is the block of x it fetched. -/
theorem cut_after_x0 (c : Dev nD) (t : Fin cfg0.N) :
    win0_0.cut (grid0.coords t) ((dats m 0 c).after (0 : Fin 17) t) = (win0_0.blk t).view.read (Elt Ideal) (xA m c) := by
  dsimp only [dats, blockAt, target]
  exact win0_0.cut_fill _ _ _

/-- What the body leaves in the buffer of this window, on the part the fetch moves, is the block of x it fetched. -/
theorem cut_after_x1 (c : Dev nD) (t : Fin cfg0.N) :
    win0_1.cut (grid0.coords t) ((dats m 0 c).after (1 : Fin 17) t) = (win0_1.blk t).view.read (Elt Ideal) (xA m c) := by
  dsimp only [dats, blockAt, target]
  exact win0_1.cut_fill _ _ _

/-! ## The ten whole-array windows: a fill leaves nothing of the prior contents, and the one block is the array -/

theorem fill_w2 {α : Type} (i : grid0.Coords) (d : win0_2.block.Idx → α) (g : (win0_2.xblock i).Idx → α) :
    win0_2.fill i d g = g := by
  funext j; unfold Window.fill; rw [dif_pos (show win0_2.moved i j = true from rfl)]

theorem read_w2 (t : Fin cfg0.N) (A : FVec Ideal S91x1024 .f32) : (win0_2.blk t).view.read (Elt Ideal) A = A := by
  funext j
  show A ((win0_2.blk t).view.emb j) = A j
  congr 1
  funext a; apply Fin.ext
  match a with
  | ⟨0, _⟩ => show win0_2.index t (0 : Fin 2) * 91 + 1 * (j 0).val = (j 0).val; rw [show win0_2.index t (0 : Fin 2) = 0 from rfl]; omega
  | ⟨1, _⟩ => show win0_2.index t (1 : Fin 2) * 1024 + 1 * (j 1).val = (j 1).val; rw [show win0_2.index t (1 : Fin 2) = 0 from rfl]; omega

theorem after_w2 (c : Dev nD) (t : Fin cfg0.N) : (dats m 0 c).after (2 : Fin 17) t = wt0 m c := by
  dsimp only [dats, blockAt, target]
  exact (fill_w2 _ _ _).trans (read_w2 t _)

theorem before_w2 (c : Dev nD) (t : Fin cfg0.N) (d) : (dats m 0 c).before (2 : Fin 17) t d = wt0 m c := by
  rw [(dats m 0 c).before_in_eq_fetched (2 : Fin 17) rfl (fun _ => rfl) (fun _ _ _ => rfl)
    (fun t => by rw [after_w2]; exact (read_w2 t _).symm) t d]
  exact (fill_w2 _ _ _).trans (read_w2 t _)

theorem fill_w3 {α : Type} (i : grid0.Coords) (d : win0_3.block.Idx → α) (g : (win0_3.xblock i).Idx → α) :
    win0_3.fill i d g = g := by
  funext j; unfold Window.fill; rw [dif_pos (show win0_3.moved i j = true from rfl)]

theorem read_w3 (t : Fin cfg0.N) (A : FVec Ideal S1x91 .f32) : (win0_3.blk t).view.read (Elt Ideal) A = A := by
  funext j
  show A ((win0_3.blk t).view.emb j) = A j
  congr 1
  funext a; apply Fin.ext
  match a with
  | ⟨0, _⟩ => show win0_3.index t (0 : Fin 2) * 1 + 1 * (j 0).val = (j 0).val; rw [show win0_3.index t (0 : Fin 2) = 0 from rfl]; omega
  | ⟨1, _⟩ => show win0_3.index t (1 : Fin 2) * 91 + 1 * (j 1).val = (j 1).val; rw [show win0_3.index t (1 : Fin 2) = 0 from rfl]; omega

theorem after_w3 (c : Dev nD) (t : Fin cfg0.N) : (dats m 0 c).after (3 : Fin 17) t = br0 m c := by
  dsimp only [dats, blockAt, target]
  exact (fill_w3 _ _ _).trans (read_w3 t _)

theorem before_w3 (c : Dev nD) (t : Fin cfg0.N) (d) : (dats m 0 c).before (3 : Fin 17) t d = br0 m c := by
  rw [(dats m 0 c).before_in_eq_fetched (3 : Fin 17) rfl (fun _ => rfl) (fun _ _ _ => rfl)
    (fun t => by rw [after_w3]; exact (read_w3 t _).symm) t d]
  exact (fill_w3 _ _ _).trans (read_w3 t _)

theorem fill_w4 {α : Type} (i : grid0.Coords) (d : win0_4.block.Idx → α) (g : (win0_4.xblock i).Idx → α) :
    win0_4.fill i d g = g := by
  funext j; unfold Window.fill; rw [dif_pos (show win0_4.moved i j = true from rfl)]

theorem read_w4 (t : Fin cfg0.N) (A : FVec Ideal S12x1024 .f32) : (win0_4.blk t).view.read (Elt Ideal) A = A := by
  funext j
  show A ((win0_4.blk t).view.emb j) = A j
  congr 1
  funext a; apply Fin.ext
  match a with
  | ⟨0, _⟩ => show win0_4.index t (0 : Fin 2) * 12 + 1 * (j 0).val = (j 0).val; rw [show win0_4.index t (0 : Fin 2) = 0 from rfl]; omega
  | ⟨1, _⟩ => show win0_4.index t (1 : Fin 2) * 1024 + 1 * (j 1).val = (j 1).val; rw [show win0_4.index t (1 : Fin 2) = 0 from rfl]; omega

theorem after_w4 (c : Dev nD) (t : Fin cfg0.N) : (dats m 0 c).after (4 : Fin 17) t = wt1 m c := by
  dsimp only [dats, blockAt, target]
  exact (fill_w4 _ _ _).trans (read_w4 t _)

theorem before_w4 (c : Dev nD) (t : Fin cfg0.N) (d) : (dats m 0 c).before (4 : Fin 17) t d = wt1 m c := by
  rw [(dats m 0 c).before_in_eq_fetched (4 : Fin 17) rfl (fun _ => rfl) (fun _ _ _ => rfl)
    (fun t => by rw [after_w4]; exact (read_w4 t _).symm) t d]
  exact (fill_w4 _ _ _).trans (read_w4 t _)

theorem fill_w5 {α : Type} (i : grid0.Coords) (d : win0_5.block.Idx → α) (g : (win0_5.xblock i).Idx → α) :
    win0_5.fill i d g = g := by
  funext j; unfold Window.fill; rw [dif_pos (show win0_5.moved i j = true from rfl)]

theorem read_w5 (t : Fin cfg0.N) (A : FVec Ideal S1x12 .f32) : (win0_5.blk t).view.read (Elt Ideal) A = A := by
  funext j
  show A ((win0_5.blk t).view.emb j) = A j
  congr 1
  funext a; apply Fin.ext
  match a with
  | ⟨0, _⟩ => show win0_5.index t (0 : Fin 2) * 1 + 1 * (j 0).val = (j 0).val; rw [show win0_5.index t (0 : Fin 2) = 0 from rfl]; omega
  | ⟨1, _⟩ => show win0_5.index t (1 : Fin 2) * 12 + 1 * (j 1).val = (j 1).val; rw [show win0_5.index t (1 : Fin 2) = 0 from rfl]; omega

theorem after_w5 (c : Dev nD) (t : Fin cfg0.N) : (dats m 0 c).after (5 : Fin 17) t = br1 m c := by
  dsimp only [dats, blockAt, target]
  exact (fill_w5 _ _ _).trans (read_w5 t _)

theorem before_w5 (c : Dev nD) (t : Fin cfg0.N) (d) : (dats m 0 c).before (5 : Fin 17) t d = br1 m c := by
  rw [(dats m 0 c).before_in_eq_fetched (5 : Fin 17) rfl (fun _ => rfl) (fun _ _ _ => rfl)
    (fun t => by rw [after_w5]; exact (read_w5 t _).symm) t d]
  exact (fill_w5 _ _ _).trans (read_w5 t _)

theorem fill_w6 {α : Type} (i : grid0.Coords) (d : win0_6.block.Idx → α) (g : (win0_6.xblock i).Idx → α) :
    win0_6.fill i d g = g := by
  funext j; unfold Window.fill; rw [dif_pos (show win0_6.moved i j = true from rfl)]

theorem read_w6 (t : Fin cfg0.N) (A : FVec Ideal S10x1024 .f32) : (win0_6.blk t).view.read (Elt Ideal) A = A := by
  funext j
  show A ((win0_6.blk t).view.emb j) = A j
  congr 1
  funext a; apply Fin.ext
  match a with
  | ⟨0, _⟩ => show win0_6.index t (0 : Fin 2) * 10 + 1 * (j 0).val = (j 0).val; rw [show win0_6.index t (0 : Fin 2) = 0 from rfl]; omega
  | ⟨1, _⟩ => show win0_6.index t (1 : Fin 2) * 1024 + 1 * (j 1).val = (j 1).val; rw [show win0_6.index t (1 : Fin 2) = 0 from rfl]; omega

theorem after_w6 (c : Dev nD) (t : Fin cfg0.N) : (dats m 0 c).after (6 : Fin 17) t = wt2 m c := by
  dsimp only [dats, blockAt, target]
  exact (fill_w6 _ _ _).trans (read_w6 t _)

theorem before_w6 (c : Dev nD) (t : Fin cfg0.N) (d) : (dats m 0 c).before (6 : Fin 17) t d = wt2 m c := by
  rw [(dats m 0 c).before_in_eq_fetched (6 : Fin 17) rfl (fun _ => rfl) (fun _ _ _ => rfl)
    (fun t => by rw [after_w6]; exact (read_w6 t _).symm) t d]
  exact (fill_w6 _ _ _).trans (read_w6 t _)

theorem fill_w7 {α : Type} (i : grid0.Coords) (d : win0_7.block.Idx → α) (g : (win0_7.xblock i).Idx → α) :
    win0_7.fill i d g = g := by
  funext j; unfold Window.fill; rw [dif_pos (show win0_7.moved i j = true from rfl)]

theorem read_w7 (t : Fin cfg0.N) (A : FVec Ideal S1x10 .f32) : (win0_7.blk t).view.read (Elt Ideal) A = A := by
  funext j
  show A ((win0_7.blk t).view.emb j) = A j
  congr 1
  funext a; apply Fin.ext
  match a with
  | ⟨0, _⟩ => show win0_7.index t (0 : Fin 2) * 1 + 1 * (j 0).val = (j 0).val; rw [show win0_7.index t (0 : Fin 2) = 0 from rfl]; omega
  | ⟨1, _⟩ => show win0_7.index t (1 : Fin 2) * 10 + 1 * (j 1).val = (j 1).val; rw [show win0_7.index t (1 : Fin 2) = 0 from rfl]; omega

theorem after_w7 (c : Dev nD) (t : Fin cfg0.N) : (dats m 0 c).after (7 : Fin 17) t = br2 m c := by
  dsimp only [dats, blockAt, target]
  exact (fill_w7 _ _ _).trans (read_w7 t _)

theorem before_w7 (c : Dev nD) (t : Fin cfg0.N) (d) : (dats m 0 c).before (7 : Fin 17) t d = br2 m c := by
  rw [(dats m 0 c).before_in_eq_fetched (7 : Fin 17) rfl (fun _ => rfl) (fun _ _ _ => rfl)
    (fun t => by rw [after_w7]; exact (read_w7 t _).symm) t d]
  exact (fill_w7 _ _ _).trans (read_w7 t _)

theorem fill_w8 {α : Type} (i : grid0.Coords) (d : win0_8.block.Idx → α) (g : (win0_8.xblock i).Idx → α) :
    win0_8.fill i d g = g := by
  funext j; unfold Window.fill; rw [dif_pos (show win0_8.moved i j = true from rfl)]

theorem read_w8 (t : Fin cfg0.N) (A : FVec Ideal S8x1024 .f32) : (win0_8.blk t).view.read (Elt Ideal) A = A := by
  funext j
  show A ((win0_8.blk t).view.emb j) = A j
  congr 1
  funext a; apply Fin.ext
  match a with
  | ⟨0, _⟩ => show win0_8.index t (0 : Fin 2) * 8 + 1 * (j 0).val = (j 0).val; rw [show win0_8.index t (0 : Fin 2) = 0 from rfl]; omega
  | ⟨1, _⟩ => show win0_8.index t (1 : Fin 2) * 1024 + 1 * (j 1).val = (j 1).val; rw [show win0_8.index t (1 : Fin 2) = 0 from rfl]; omega

theorem after_w8 (c : Dev nD) (t : Fin cfg0.N) : (dats m 0 c).after (8 : Fin 17) t = wt3 m c := by
  dsimp only [dats, blockAt, target]
  exact (fill_w8 _ _ _).trans (read_w8 t _)

theorem before_w8 (c : Dev nD) (t : Fin cfg0.N) (d) : (dats m 0 c).before (8 : Fin 17) t d = wt3 m c := by
  rw [(dats m 0 c).before_in_eq_fetched (8 : Fin 17) rfl (fun _ => rfl) (fun _ _ _ => rfl)
    (fun t => by rw [after_w8]; exact (read_w8 t _).symm) t d]
  exact (fill_w8 _ _ _).trans (read_w8 t _)

theorem fill_w9 {α : Type} (i : grid0.Coords) (d : win0_9.block.Idx → α) (g : (win0_9.xblock i).Idx → α) :
    win0_9.fill i d g = g := by
  funext j; unfold Window.fill; rw [dif_pos (show win0_9.moved i j = true from rfl)]

theorem read_w9 (t : Fin cfg0.N) (A : FVec Ideal S1x8 .f32) : (win0_9.blk t).view.read (Elt Ideal) A = A := by
  funext j
  show A ((win0_9.blk t).view.emb j) = A j
  congr 1
  funext a; apply Fin.ext
  match a with
  | ⟨0, _⟩ => show win0_9.index t (0 : Fin 2) * 1 + 1 * (j 0).val = (j 0).val; rw [show win0_9.index t (0 : Fin 2) = 0 from rfl]; omega
  | ⟨1, _⟩ => show win0_9.index t (1 : Fin 2) * 8 + 1 * (j 1).val = (j 1).val; rw [show win0_9.index t (1 : Fin 2) = 0 from rfl]; omega

theorem after_w9 (c : Dev nD) (t : Fin cfg0.N) : (dats m 0 c).after (9 : Fin 17) t = br3 m c := by
  dsimp only [dats, blockAt, target]
  exact (fill_w9 _ _ _).trans (read_w9 t _)

theorem before_w9 (c : Dev nD) (t : Fin cfg0.N) (d) : (dats m 0 c).before (9 : Fin 17) t d = br3 m c := by
  rw [(dats m 0 c).before_in_eq_fetched (9 : Fin 17) rfl (fun _ => rfl) (fun _ _ _ => rfl)
    (fun t => by rw [after_w9]; exact (read_w9 t _).symm) t d]
  exact (fill_w9 _ _ _).trans (read_w9 t _)

theorem fill_w10 {α : Type} (i : grid0.Coords) (d : win0_10.block.Idx → α) (g : (win0_10.xblock i).Idx → α) :
    win0_10.fill i d g = g := by
  funext j; unfold Window.fill; rw [dif_pos (show win0_10.moved i j = true from rfl)]

theorem read_w10 (t : Fin cfg0.N) (A : FVec Ideal S364x1024 .f32) : (win0_10.blk t).view.read (Elt Ideal) A = A := by
  funext j
  show A ((win0_10.blk t).view.emb j) = A j
  congr 1
  funext a; apply Fin.ext
  match a with
  | ⟨0, _⟩ => show win0_10.index t (0 : Fin 2) * 364 + 1 * (j 0).val = (j 0).val; rw [show win0_10.index t (0 : Fin 2) = 0 from rfl]; omega
  | ⟨1, _⟩ => show win0_10.index t (1 : Fin 2) * 1024 + 1 * (j 1).val = (j 1).val; rw [show win0_10.index t (1 : Fin 2) = 0 from rfl]; omega

theorem after_w10 (c : Dev nD) (t : Fin cfg0.N) : (dats m 0 c).after (10 : Fin 17) t = wt4 m c := by
  dsimp only [dats, blockAt, target]
  exact (fill_w10 _ _ _).trans (read_w10 t _)

theorem before_w10 (c : Dev nD) (t : Fin cfg0.N) (d) : (dats m 0 c).before (10 : Fin 17) t d = wt4 m c := by
  rw [(dats m 0 c).before_in_eq_fetched (10 : Fin 17) rfl (fun _ => rfl) (fun _ _ _ => rfl)
    (fun t => by rw [after_w10]; exact (read_w10 t _).symm) t d]
  exact (fill_w10 _ _ _).trans (read_w10 t _)

theorem fill_w11 {α : Type} (i : grid0.Coords) (d : win0_11.block.Idx → α) (g : (win0_11.xblock i).Idx → α) :
    win0_11.fill i d g = g := by
  funext j; unfold Window.fill; rw [dif_pos (show win0_11.moved i j = true from rfl)]

theorem read_w11 (t : Fin cfg0.N) (A : FVec Ideal S1x364 .f32) : (win0_11.blk t).view.read (Elt Ideal) A = A := by
  funext j
  show A ((win0_11.blk t).view.emb j) = A j
  congr 1
  funext a; apply Fin.ext
  match a with
  | ⟨0, _⟩ => show win0_11.index t (0 : Fin 2) * 1 + 1 * (j 0).val = (j 0).val; rw [show win0_11.index t (0 : Fin 2) = 0 from rfl]; omega
  | ⟨1, _⟩ => show win0_11.index t (1 : Fin 2) * 364 + 1 * (j 1).val = (j 1).val; rw [show win0_11.index t (1 : Fin 2) = 0 from rfl]; omega

theorem after_w11 (c : Dev nD) (t : Fin cfg0.N) : (dats m 0 c).after (11 : Fin 17) t = br4 m c := by
  dsimp only [dats, blockAt, target]
  exact (fill_w11 _ _ _).trans (read_w11 t _)

theorem before_w11 (c : Dev nD) (t : Fin cfg0.N) (d) : (dats m 0 c).before (11 : Fin 17) t d = br4 m c := by
  rw [(dats m 0 c).before_in_eq_fetched (11 : Fin 17) rfl (fun _ => rfl) (fun _ _ _ => rfl)
    (fun t => by rw [after_w11]; exact (read_w11 t _).symm) t d]
  exact (fill_w11 _ _ _).trans (read_w11 t _)

/-! ## The five result windows: fresh at every point -/

theorem before_out12 (c : Dev nD) (t : Fin cfg0.N) (d) : (dats m 0 c).before (12 : Fin 17) t d = d :=
  (dats m 0 c).before_out_reset (12 : Fin 17) rfl t
    (if h : t.val = 0 then .inl h else .inr ⟨h, flush0_12 _⟩) d

theorem before_out13 (c : Dev nD) (t : Fin cfg0.N) (d) : (dats m 0 c).before (13 : Fin 17) t d = d :=
  (dats m 0 c).before_out_reset (13 : Fin 17) rfl t
    (if h : t.val = 0 then .inl h else .inr ⟨h, flush0_13 _⟩) d

theorem before_out14 (c : Dev nD) (t : Fin cfg0.N) (d) : (dats m 0 c).before (14 : Fin 17) t d = d :=
  (dats m 0 c).before_out_reset (14 : Fin 17) rfl t
    (if h : t.val = 0 then .inl h else .inr ⟨h, flush0_14 _⟩) d

theorem before_out15 (c : Dev nD) (t : Fin cfg0.N) (d) : (dats m 0 c).before (15 : Fin 17) t d = d :=
  (dats m 0 c).before_out_reset (15 : Fin 17) rfl t
    (if h : t.val = 0 then .inl h else .inr ⟨h, flush0_15 _⟩) d

theorem before_out16 (c : Dev nD) (t : Fin cfg0.N) (d) : (dats m 0 c).before (16 : Fin 17) t d = d :=
  (dats m 0 c).before_out_reset (16 : Fin 17) rfl t
    (if h : t.val = 0 then .inl h else .inr ⟨h, flush0_16 _⟩) d

/-! ## The moved part of a result block: block index (0, t), all rows, the columns inside the array -/

theorem y0_idx : ∀ t : Fin cfg0.N, win0_12.index t (0 : Fin 2) = 0 ∧ win0_12.index t (1 : Fin 2) = t.val
    ∧ win0_12.xsize (grid0.coords t) (1 : Fin 2) = min 2048 (20000 - t.val * 2048) :=
  (by decide +kernel : ∀ t : Fin grid0.N, _)

theorem y0_cut (c : Dev nD) (t : Fin cfg0.N) (P : S91x2048.Idx → EReal)
    (hP : ∀ (r : Fin 91) (n : Fin 2048) (hn : t.val * 2048 + n.val < 20000),
      P (ix2 r n) = y0 m c (ix2 r ⟨t.val * 2048 + n.val, hn⟩)) :
    win0_12.cut (grid0.coords t) P = win0_12.cut (grid0.coords t) ((dats m 0 c).after (12 : Fin 17) t) := by
  obtain ⟨e0, e1, s1⟩ := y0_idx t
  funext j
  have h0 : (j 0).val < 91 := (j 0).isLt
  have h1 : (j 1).val < min 2048 (20000 - t.val * 2048) := s1 ▸ (j 1).isLt
  have hn : t.val * 2048 + (⟨(j 1).val, by omega⟩ : Fin 2048).val < 20000 := by show t.val * 2048 + (j 1).val < 20000; omega
  dsimp only [dats, blockAt, target]
  rw [Window.cut_fill]
  show P (win0_12.xinj (grid0.coords t) j) = y0 m c ((win0_12.blk t).view.emb j)
  rw [show win0_12.xinj (grid0.coords t) j = ix2 (⟨(j 0).val, h0⟩ : Fin 91) (⟨(j 1).val, by omega⟩ : Fin 2048) from
    funext fun a => by match a with | ⟨0, _⟩ => rfl | ⟨1, _⟩ => rfl]
  rw [hP _ _ hn]
  congr 1
  funext a; apply Fin.ext
  match a with
  | ⟨0, _⟩ => show (j 0).val = win0_12.index t (0 : Fin 2) * 91 + 1 * (j 0).val; rw [e0]; omega
  | ⟨1, _⟩ => show t.val * 2048 + (j 1).val = win0_12.index t (1 : Fin 2) * 2048 + 1 * (j 1).val; rw [e1]; omega

theorem y1_idx : ∀ t : Fin cfg0.N, win0_13.index t (0 : Fin 2) = 0 ∧ win0_13.index t (1 : Fin 2) = t.val
    ∧ win0_13.xsize (grid0.coords t) (1 : Fin 2) = min 2048 (20000 - t.val * 2048) :=
  (by decide +kernel : ∀ t : Fin grid0.N, _)

theorem y1_cut (c : Dev nD) (t : Fin cfg0.N) (P : S12x2048.Idx → EReal)
    (hP : ∀ (r : Fin 12) (n : Fin 2048) (hn : t.val * 2048 + n.val < 20000),
      P (ix2 r n) = y1 m c (ix2 r ⟨t.val * 2048 + n.val, hn⟩)) :
    win0_13.cut (grid0.coords t) P = win0_13.cut (grid0.coords t) ((dats m 0 c).after (13 : Fin 17) t) := by
  obtain ⟨e0, e1, s1⟩ := y1_idx t
  funext j
  have h0 : (j 0).val < 12 := (j 0).isLt
  have h1 : (j 1).val < min 2048 (20000 - t.val * 2048) := s1 ▸ (j 1).isLt
  have hn : t.val * 2048 + (⟨(j 1).val, by omega⟩ : Fin 2048).val < 20000 := by show t.val * 2048 + (j 1).val < 20000; omega
  dsimp only [dats, blockAt, target]
  rw [Window.cut_fill]
  show P (win0_13.xinj (grid0.coords t) j) = y1 m c ((win0_13.blk t).view.emb j)
  rw [show win0_13.xinj (grid0.coords t) j = ix2 (⟨(j 0).val, h0⟩ : Fin 12) (⟨(j 1).val, by omega⟩ : Fin 2048) from
    funext fun a => by match a with | ⟨0, _⟩ => rfl | ⟨1, _⟩ => rfl]
  rw [hP _ _ hn]
  congr 1
  funext a; apply Fin.ext
  match a with
  | ⟨0, _⟩ => show (j 0).val = win0_13.index t (0 : Fin 2) * 12 + 1 * (j 0).val; rw [e0]; omega
  | ⟨1, _⟩ => show t.val * 2048 + (j 1).val = win0_13.index t (1 : Fin 2) * 2048 + 1 * (j 1).val; rw [e1]; omega

theorem y2_idx : ∀ t : Fin cfg0.N, win0_14.index t (0 : Fin 2) = 0 ∧ win0_14.index t (1 : Fin 2) = t.val
    ∧ win0_14.xsize (grid0.coords t) (1 : Fin 2) = min 2048 (20000 - t.val * 2048) :=
  (by decide +kernel : ∀ t : Fin grid0.N, _)

theorem y2_cut (c : Dev nD) (t : Fin cfg0.N) (P : S10x2048.Idx → EReal)
    (hP : ∀ (r : Fin 10) (n : Fin 2048) (hn : t.val * 2048 + n.val < 20000),
      P (ix2 r n) = y2 m c (ix2 r ⟨t.val * 2048 + n.val, hn⟩)) :
    win0_14.cut (grid0.coords t) P = win0_14.cut (grid0.coords t) ((dats m 0 c).after (14 : Fin 17) t) := by
  obtain ⟨e0, e1, s1⟩ := y2_idx t
  funext j
  have h0 : (j 0).val < 10 := (j 0).isLt
  have h1 : (j 1).val < min 2048 (20000 - t.val * 2048) := s1 ▸ (j 1).isLt
  have hn : t.val * 2048 + (⟨(j 1).val, by omega⟩ : Fin 2048).val < 20000 := by show t.val * 2048 + (j 1).val < 20000; omega
  dsimp only [dats, blockAt, target]
  rw [Window.cut_fill]
  show P (win0_14.xinj (grid0.coords t) j) = y2 m c ((win0_14.blk t).view.emb j)
  rw [show win0_14.xinj (grid0.coords t) j = ix2 (⟨(j 0).val, h0⟩ : Fin 10) (⟨(j 1).val, by omega⟩ : Fin 2048) from
    funext fun a => by match a with | ⟨0, _⟩ => rfl | ⟨1, _⟩ => rfl]
  rw [hP _ _ hn]
  congr 1
  funext a; apply Fin.ext
  match a with
  | ⟨0, _⟩ => show (j 0).val = win0_14.index t (0 : Fin 2) * 10 + 1 * (j 0).val; rw [e0]; omega
  | ⟨1, _⟩ => show t.val * 2048 + (j 1).val = win0_14.index t (1 : Fin 2) * 2048 + 1 * (j 1).val; rw [e1]; omega

theorem y3_idx : ∀ t : Fin cfg0.N, win0_15.index t (0 : Fin 2) = 0 ∧ win0_15.index t (1 : Fin 2) = t.val
    ∧ win0_15.xsize (grid0.coords t) (1 : Fin 2) = min 2048 (20000 - t.val * 2048) :=
  (by decide +kernel : ∀ t : Fin grid0.N, _)

theorem y3_cut (c : Dev nD) (t : Fin cfg0.N) (P : S8x2048.Idx → EReal)
    (hP : ∀ (r : Fin 8) (n : Fin 2048) (hn : t.val * 2048 + n.val < 20000),
      P (ix2 r n) = y3 m c (ix2 r ⟨t.val * 2048 + n.val, hn⟩)) :
    win0_15.cut (grid0.coords t) P = win0_15.cut (grid0.coords t) ((dats m 0 c).after (15 : Fin 17) t) := by
  obtain ⟨e0, e1, s1⟩ := y3_idx t
  funext j
  have h0 : (j 0).val < 8 := (j 0).isLt
  have h1 : (j 1).val < min 2048 (20000 - t.val * 2048) := s1 ▸ (j 1).isLt
  have hn : t.val * 2048 + (⟨(j 1).val, by omega⟩ : Fin 2048).val < 20000 := by show t.val * 2048 + (j 1).val < 20000; omega
  dsimp only [dats, blockAt, target]
  rw [Window.cut_fill]
  show P (win0_15.xinj (grid0.coords t) j) = y3 m c ((win0_15.blk t).view.emb j)
  rw [show win0_15.xinj (grid0.coords t) j = ix2 (⟨(j 0).val, h0⟩ : Fin 8) (⟨(j 1).val, by omega⟩ : Fin 2048) from
    funext fun a => by match a with | ⟨0, _⟩ => rfl | ⟨1, _⟩ => rfl]
  rw [hP _ _ hn]
  congr 1
  funext a; apply Fin.ext
  match a with
  | ⟨0, _⟩ => show (j 0).val = win0_15.index t (0 : Fin 2) * 8 + 1 * (j 0).val; rw [e0]; omega
  | ⟨1, _⟩ => show t.val * 2048 + (j 1).val = win0_15.index t (1 : Fin 2) * 2048 + 1 * (j 1).val; rw [e1]; omega

theorem y4_idx : ∀ t : Fin cfg0.N, win0_16.index t (0 : Fin 2) = 0 ∧ win0_16.index t (1 : Fin 2) = t.val
    ∧ win0_16.xsize (grid0.coords t) (1 : Fin 2) = min 2048 (20000 - t.val * 2048) :=
  (by decide +kernel : ∀ t : Fin grid0.N, _)

theorem y4_cut (c : Dev nD) (t : Fin cfg0.N) (P : S364x2048.Idx → EReal)
    (hP : ∀ (r : Fin 364) (n : Fin 2048) (hn : t.val * 2048 + n.val < 20000),
      P (ix2 r n) = y4 m c (ix2 r ⟨t.val * 2048 + n.val, hn⟩)) :
    win0_16.cut (grid0.coords t) P = win0_16.cut (grid0.coords t) ((dats m 0 c).after (16 : Fin 17) t) := by
  obtain ⟨e0, e1, s1⟩ := y4_idx t
  funext j
  have h0 : (j 0).val < 364 := (j 0).isLt
  have h1 : (j 1).val < min 2048 (20000 - t.val * 2048) := s1 ▸ (j 1).isLt
  have hn : t.val * 2048 + (⟨(j 1).val, by omega⟩ : Fin 2048).val < 20000 := by show t.val * 2048 + (j 1).val < 20000; omega
  dsimp only [dats, blockAt, target]
  rw [Window.cut_fill]
  show P (win0_16.xinj (grid0.coords t) j) = y4 m c ((win0_16.blk t).view.emb j)
  rw [show win0_16.xinj (grid0.coords t) j = ix2 (⟨(j 0).val, h0⟩ : Fin 364) (⟨(j 1).val, by omega⟩ : Fin 2048) from
    funext fun a => by match a with | ⟨0, _⟩ => rfl | ⟨1, _⟩ => rfl]
  rw [hP _ _ hn]
  congr 1
  funext a; apply Fin.ext
  match a with
  | ⟨0, _⟩ => show (j 0).val = win0_16.index t (0 : Fin 2) * 364 + 1 * (j 0).val; rw [e0]; omega
  | ⟨1, _⟩ => show t.val * 2048 + (j 1).val = win0_16.index t (1 : Fin 2) * 2048 + 1 * (j 1).val; rw [e1]; omega

end Cert.Proof.KI

end
-- ==== Proof.LibDotRows.lean ====
/-
  A matrix product whose two operands are BOTH contracted over their axis 1: an [M, K] array against an [N, K] array
  (the right operand stored output-major, so that the product is A · Bᵀ without a transposition being computed).
  The library states the product's value as a sum over the dimension numbers' contraction index set of the operands at
  two computed operand indices. Here the contraction index is one coordinate `k`, and the operand indices are (r, k) and
  (c, k): entry (r, c) of the product is the sum over k of A (r, k) · B (c, k), the inner product of row r of A with
  row c of B. Stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × rows: left axis 1 against right axis 1 -/

/-- The dimension numbers of an [M, K] × [N, K]ᵀ product. -/
def rr (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's row coordinate is the output's row coordinate. -/
theorem rr_lhs_0 (i : (⟨2, ![M, N]⟩ : Shape).Idx) (q : (rr wf).contr.Idx) : ((rr wf).lhsIdx i q 0).val = (i 0).val := by
  unfold DotDims.lhsIdx
  rw [dif_neg (show ¬(0 : Fin (⟨2, ![M, K]⟩ : Shape).rank) ∈ (rr wf).lhsBatch by simp [rr]),
    dif_pos (show (0 : Fin (⟨2, ![M, K]⟩ : Shape).rank) ∈ (rr wf).lhsNonContracting by simp [rr])]
  rfl
/-- The left operand's column coordinate is the contraction coordinate. -/
theorem rr_lhs_1 (i : (⟨2, ![M, N]⟩ : Shape).Idx) (q : (rr wf).contr.Idx) :
    ((rr wf).lhsIdx i q 1).val = (q ⟨0, Nat.one_pos⟩).val :=
  (rr wf).lhsIdx_val_of_single rfl i q
/-- The right operand's row coordinate is the output's column coordinate. -/
theorem rr_rhs_0 (i : (⟨2, ![M, N]⟩ : Shape).Idx) (q : (rr wf).contr.Idx) : ((rr wf).rhsIdx i q 0).val = (i 1).val := by
  unfold DotDims.rhsIdx
  rw [dif_neg (show ¬(0 : Fin (⟨2, ![N, K]⟩ : Shape).rank) ∈ (rr wf).rhsBatch by simp [rr]),
    dif_pos (show (0 : Fin (⟨2, ![N, K]⟩ : Shape).rank) ∈ (rr wf).rhsNonContracting by simp [rr])]
  rfl
/-- The right operand's column coordinate is the contraction coordinate. -/
theorem rr_rhs_1 (i : (⟨2, ![M, N]⟩ : Shape).Idx) (q : (rr wf).contr.Idx) :
    ((rr wf).rhsIdx i q 1).val = (q ⟨0, Nat.one_pos⟩).val :=
  (rr wf).rhsIdx_val_of_single rfl i q

/-- The contraction sum of a rows × rows product at (r, c) runs over the pairs (r, k), (c, k). -/
theorem sum_rr {β : Type} [AddCommMonoid β] (f : (⟨2, ![M, K]⟩ : Shape).Idx → (⟨2, ![N, K]⟩ : Shape).Idx → β)
    (r : Fin M) (c : Fin N) :
    ∑ k : (rr wf).contr.Idx, f ((rr wf).lhsIdx (ix2 r c) k) ((rr wf).rhsIdx (ix2 r c) k)
      = ∑ k : Fin K, f (ix2 r k) (ix2 c k) := by
  rw [← Equiv.sum_comp (contrEquiv1 (rr wf) K rfl rfl).symm]
  refine Finset.sum_congr rfl fun k _ => ?_
  have hk := contrEquiv1_symm_val (rr wf) K rfl rfl k
  have el : (rr wf).lhsIdx (ix2 r c) ((contrEquiv1 (rr wf) K rfl rfl).symm k) = ix2 r k := funext fun a => Fin.ext (by
    match a with
    | ⟨0, _⟩ => exact rr_lhs_0 wf _ _
    | ⟨1, _⟩ => exact (rr_lhs_1 wf _ _).trans hk)
  have er : (rr wf).rhsIdx (ix2 r c) ((contrEquiv1 (rr wf) K rfl rfl).symm k) = ix2 c k := funext fun a => Fin.ext (by
    match a with
    | ⟨0, _⟩ => exact rr_rhs_0 wf _ _
    | ⟨1, _⟩ => exact (rr_rhs_1 wf _ _).trans hk)
  rw [el, er]

/-- The same for any record with those axis lists. -/
theorem sum_contr_rr {β : Type} [AddCommMonoid β] (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (f : (⟨2, ![M, K]⟩ : Shape).Idx → (⟨2, ![N, K]⟩ : Shape).Idx → β) (r : Fin M) (c : Fin N) :
    ∑ k : d.contr.Idx, f (d.lhsIdx (ix2 r c) k) (d.rhsIdx (ix2 r c) k) = ∑ k : Fin K, f (ix2 r k) (ix2 c k) := by
  obtain ⟨lc, rc', ln, rn, lb, rb, wf'⟩ := d
  simp only at hlc hrc hln hrn hlb hrb
  subst hlc hrc hln hrn hlb hrb
  exact sum_rr wf' f r c

/-! ## The products themselves, at an output index -/

/-- A rows × rows block product into the zero accumulator, at (r, c): the sum over k of A (r, k) · B (c, k). -/
theorem matmul_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    matmul d prec A B (constant ⟨2, ![M, N]⟩ .f32 0x00000000#32) (ix2 r c) = ∑ k : Fin K, A (ix2 r k) * B (ix2 c k) := by
  simp only [matmul]
  rw [Ideal.matmul_constant_zero_apply]
  exact sum_contr_rr d hlc hrc hln hrn hlb hrb (fun a b => A a * B b) r c

/-- The host's rows × rows product at (r, c): the same sum. -/
theorem dotGeneral_rr_apply {φ₁ φ₂ : FTy} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = []) (prec : Option ContractPrecision)
    (A : FVec Ideal ⟨2, ![M, K]⟩ φ₁) (B : FVec Ideal ⟨2, ![N, K]⟩ φ₂) (r : Fin M) (c : Fin N) :
    Host.dotGeneral d prec A B (ix2 r c) = ∑ k : Fin K, A (ix2 r k) * B (ix2 c k) := by
  simp only [Host.dotGeneral]
  rw [Ideal.dotGeneral_apply]
  exact sum_contr_rr d hlc hrc hln hrn hlb hrb (fun a b => A a * B b) r c

end Cert.Lib

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.LibDense.lean ====
/-
  The product of an [M, K] array with the TRANSPOSE of an [N, K] array (a linear layer's x · wᵀ, the weight stored
  output-major), as one whole-array function over the extended reals: entry (r, c) is the sum over k of x (r, k) · w (c, k).
  Two computations are that function, for any extents and any dimension-numbers record contracting the left operand's
  axis 1 against the right operand's axis 0:
    * a block product into the zero accumulator whose operands were first narrowed to bf16 (a change of float format is
      the identity on the extended reals) and whose right operand was transposed;
    * the host's dot_general against the transposed weight.
  With it, a bias row added along the rows and a bias column multiplied along the columns, read at an index.
-/
import Idealize.ShloMosaic.PureOps.Ideal.Laws
import Idealize.ShloMosaic.Lib.ValueIdx
import Idealize.ShloMosaic.Lib.ValueLayout
import Idealize.ShloMosaic.Lib.Pipeline.Value
import proofs.«152352_g44014824849815_cont_8to1_c_708_17_alg».proof.Proof.LibDotSum

noncomputable section

namespace Cert.Lib

open Idealize.ShloMosaic Idealize.ShloMosaic.ValueIdx

variable {M K N : Nat}

/-- x · wᵀ: entry (r, c) is the sum over k of x (r, k) · w (c, k). -/
def mulT (x : FVec Ideal ⟨2, ![M, K]⟩ .f32) (w : FVec Ideal ⟨2, ![N, K]⟩ .f32) : FVec Ideal ⟨2, ![M, N]⟩ .f32 :=
  fun i => ∑ k : Fin K, x (ix2 (i 0) k) * w (ix2 (i 1) k)

theorem mulT_apply (x : FVec Ideal ⟨2, ![M, K]⟩ .f32) (w : FVec Ideal ⟨2, ![N, K]⟩ .f32) (r : Fin M) (c : Fin N) :
    mulT x w (ix2 r c) = ∑ k : Fin K, x (ix2 r k) * w (ix2 c k) := rfl

/-- Row r of x · wᵀ depends on row r of x only: if two left operands agree on their rows r and r', so do the products. -/
theorem mulT_row_congr {M' : Nat} (x : FVec Ideal ⟨2, ![M, K]⟩ .f32) (x' : FVec Ideal ⟨2, ![M', K]⟩ .f32)
    (w : FVec Ideal ⟨2, ![N, K]⟩ .f32) (r : Fin M) (r' : Fin M') (h : ∀ k : Fin K, x (ix2 r k) = x' (ix2 r' k)) (c : Fin N) :
    mulT x w (ix2 r c) = mulT x' w (ix2 r' c) := by
  rw [mulT_apply, mulT_apply]
  exact Finset.sum_congr rfl fun k _ => by rw [h k]

/-- The block product of the narrowed operands, the right one transposed, into the zero accumulator, is x · wᵀ. -/
theorem matmul_trunc_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (hb : FTy.bf16.bits < FTy.f32.bits) (hb' : FTy.bf16.bits < FTy.f32.bits)
    (ht : (⟨2, ![N, K]⟩ : Shape).Transposes [1, 0] ⟨2, ![K, N]⟩) :
    matmul d prec (truncf .bf16 x hb) (transpose ⟨2, ![K, N]⟩ [1, 0] (truncf .bf16 w hb') ht)
        (constant ⟨2, ![M, N]⟩ .f32 0x00000000#32) = mulT x w := by
  funext i
  obtain ⟨r, c, rfl⟩ : ∃ (r : Fin M) (c : Fin N), i = ix2 r c := ⟨i 0, i 1, eq_ix2 i⟩
  rw [matmul_rc_apply d hlc hrc hln hrn hlb hrb, mulT_apply]
  refine Finset.sum_congr rfl fun k _ => ?_
  rw [transpose_ix2_apply]
  rfl

/-- The host's product against the transposed weight is x · wᵀ. -/
theorem dotGeneral_transpose (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32)
    (ht : (⟨2, ![N, K]⟩ : Shape).Transposes [1, 0] ⟨2, ![K, N]⟩) :
    Host.dotGeneral d prec x (transpose ⟨2, ![K, N]⟩ [1, 0] w ht) = mulT x w := by
  funext i
  obtain ⟨r, c, rfl⟩ : ∃ (r : Fin M) (c : Fin N), i = ix2 r c := ⟨i 0, i 1, eq_ix2 i⟩
  rw [dotGeneral_rc_apply d hlc hrc hln hrn hlb hrb, mulT_apply]
  refine Finset.sum_congr rfl fun k _ => ?_
  rw [transpose_ix2_apply]

/-- An [M, 1] column broadcast over N columns reads, at (r, c), the column's entry of row r. -/
theorem broadcastTo_a1_ab_apply {α : Type} (v : (⟨2, ![M, 1]⟩ : Shape).Idx → α)
    (h : (⟨2, ![M, 1]⟩ : Shape).Broadcasts ⟨2, ![M, N]⟩) (r : Fin M) (c : Fin N) :
    broadcastTo ⟨2, ![M, N]⟩ v h (ix2 r c) = v (ix2 r (0 : Fin 1)) := by
  refine broadcastTo_apply v h (ix2 r c) (ix2 r (0 : Fin 1)) fun ax => ?_
  match ax with
  | ⟨0, _⟩ =>
    show r.val = if M = 1 then 0 else r.val
    split
    · have := r.isLt; omega
    · rfl
  | ⟨1, _⟩ => rfl

/-- An [M] array cast to an [M, 1] column reads, at (r, u), the operand at r, whatever the unit coordinate u. -/
theorem shapeCast_a_a1_apply {α : Type} (x : (⟨1, ![M]⟩ : Shape).Idx → α)
    (h : (⟨1, ![M]⟩ : Shape).ShapeCasts ⟨2, ![M, 1]⟩) (r : Fin M) (u : Fin 1) :
    shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## A linear layer with a bias row, and two of them around a tanh -/

/-- x · wᵀ + b: the bias, a [1, N] row, added along every row. -/
def affine (x : FVec Ideal ⟨2, ![M, K]⟩ .f32) (w : FVec Ideal ⟨2, ![N, K]⟩ .f32) (b : FVec Ideal ⟨2, ![1, N]⟩ .f32) :
    FVec Ideal ⟨2, ![M, N]⟩ .f32 :=
  fun i => mulT x w i + b (ix2 (0 : Fin 1) (i 1))

theorem affine_apply (x : FVec Ideal ⟨2, ![M, K]⟩ .f32) (w : FVec Ideal ⟨2, ![N, K]⟩ .f32) (b : FVec Ideal ⟨2, ![1, N]⟩ .f32)
    (r : Fin M) (c : Fin N) :
    affine x w b (ix2 r c) = (∑ k : Fin K, x (ix2 r k) * w (ix2 c k)) + b (ix2 (0 : Fin 1) c) := rfl

/-- Row r of a linear layer's output depends on row r of its input only. -/
theorem affine_row_congr {M' : Nat} (x : FVec Ideal ⟨2, ![M, K]⟩ .f32) (x' : FVec Ideal ⟨2, ![M', K]⟩ .f32)
    (w : FVec Ideal ⟨2, ![N, K]⟩ .f32) (b : FVec Ideal ⟨2, ![1, N]⟩ .f32) (r : Fin M) (r' : Fin M')
    (h : ∀ k : Fin K, x (ix2 r k) = x' (ix2 r' k)) (c : Fin N) :
    affine x w b (ix2 r c) = affine x' w b (ix2 r' c) := by
  rw [affine_apply, affine_apply]
  exact congrArg (· + b (ix2 (0 : Fin 1) c)) (Finset.sum_congr rfl fun k _ => by rw [h k])

/-- tanh of every entry. -/
def tanhA {s : Shape} (y : FVec Ideal s .f32) : FVec Ideal s .f32 := fun i => Ideal.tanh (y i)

theorem tanhA_apply {s : Shape} (y : FVec Ideal s .f32) (i : s.Idx) : tanhA y i = Ideal.tanh (y i) := rfl

/-- The device's vector tanh and the host's are that map on the extended reals. -/
theorem tanh_eq_tanhA {s : Shape} (y : FVec Ideal s .f32) : tanh y = tanhA y := rfl
theorem hostTanh_eq_tanhA {s : Shape} (y : FVec Ideal s .f32) : Host.tanh y = tanhA y := rfl

/-- A two-layer network (layer, tanh, layer) is row-local: its output's row r depends on its input's row r only. -/
theorem affine_tanh_affine_row_congr {M' H : Nat} (x : FVec Ideal ⟨2, ![M, K]⟩ .f32) (x' : FVec Ideal ⟨2, ![M', K]⟩ .f32)
    (w₁ : FVec Ideal ⟨2, ![H, K]⟩ .f32) (b₁ : FVec Ideal ⟨2, ![1, H]⟩ .f32)
    (w₂ : FVec Ideal ⟨2, ![N, H]⟩ .f32) (b₂ : FVec Ideal ⟨2, ![1, N]⟩ .f32) (r : Fin M) (r' : Fin M')
    (h : ∀ k : Fin K, x (ix2 r k) = x' (ix2 r' k)) (c : Fin N) :
    affine (tanhA (affine x w₁ b₁)) w₂ b₂ (ix2 r c) = affine (tanhA (affine x' w₁ b₁)) w₂ b₂ (ix2 r' c) :=
  affine_row_congr _ _ w₂ b₂ r r' (fun k => congrArg Ideal.tanh (affine_row_congr x x' w₁ b₁ r r' h k)) c

/-- The device's form of the layer: the block product of the narrowed operands into the zero accumulator, plus the bias
    row broadcast over the rows. -/
theorem addf_matmul_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨2, ![1, N]⟩ .f32)
    (hb : FTy.bf16.bits < FTy.f32.bits) (hb' : FTy.bf16.bits < FTy.f32.bits)
    (ht : (⟨2, ![N, K]⟩ : Shape).Transposes [1, 0] ⟨2, ![K, N]⟩)
    (hbc : (⟨2, ![1, N]⟩ : Shape).Broadcasts ⟨2, ![M, N]⟩) :
    addf (matmul d prec (truncf .bf16 x hb) (transpose ⟨2, ![K, N]⟩ [1, 0] (truncf .bf16 w hb') ht)
        (constant ⟨2, ![M, N]⟩ .f32 0x00000000#32)) (broadcastTo ⟨2, ![M, N]⟩ b hbc) = affine x w b := by
  rw [matmul_trunc_transpose d hlc hrc hln hrn hlb hrb]
  funext i
  obtain ⟨r, c, rfl⟩ : ∃ (r : Fin M) (c : Fin N), i = ix2 r c := ⟨i 0, i 1, eq_ix2 i⟩
  rw [addf_apply, broadcastTo_1b_ab_apply]
  rfl

/-- An [N] vector laid along the columns of an [M, N] array through a [1, N] row reads, at (r, c), the vector at c. -/
theorem broadcastInDim_row_apply {α : Type} (h₁ : (⟨1, ![N]⟩ : Shape).BroadcastsInDim ⟨2, ![1, N]⟩ ![1])
    (h₂ : (⟨2, ![1, N]⟩ : Shape).BroadcastsInDim ⟨2, ![M, N]⟩ ![0, 1]) (v : (⟨1, ![N]⟩ : Shape).Idx → α)
    (r : Fin M) (c : Fin N) :
    broadcastInDim ⟨2, ![M, N]⟩ ![0, 1] h₂ (broadcastInDim ⟨2, ![1, N]⟩ ![1] h₁ v) (ix2 r c) = v (ix1 c) := by
  refine (broadcastInDim_apply ![0, 1] h₂ _ (ix2 r c) (ix2 (0 : Fin 1) c) fun a => ?_).trans
    (broadcastInDim_apply ![1] h₁ v (ix2 (0 : Fin 1) c) (ix1 c) fun a => ?_)
  · match a with
    | ⟨0, _⟩ => rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- An [M] vector laid along the rows of an [M, N] array through an [M, 1] column reads, at (r, c), the vector at r. -/
theorem broadcastInDim_col_apply {α : Type} (h₁ : (⟨1, ![M]⟩ : Shape).BroadcastsInDim ⟨2, ![M, 1]⟩ ![0])
    (h₂ : (⟨2, ![M, 1]⟩ : Shape).BroadcastsInDim ⟨2, ![M, N]⟩ ![0, 1]) (v : (⟨1, ![M]⟩ : Shape).Idx → α)
    (r : Fin M) (c : Fin N) :
    broadcastInDim ⟨2, ![M, N]⟩ ![0, 1] h₂ (broadcastInDim ⟨2, ![M, 1]⟩ ![0] h₁ v) (ix2 r c) = v (ix1 r) := by
  refine (broadcastInDim_apply ![0, 1] h₂ _ (ix2 r c) (ix2 r (0 : Fin 1)) fun a => ?_).trans
    (broadcastInDim_apply ![0] h₁ v (ix2 r (0 : Fin 1)) (ix1 r) fun a => ?_)
  · match a with
    | ⟨0, _⟩ =>
      show r.val = if M = 1 then 0 else r.val
      split
      · have := r.isLt; omega
      · rfl
    | ⟨1, _⟩ => rfl
  · match a with
    | ⟨0, _⟩ =>
      show r.val = if M = 1 then 0 else r.val
      split
      · have := r.isLt; omega
      · rfl

/-- The host's form of the layer: the product against the transposed weight, plus the [N] bias laid along the columns;
    the bias row is the [N] vector cast to [1, N]. -/
theorem addf_dotGeneral_bias (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (x : FVec Ideal ⟨2, ![M, K]⟩ .f32) (w : FVec Ideal ⟨2, ![N, K]⟩ .f32) (b : FVec Ideal ⟨1, ![N]⟩ .f32)
    (ht : (⟨2, ![N, K]⟩ : Shape).Transposes [1, 0] ⟨2, ![K, N]⟩)
    (h₁ : (⟨1, ![N]⟩ : Shape).BroadcastsInDim ⟨2, ![1, N]⟩ ![1])
    (h₂ : (⟨2, ![1, N]⟩ : Shape).BroadcastsInDim ⟨2, ![M, N]⟩ ![0, 1])
    (hc : (⟨1, ![N]⟩ : Shape).ShapeCasts ⟨2, ![1, N]⟩) :
    addf (Host.dotGeneral d prec x (transpose ⟨2, ![K, N]⟩ [1, 0] w ht))
        (broadcastInDim ⟨2, ![M, N]⟩ ![0, 1] h₂ (broadcastInDim ⟨2, ![1, N]⟩ ![1] h₁ b))
      = affine x w (shapeCast ⟨2, ![1, N]⟩ b hc) := by
  rw [dotGeneral_transpose d hlc hrc hln hrn hlb hrb]
  funext i
  obtain ⟨r, c, rfl⟩ : ∃ (r : Fin M) (c : Fin N), i = ix2 r c := ⟨i 0, i 1, eq_ix2 i⟩
  rw [addf_apply, broadcastInDim_row_apply, affine_apply, shapeCast_a_1a_apply]
  rfl

end Cert.Lib

end
-- ==== Proof.KI.Pay.lean ====
/-
  The values the kernel body stores, read at an index, over the extended reals.

  The body's one computed block is, at row ρ and column n,
      (Σ_k W (ρ, k) · X₀ (n, k)) + (Σ_k W' (ρ, k) · X₁ (n, k)) + b (ρ, 0):
  two products that contract axis 1 of both operands (the stacked weight rows against the rows of the two column halves
  of the input block), added, plus the bias column laid along the columns. A change of float format is the identity on
  the extended reals, so the narrowing of the input halves disappears. The five stored output blocks are row ranges of
  that block, at row offsets 0, 96, 112, 128 and 136.

  The values stored into the stacked weight and bias buffers are the heads' weights unchanged (a narrowing between two
  identity shape casts) and the heads' bias rows transposed into columns (a transposition between two identity shape
  casts): entry (r, 0) of the column is entry (0, r) of the row.
-/
import Idealize.ShloMosaic.PureOps.Ideal.Laws
import Idealize.ShloMosaic.Lib.ValueIdx
import Idealize.ShloMosaic.Lib.ValueLayout
import Idealize.ShloMosaic.Lib.Pipeline.Value
import proofs.«152352_g44014824849815_cont_8to1_c_708_17_alg».proof.Proof.LibDotRows
import proofs.«152352_g44014824849815_cont_8to1_c_708_17_alg».proof.Proof.LibDense
import proofs.«152352_g44014824849815_cont_8to1_c_708_17_alg».proof.Proof.Gen.KernelIdeal.Skeleton

noncomputable section

namespace Cert.Proof.KI

open Idealize.ShloMosaic Idealize.ShloMosaic.ValueIdx
open Cert.KernelIdeal Cert.KernelIdeal.Gen

/-! ## The computed block -/

/-- The computed block at (ρ, n): the two inner products of weight row ρ with row n of each input half, plus the bias
    of row ρ. -/
theorem pay6_apply (X0 X1 : Vec Ideal S2048x512 .f32) (v5 v9 : Vec Ideal S500x512 .bf16) (v12 : Vec Ideal S500x1 .f32)
    (ρ : Fin 500) (n : Fin 2048) :
    k0_pay6 X0 v5 X1 v9 v12 (ix2 ρ n)
      = ((∑ k : Fin 512, v5 (ix2 ρ k) * X0 (ix2 n k)) + ∑ k : Fin 512, v9 (ix2 ρ k) * X1 (ix2 n k))
        + v12 (ix2 ρ (0 : Fin 1)) := by
  have h1 := Cert.Lib.matmul_rr_apply (φ₁ := .bf16) (φ₂ := .bf16) dot_S500x512_S2048x512_S500x2048_1_1_0_0_n_n
    rfl rfl rfl rfl rfl rfl none v5 (truncf .bf16 (X0 : FVec Ideal S2048x512 .f32) bitsLt_bf16_f32) ρ n
  have h2 := Cert.Lib.matmul_rr_apply (φ₁ := .bf16) (φ₂ := .bf16) dot_S500x512_S2048x512_S500x2048_1_1_0_0_n_n
    rfl rfl rfl rfl rfl rfl none v9 (truncf .bf16 (X1 : FVec Ideal S2048x512 .f32) bitsLt_bf16_f32) ρ n
  have h3 := Cert.Lib.broadcastTo_a1_ab_apply (N := 2048) v12 broadcasts_S500x1_S500x2048 ρ n
  unfold k0_pay6
  exact congrArg₂ (· + ·) (congrArg₂ (· + ·) h1 h2) h3

/-! ## The five stored row ranges of the computed block -/

/-- Rows 0 … 90. -/
theorem pay7_apply (X0 X1 : Vec Ideal S2048x512 .f32) (v5 v9 : Vec Ideal S500x512 .bf16) (v12 : Vec Ideal S500x1 .f32)
    (r : Fin 91) (n : Fin 2048) :
    k0_pay7 X0 v5 X1 v9 v12 (ix2 r n) = k0_pay6 X0 v5 X1 v9 v12 (ix2 (⟨r.val, by omega⟩ : Fin 500) n) := by
  unfold k0_pay7
  exact extractStridedSlice_apply _ _ _ (ix2 r n) (ix2 (⟨r.val, by omega⟩ : Fin 500) n) fun a => by
    match a with
    | ⟨0, _⟩ => show r.val = 0 + r.val; omega
    | ⟨1, _⟩ => show n.val = 0 + n.val; omega

/-- Rows 96 … 107. -/
theorem pay8_apply (X0 X1 : Vec Ideal S2048x512 .f32) (v5 v9 : Vec Ideal S500x512 .bf16) (v12 : Vec Ideal S500x1 .f32)
    (r : Fin 12) (n : Fin 2048) :
    k0_pay8 X0 v5 X1 v9 v12 (ix2 r n) = k0_pay6 X0 v5 X1 v9 v12 (ix2 (⟨96 + r.val, by omega⟩ : Fin 500) n) := by
  unfold k0_pay8
  exact extractStridedSlice_apply _ _ _ (ix2 r n) (ix2 (⟨96 + r.val, by omega⟩ : Fin 500) n) fun a => by
    match a with
    | ⟨0, _⟩ => show 96 + r.val = 96 + r.val; rfl
    | ⟨1, _⟩ => show n.val = 0 + n.val; omega

/-- Rows 112 … 121. -/
theorem pay9_apply (X0 X1 : Vec Ideal S2048x512 .f32) (v5 v9 : Vec Ideal S500x512 .bf16) (v12 : Vec Ideal S500x1 .f32)
    (r : Fin 10) (n : Fin 2048) :
    k0_pay9 X0 v5 X1 v9 v12 (ix2 r n) = k0_pay6 X0 v5 X1 v9 v12 (ix2 (⟨112 + r.val, by omega⟩ : Fin 500) n) := by
  unfold k0_pay9
  exact extractStridedSlice_apply _ _ _ (ix2 r n) (ix2 (⟨112 + r.val, by omega⟩ : Fin 500) n) fun a => by
    match a with
    | ⟨0, _⟩ => show 112 + r.val = 112 + r.val; rfl
    | ⟨1, _⟩ => show n.val = 0 + n.val; omega

/-- Rows 128 … 135. -/
theorem pay10_apply (X0 X1 : Vec Ideal S2048x512 .f32) (v5 v9 : Vec Ideal S500x512 .bf16) (v12 : Vec Ideal S500x1 .f32)
    (r : Fin 8) (n : Fin 2048) :
    k0_pay10 X0 v5 X1 v9 v12 (ix2 r n) = k0_pay6 X0 v5 X1 v9 v12 (ix2 (⟨128 + r.val, by omega⟩ : Fin 500) n) := by
  unfold k0_pay10
  exact extractStridedSlice_apply _ _ _ (ix2 r n) (ix2 (⟨128 + r.val, by omega⟩ : Fin 500) n) fun a => by
    match a with
    | ⟨0, _⟩ => show 128 + r.val = 128 + r.val; rfl
    | ⟨1, _⟩ => show n.val = 0 + n.val; omega

/-- Rows 136 … 499. -/
theorem pay11_apply (X0 X1 : Vec Ideal S2048x512 .f32) (v5 v9 : Vec Ideal S500x512 .bf16) (v12 : Vec Ideal S500x1 .f32)
    (r : Fin 364) (n : Fin 2048) :
    k0_pay11 X0 v5 X1 v9 v12 (ix2 r n) = k0_pay6 X0 v5 X1 v9 v12 (ix2 (⟨136 + r.val, by omega⟩ : Fin 500) n) := by
  unfold k0_pay11
  exact extractStridedSlice_apply _ _ _ (ix2 r n) (ix2 (⟨136 + r.val, by omega⟩ : Fin 500) n) fun a => by
    match a with
    | ⟨0, _⟩ => show 136 + r.val = 136 + r.val; rfl
    | ⟨1, _⟩ => show n.val = 0 + n.val; omega

/-! ## The stacked weights: each head's weight, unchanged -/

/-- A narrowing between two identity shape casts is the identity on the extended reals. -/
theorem pay12_apply (v : Vec Ideal S91x1024 .f32) (r : Fin 91) (k : Fin 1024) : k0_pay12 v (ix2 r k) = v (ix2 r k) := by
  unfold k0_pay12
  exact (congrFun (shapeCast_self _ _) _).trans (congrFun (shapeCast_self v _) _)

theorem pay14_apply (v : Vec Ideal S12x1024 .f32) (r : Fin 12) (k : Fin 1024) : k0_pay14 v (ix2 r k) = v (ix2 r k) := by
  unfold k0_pay14
  exact (congrFun (shapeCast_self _ _) _).trans (congrFun (shapeCast_self v _) _)

theorem pay16_apply (v : Vec Ideal S10x1024 .f32) (r : Fin 10) (k : Fin 1024) : k0_pay16 v (ix2 r k) = v (ix2 r k) := by
  unfold k0_pay16
  exact (congrFun (shapeCast_self _ _) _).trans (congrFun (shapeCast_self v _) _)

theorem pay2_apply (v : Vec Ideal S8x1024 .f32) (r : Fin 8) (k : Fin 1024) : k0_pay2 v (ix2 r k) = v (ix2 r k) := by
  unfold k0_pay2
  exact (congrFun (shapeCast_self _ _) _).trans (congrFun (shapeCast_self v _) _)

theorem pay4_apply (v : Vec Ideal S364x1024 .f32) (r : Fin 364) (k : Fin 1024) : k0_pay4 v (ix2 r k) = v (ix2 r k) := by
  unfold k0_pay4
  exact (congrFun (shapeCast_self _ _) _).trans (congrFun (shapeCast_self v _) _)

/-! ## The stacked biases: each head's bias row, as a column -/

/-- A [1, d] row transposed between two identity shape casts: entry (r, 0) of the column is entry (0, r) of the row. -/
theorem pay13_apply (v : Vec Ideal S1x91 .f32) (r : Fin 91) : k0_pay13 v (ix2 r (0 : Fin 1)) = v (ix2 (0 : Fin 1) r) := by
  unfold k0_pay13
  refine (congrFun (shapeCast_self _ _) _).trans ?_
  refine (transpose_ix2_apply _ _ r (0 : Fin 1)).trans ?_
  exact congrFun (shapeCast_self v _) _

theorem pay15_apply (v : Vec Ideal S1x12 .f32) (r : Fin 12) : k0_pay15 v (ix2 r (0 : Fin 1)) = v (ix2 (0 : Fin 1) r) := by
  unfold k0_pay15
  refine (congrFun (shapeCast_self _ _) _).trans ?_
  refine (transpose_ix2_apply _ _ r (0 : Fin 1)).trans ?_
  exact congrFun (shapeCast_self v _) _

theorem pay3_apply (v : Vec Ideal S1x8 .f32) (r : Fin 8) : k0_pay3 v (ix2 r (0 : Fin 1)) = v (ix2 (0 : Fin 1) r) := by
  unfold k0_pay3
  refine (congrFun (shapeCast_self _ _) _).trans ?_
  refine (transpose_ix2_apply _ _ r (0 : Fin 1)).trans ?_
  exact congrFun (shapeCast_self v _) _

theorem pay5_apply (v : Vec Ideal S1x364 .f32) (r : Fin 364) : k0_pay5 v (ix2 r (0 : Fin 1)) = v (ix2 (0 : Fin 1) r) := by
  unfold k0_pay5
  refine (congrFun (shapeCast_self _ _) _).trans ?_
  refine (transpose_ix2_apply _ _ r (0 : Fin 1)).trans ?_
  exact congrFun (shapeCast_self v _) _

/-- The third head's bias row is transposed in one value and shape-cast in the next: composed, the same reading. -/
theorem pay1_17_apply (v : Vec Ideal S1x10 .f32) (r : Fin 10) :
    k0_pay1 (k0_pay17 v) (ix2 r (0 : Fin 1)) = v (ix2 (0 : Fin 1) r) := by
  unfold k0_pay1 k0_pay17
  refine (congrFun (shapeCast_self _ _) _).trans ?_
  refine (transpose_ix2_apply _ _ r (0 : Fin 1)).trans ?_
  exact congrFun (shapeCast_self v _) _

end Cert.Proof.KI

end
-- ==== Proof.KI.Entry.lean ====
/-
  One entry of what the five-heads kernel's body stores, over the extended reals.

  The body's sum at (ρ, n) is the product of row ρ of the weight stack's first 512 columns with row n of the first
  activation half, plus the same for the second halves, plus entry ρ of the bias column. Where the scratch buffers hold
  the stacks (rows off_h + r of the weight stack are row r of head h's output-major weight, and of the bias column entry
  r of its bias row) and row n of the two activation halves is row N of the activation array's two column halves, row r
  of head h's slice of the sum at column n is the head's result at (r, N).
-/
import proofs.«152352_g44014824849815_cont_8to1_c_708_17_alg».proof.Proof.KI.Data
import proofs.«152352_g44014824849815_cont_8to1_c_708_17_alg».proof.Proof.KI.Pay
import Idealize.ShloMosaic.Lib.Pipeline.Value

noncomputable section

namespace Cert.Proof.KI

open Cert.KernelIdeal Cert.KernelIdeal.Gen
open Idealize.ShloMosaic Idealize.ShloMosaic.ValueIdx
open scoped BigOperators

variable (m : (ℓ : Loc nD τ sig) → Buf (Elt Ideal) ℓ)

/-- The rectangles through which the body loads the weight stack's two column halves, -/
abbrev rLo : Rect S500x1024 := Rect.unit (s := S500x1024) ![0, 0] S500x512.size inb_S500x1024_S500x512_0_0
abbrev rHi : Rect S500x1024 := Rect.unit (s := S500x1024) ![0, 512] S500x512.size inb_S500x1024_S500x512_0_512

/-- and what the loads read of a stack `ws`. -/
abbrev wsLo (ws : Vec Ideal S500x1024 .bf16) : Vec Ideal S500x512 .bf16 := View.ld (Val := Elt Ideal) ws rLo
abbrev wsHi (ws : Vec Ideal S500x1024 .bf16) : Vec Ideal S500x512 .bf16 := View.ld (Val := Elt Ideal) ws rHi

/-- The first half's entry (ρ, k) is the stack's (ρ, k); -/
theorem wsLo_apply (ws : Vec Ideal S500x1024 .bf16) (ρ : Fin 500) (k : Fin 512) :
    wsLo ws (ix2 ρ k) = ws (ix2 ρ (Cert.Spec.lo k)) := by
  show ws (rLo.idx (ix2 ρ k)) = _
  congr 1
  funext a
  match a with
  | ⟨0, _⟩ => exact Fin.ext (by show 0 + 1 * ρ.val = ρ.val; omega)
  | ⟨1, _⟩ => exact Fin.ext (by show 0 + 1 * k.val = k.val; omega)

/-- the second half's is the stack's (ρ, 512 + k). -/
theorem wsHi_apply (ws : Vec Ideal S500x1024 .bf16) (ρ : Fin 500) (k : Fin 512) :
    wsHi ws (ix2 ρ k) = ws (ix2 ρ (Cert.Spec.hi k)) := by
  show ws (rHi.idx (ix2 ρ k)) = _
  congr 1
  funext a
  match a with
  | ⟨0, _⟩ => exact Fin.ext (by show 0 + 1 * ρ.val = ρ.val; omega)
  | ⟨1, _⟩ => exact Fin.ext (by show 512 + 1 * k.val = 512 + k.val; omega)

/-- Head 0: row r of its slice of the sum, at a column whose activation row is row N of the array, is the head's
    result at (r, N). -/
theorem entry0 (c : Dev nD) (ws : Vec Ideal S500x1024 .bf16) (bs : Vec Ideal S500x1 .f32) (hS : Stacked m c ws bs)
    (X0 X1 : Vec Ideal S2048x512 .f32) (n : Fin 2048) (N : Fin 20000)
    (hX0 : ∀ k : Fin 512, X0 (ix2 n k) = xA m c (ix2 N (Cert.Spec.lo k)))
    (hX1 : ∀ k : Fin 512, X1 (ix2 n k) = xA m c (ix2 N (Cert.Spec.hi k))) (r : Fin 91) :
    k0_pay7 X0 (wsLo ws) X1 (wsHi ws) bs (ix2 r n) = y0 m c (ix2 r N) := by
  refine (pay7_apply X0 X1 (wsLo ws) (wsHi ws) bs r n).trans ?_
  refine (pay6_apply X0 X1 (wsLo ws) (wsHi ws) bs _ n).trans ?_
  refine Eq.trans ?_ (Cert.Spec.headT_apply (wt0 m c) (br0 m c) (xA m c) r N).symm
  have h1 : ∀ k : Fin 512, wsLo ws (ix2 (⟨r.val, by omega⟩ : Fin 500) k) * X0 (ix2 n k)
      = wt0 m c (ix2 r (Cert.Spec.lo k)) * xA m c (ix2 N (Cert.Spec.lo k)) := fun k => by
    rw [hX0 k, wsLo_apply]; exact congrArg (· * _) (hS.w0 r (Cert.Spec.lo k))
  have h2 : ∀ k : Fin 512, wsHi ws (ix2 (⟨r.val, by omega⟩ : Fin 500) k) * X1 (ix2 n k)
      = wt0 m c (ix2 r (Cert.Spec.hi k)) * xA m c (ix2 N (Cert.Spec.hi k)) := fun k => by
    rw [hX1 k, wsHi_apply]; exact congrArg (· * _) (hS.w0 r (Cert.Spec.hi k))
  have h3 : bs (ix2 (⟨r.val, by omega⟩ : Fin 500) (0 : Fin 1)) = br0 m c (ix2 (0 : Fin 1) r) := hS.b0 r
  exact congrArg₂ (· + ·) (congrArg₂ (· + ·) (Finset.sum_congr rfl fun k _ => h1 k) (Finset.sum_congr rfl fun k _ => h2 k)) h3

/-- Head 1: row r of its slice of the sum, at a column whose activation row is row N of the array, is the head's
    result at (r, N). -/
theorem entry1 (c : Dev nD) (ws : Vec Ideal S500x1024 .bf16) (bs : Vec Ideal S500x1 .f32) (hS : Stacked m c ws bs)
    (X0 X1 : Vec Ideal S2048x512 .f32) (n : Fin 2048) (N : Fin 20000)
    (hX0 : ∀ k : Fin 512, X0 (ix2 n k) = xA m c (ix2 N (Cert.Spec.lo k)))
    (hX1 : ∀ k : Fin 512, X1 (ix2 n k) = xA m c (ix2 N (Cert.Spec.hi k))) (r : Fin 12) :
    k0_pay8 X0 (wsLo ws) X1 (wsHi ws) bs (ix2 r n) = y1 m c (ix2 r N) := by
  refine (pay8_apply X0 X1 (wsLo ws) (wsHi ws) bs r n).trans ?_
  refine (pay6_apply X0 X1 (wsLo ws) (wsHi ws) bs _ n).trans ?_
  refine Eq.trans ?_ (Cert.Spec.headT_apply (wt1 m c) (br1 m c) (xA m c) r N).symm
  have h1 : ∀ k : Fin 512, wsLo ws (ix2 (⟨96 + r.val, by omega⟩ : Fin 500) k) * X0 (ix2 n k)
      = wt1 m c (ix2 r (Cert.Spec.lo k)) * xA m c (ix2 N (Cert.Spec.lo k)) := fun k => by
    rw [hX0 k, wsLo_apply]; exact congrArg (· * _) (hS.w1 r (Cert.Spec.lo k))
  have h2 : ∀ k : Fin 512, wsHi ws (ix2 (⟨96 + r.val, by omega⟩ : Fin 500) k) * X1 (ix2 n k)
      = wt1 m c (ix2 r (Cert.Spec.hi k)) * xA m c (ix2 N (Cert.Spec.hi k)) := fun k => by
    rw [hX1 k, wsHi_apply]; exact congrArg (· * _) (hS.w1 r (Cert.Spec.hi k))
  have h3 : bs (ix2 (⟨96 + r.val, by omega⟩ : Fin 500) (0 : Fin 1)) = br1 m c (ix2 (0 : Fin 1) r) := hS.b1 r
  exact congrArg₂ (· + ·) (congrArg₂ (· + ·) (Finset.sum_congr rfl fun k _ => h1 k) (Finset.sum_congr rfl fun k _ => h2 k)) h3

/-- Head 2: row r of its slice of the sum, at a column whose activation row is row N of the array, is the head's
    result at (r, N). -/
theorem entry2 (c : Dev nD) (ws : Vec Ideal S500x1024 .bf16) (bs : Vec Ideal S500x1 .f32) (hS : Stacked m c ws bs)
    (X0 X1 : Vec Ideal S2048x512 .f32) (n : Fin 2048) (N : Fin 20000)
    (hX0 : ∀ k : Fin 512, X0 (ix2 n k) = xA m c (ix2 N (Cert.Spec.lo k)))
    (hX1 : ∀ k : Fin 512, X1 (ix2 n k) = xA m c (ix2 N (Cert.Spec.hi k))) (r : Fin 10) :
    k0_pay9 X0 (wsLo ws) X1 (wsHi ws) bs (ix2 r n) = y2 m c (ix2 r N) := by
  refine (pay9_apply X0 X1 (wsLo ws) (wsHi ws) bs r n).trans ?_
  refine (pay6_apply X0 X1 (wsLo ws) (wsHi ws) bs _ n).trans ?_
  refine Eq.trans ?_ (Cert.Spec.headT_apply (wt2 m c) (br2 m c) (xA m c) r N).symm
  have h1 : ∀ k : Fin 512, wsLo ws (ix2 (⟨112 + r.val, by omega⟩ : Fin 500) k) * X0 (ix2 n k)
      = wt2 m c (ix2 r (Cert.Spec.lo k)) * xA m c (ix2 N (Cert.Spec.lo k)) := fun k => by
    rw [hX0 k, wsLo_apply]; exact congrArg (· * _) (hS.w2 r (Cert.Spec.lo k))
  have h2 : ∀ k : Fin 512, wsHi ws (ix2 (⟨112 + r.val, by omega⟩ : Fin 500) k) * X1 (ix2 n k)
      = wt2 m c (ix2 r (Cert.Spec.hi k)) * xA m c (ix2 N (Cert.Spec.hi k)) := fun k => by
    rw [hX1 k, wsHi_apply]; exact congrArg (· * _) (hS.w2 r (Cert.Spec.hi k))
  have h3 : bs (ix2 (⟨112 + r.val, by omega⟩ : Fin 500) (0 : Fin 1)) = br2 m c (ix2 (0 : Fin 1) r) := hS.b2 r
  exact congrArg₂ (· + ·) (congrArg₂ (· + ·) (Finset.sum_congr rfl fun k _ => h1 k) (Finset.sum_congr rfl fun k _ => h2 k)) h3

/-- Head 3: row r of its slice of the sum, at a column whose activation row is row N of the array, is the head's
    result at (r, N). -/
theorem entry3 (c : Dev nD) (ws : Vec Ideal S500x1024 .bf16) (bs : Vec Ideal S500x1 .f32) (hS : Stacked m c ws bs)
    (X0 X1 : Vec Ideal S2048x512 .f32) (n : Fin 2048) (N : Fin 20000)
    (hX0 : ∀ k : Fin 512, X0 (ix2 n k) = xA m c (ix2 N (Cert.Spec.lo k)))
    (hX1 : ∀ k : Fin 512, X1 (ix2 n k) = xA m c (ix2 N (Cert.Spec.hi k))) (r : Fin 8) :
    k0_pay10 X0 (wsLo ws) X1 (wsHi ws) bs (ix2 r n) = y3 m c (ix2 r N) := by
  refine (pay10_apply X0 X1 (wsLo ws) (wsHi ws) bs r n).trans ?_
  refine (pay6_apply X0 X1 (wsLo ws) (wsHi ws) bs _ n).trans ?_
  refine Eq.trans ?_ (Cert.Spec.headT_apply (wt3 m c) (br3 m c) (xA m c) r N).symm
  have h1 : ∀ k : Fin 512, wsLo ws (ix2 (⟨128 + r.val, by omega⟩ : Fin 500) k) * X0 (ix2 n k)
      = wt3 m c (ix2 r (Cert.Spec.lo k)) * xA m c (ix2 N (Cert.Spec.lo k)) := fun k => by
    rw [hX0 k, wsLo_apply]; exact congrArg (· * _) (hS.w3 r (Cert.Spec.lo k))
  have h2 : ∀ k : Fin 512, wsHi ws (ix2 (⟨128 + r.val, by omega⟩ : Fin 500) k) * X1 (ix2 n k)
      = wt3 m c (ix2 r (Cert.Spec.hi k)) * xA m c (ix2 N (Cert.Spec.hi k)) := fun k => by
    rw [hX1 k, wsHi_apply]; exact congrArg (· * _) (hS.w3 r (Cert.Spec.hi k))
  have h3 : bs (ix2 (⟨128 + r.val, by omega⟩ : Fin 500) (0 : Fin 1)) = br3 m c (ix2 (0 : Fin 1) r) := hS.b3 r
  exact congrArg₂ (· + ·) (congrArg₂ (· + ·) (Finset.sum_congr rfl fun k _ => h1 k) (Finset.sum_congr rfl fun k _ => h2 k)) h3

/-- Head 4: row r of its slice of the sum, at a column whose activation row is row N of the array, is the head's
    result at (r, N). -/
theorem entry4 (c : Dev nD) (ws : Vec Ideal S500x1024 .bf16) (bs : Vec Ideal S500x1 .f32) (hS : Stacked m c ws bs)
    (X0 X1 : Vec Ideal S2048x512 .f32) (n : Fin 2048) (N : Fin 20000)
    (hX0 : ∀ k : Fin 512, X0 (ix2 n k) = xA m c (ix2 N (Cert.Spec.lo k)))
    (hX1 : ∀ k : Fin 512, X1 (ix2 n k) = xA m c (ix2 N (Cert.Spec.hi k))) (r : Fin 364) :
    k0_pay11 X0 (wsLo ws) X1 (wsHi ws) bs (ix2 r n) = y4 m c (ix2 r N) := by
  refine (pay11_apply X0 X1 (wsLo ws) (wsHi ws) bs r n).trans ?_
  refine (pay6_apply X0 X1 (wsLo ws) (wsHi ws) bs _ n).trans ?_
  refine Eq.trans ?_ (Cert.Spec.headT_apply (wt4 m c) (br4 m c) (xA m c) r N).symm
  have h1 : ∀ k : Fin 512, wsLo ws (ix2 (⟨136 + r.val, by omega⟩ : Fin 500) k) * X0 (ix2 n k)
      = wt4 m c (ix2 r (Cert.Spec.lo k)) * xA m c (ix2 N (Cert.Spec.lo k)) := fun k => by
    rw [hX0 k, wsLo_apply]; exact congrArg (· * _) (hS.w4 r (Cert.Spec.lo k))
  have h2 : ∀ k : Fin 512, wsHi ws (ix2 (⟨136 + r.val, by omega⟩ : Fin 500) k) * X1 (ix2 n k)
      = wt4 m c (ix2 r (Cert.Spec.hi k)) * xA m c (ix2 N (Cert.Spec.hi k)) := fun k => by
    rw [hX1 k, wsHi_apply]; exact congrArg (· * _) (hS.w4 r (Cert.Spec.hi k))
  have h3 : bs (ix2 (⟨136 + r.val, by omega⟩ : Fin 500) (0 : Fin 1)) = br4 m c (ix2 (0 : Fin 1) r) := hS.b4 r
  exact congrArg₂ (· + ·) (congrArg₂ (· + ·) (Finset.sum_congr rfl fun k _ => h1 k) (Finset.sum_congr rfl fun k _ => h2 k)) h3

end Cert.Proof.KI

end
-- ==== Proof.KI.RunDefs.lean ====
/-
  The branch condition of the five-heads kernel's body, as a proposition on the grid coordinates.
-/
import proofs.«152352_g44014824849815_cont_8to1_c_708_17_alg».proof.Proof.Gen.KernelIdeal.Skeleton

namespace Cert.Proof.KI

open Cert.KernelIdeal Cert.KernelIdeal.Gen
open Idealize.ShloMosaic

/-- The body's one branch condition: the grid coordinate is zero (the first point), as the body computes it — the
    comparison's bit widened and compared with zero. -/
abbrev isFirst (i : grid0.Coords) : Prop :=
  Scalar.cmpi .ne (Scalar.extui (Scalar.cmpi .eq (BitVec.ofNat 32 (i 0).val) 0#32)) 0#32 = 1#1

end Cert.Proof.KI
-- ==== Proof.KI.RunRest.lean ====
/-
  The body of the five-heads kernel run on whole staging buffers: what its stores leave.

  The body first, at the first grid point only, stacks the five output-major weights (narrowed) and the five bias rows
  (transposed to columns) into the two scratch buffers by ten slice stores; then at every point it loads the two column
  halves of the activation block and of the weight stack and the bias column, forms the two products, adds them and the
  bias column, and stores five row slices of the sum, one into each result buffer, through the whole-buffer rectangle.
  Two runs: at a point that is not the first the scratch buffers are only read and come back as they were; at the first
  point they come back with the ten pieces written. In both, every input buffer comes back as it was and each result
  buffer with one piece: its slice of the sum.
-/
import proofs.«152352_g44014824849815_cont_8to1_c_708_17_alg».proof.Proof.KI.RunDefs
import Idealize.ShloMosaic.Lib.Tactic
import Idealize.ShloMosaic.Lib.Pipeline.Kit
import Idealize.ShloMosaic.Lib.Pipeline.Value
import Idealize.ShloMosaic.Lib.WholeRead

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at a point that is not the first: the pieces each result buffer ends with (last first), with the proof that
    from the input buffers at their contents, the result buffers at anything and the scratch buffers at `ws`, `bs` the
    body runs to the continuation holding the inputs and the scratch buffers as they were and each result buffer with
    its pieces written. -/
noncomputable def runRest (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : ¬isFirst i)
    (x0 : Vec F S2048x512 .f32) (x1 : Vec F S2048x512 .f32) (p3 : Vec F S91x1024 .f32) (p4 : Vec F S1x91 .f32) (p5 : Vec F S12x1024 .f32) (p6 : Vec F S1x12 .f32) (p7 : Vec F S10x1024 .f32) (p8 : Vec F S1x10 .f32) (p9 : Vec F S8x1024 .f32) (p10 : Vec F S1x8 .f32) (p11 : Vec F S364x1024 .f32) (p12 : Vec F S1x364 .f32) (ws : Vec F S500x1024 .bf16) (bs : Vec F S500x1 .f32) :
    Σ' (L13 : List (View.Piece (Elt F) S91x2048 .f32)) (L14 : List (View.Piece (Elt F) S12x2048 .f32)) (L15 : List (View.Piece (Elt F) S10x2048 .f32)) (L16 : List (View.Piece (Elt F) S8x2048 .f32)), { L17 : List (View.Piece (Elt F) S364x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare p3 ∗ owns (c : Thread nD τ) arg4 fullShare p4 ∗ owns (c : Thread nD τ) arg5 fullShare p5 ∗ owns (c : Thread nD τ) arg6 fullShare p6 ∗ owns (c : Thread nD τ) arg7 fullShare p7 ∗ owns (c : Thread nD τ) arg8 fullShare p8 ∗ owns (c : Thread nD τ) arg9 fullShare p9 ∗ owns (c : Thread nD τ) arg10 fullShare p10 ∗ owns (c : Thread nD τ) arg11 fullShare p11 ∗ owns (c : Thread nD τ) arg12 fullShare p12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare ws ∗ owns (c : Thread nD τ) arg19 fullShare bs
            ∗ (iprop(owns (c : Thread nD τ) arg1 fullShare x0 ∗ owns (c : Thread nD τ) arg2 fullShare x1 ∗ owns (c : Thread nD τ) arg3 fullShare p3 ∗ owns (c : Thread nD τ) arg4 fullShare p4 ∗ owns (c : Thread nD τ) arg5 fullShare p5 ∗ owns (c : Thread nD τ) arg6 fullShare p6 ∗ owns (c : Thread nD τ) arg7 fullShare p7 ∗ owns (c : Thread nD τ) arg8 fullShare p8 ∗ owns (c : Thread nD τ) arg9 fullShare p9 ∗ owns (c : Thread nD τ) arg10 fullShare p10 ∗ owns (c : Thread nD τ) arg11 fullShare p11 ∗ owns (c : Thread nD τ) arg12 fullShare p12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ owns (c : Thread nD τ) arg18 fullShare ws ∗ owns (c : Thread nD τ) arg19 fullShare bs) -∗ K ⟨⟩))
          ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    simp only [cc0__heads_kernel_eq_skeleton]; unfold cc0__heads_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg18.eq_unread hf18; obtain rfl := harg19.eq_unread hf19
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]
    · iexists _; isplitr; · ipureintro; exact harg18.read_unread _
      iexact H18
    · iexists _; isplitr; · ipureintro; exact harg19.read_unread _
      iexact H19

end Cert.Proof.KI

end
-- ==== Proof.KI.RunFirst.lean ====
/-
  The body of the five-heads kernel run on whole staging buffers: what its stores leave.

  The body first, at the first grid point only, stacks the five output-major weights (narrowed) and the five bias rows
  (transposed to columns) into the two scratch buffers by ten slice stores; then at every point it loads the two column
  halves of the activation block and of the weight stack and the bias column, forms the two products, adds them and the
  bias column, and stores five row slices of the sum, one into each result buffer, through the whole-buffer rectangle.
  Two runs: at a point that is not the first the scratch buffers are only read and come back as they were; at the first
  point they come back with the ten pieces written. In both, every input buffer comes back as it was and each result
  buffer with one piece: its slice of the sum.
-/
import proofs.«152352_g44014824849815_cont_8to1_c_708_17_alg».proof.Proof.KI.RunDefs
import Idealize.ShloMosaic.Lib.Tactic
import Idealize.ShloMosaic.Lib.Pipeline.Kit
import Idealize.ShloMosaic.Lib.Pipeline.Value
import Idealize.ShloMosaic.Lib.WholeRead

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The run at the first point: the pieces each result buffer and each scratch buffer ends with (last first), with the
    proof that from the input buffers at their contents, the result buffers at anything and the scratch buffers at
    `ws`, `bs` the body runs to the continuation holding the inputs as they were and each result buffer and each
    scratch buffer with its pieces written. -/
noncomputable def runFirst (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : isFirst i)
    (x0 : Vec F S2048x512 .f32) (x1 : Vec F S2048x512 .f32) (p3 : Vec F S91x1024 .f32) (p4 : Vec F S1x91 .f32) (p5 : Vec F S12x1024 .f32) (p6 : Vec F S1x12 .f32) (p7 : Vec F S10x1024 .f32) (p8 : Vec F S1x10 .f32) (p9 : Vec F S8x1024 .f32) (p10 : Vec F S1x8 .f32) (p11 : Vec F S364x1024 .f32) (p12 : Vec F S1x364 .f32) (ws : Vec F S500x1024 .bf16) (bs : Vec F S500x1 .f32) :
    Σ' (L13 : List (View.Piece (Elt F) S91x2048 .f32)) (L14 : List (View.Piece (Elt F) S12x2048 .f32)) (L15 : List (View.Piece (Elt F) S10x2048 .f32)) (L16 : List (View.Piece (Elt F) S8x2048 .f32)) (L17 : List (View.Piece (Elt F) S364x2048 .f32)) (LS18 : List (View.Piece (Elt F) S500x1024 .bf16)), { LS19 : List (View.Piece (Elt F) S500x1 .f32) //
      ∀ (E : Set ℕ) (K : PUnit → sProp 𝕄),
        iprop(owns (c : Thread nD τ) arg1 fullShare x0 ∗ owns (c : Thread nD τ) arg2 fullShare x1 ∗ owns (c : Thread nD τ) arg3 fullShare p3 ∗ owns (c : Thread nD τ) arg4 fullShare p4 ∗ owns (c : Thread nD τ) arg5 fullShare p5 ∗ owns (c : Thread nD τ) arg6 fullShare p6 ∗ owns (c : Thread nD τ) arg7 fullShare p7 ∗ owns (c : Thread nD τ) arg8 fullShare p8 ∗ owns (c : Thread nD τ) arg9 fullShare p9 ∗ owns (c : Thread nD τ) arg10 fullShare p10 ∗ owns (c : Thread nD τ) arg11 fullShare p11 ∗ owns (c : Thread nD τ) arg12 fullShare p12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare ws ∗ owns (c : Thread nD τ) arg19 fullShare bs
            ∗ (iprop(owns (c : Thread nD τ) arg1 fullShare x0 ∗ owns (c : Thread nD τ) arg2 fullShare x1 ∗ owns (c : Thread nD τ) arg3 fullShare p3 ∗ owns (c : Thread nD τ) arg4 fullShare p4 ∗ owns (c : Thread nD τ) arg5 fullShare p5 ∗ owns (c : Thread nD τ) arg6 fullShare p6 ∗ owns (c : Thread nD τ) arg7 fullShare p7 ∗ owns (c : Thread nD τ) arg8 fullShare p8 ∗ owns (c : Thread nD τ) arg9 fullShare p9 ∗ owns (c : Thread nD τ) arg10 fullShare p10 ∗ owns (c : Thread nD τ) arg11 fullShare p11 ∗ owns (c : Thread nD τ) arg12 fullShare p12 ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f LS18) ∗ (∃ f, arg19.view.loc (c : Thread nD τ) ↦[arg19.view.set]{fullShare} arg19.view.writes (Elt F) f LS19)) -∗ K ⟨⟩))
          ⊢ wp frame (wpE (defs₀ (F := F)) Variants.none c none) E (cc0__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, ?_, fun E K => ?run⟩
  case run =>
    simp only [cc0__heads_kernel_eq_skeleton]; unfold cc0__heads_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg18.eq_unread hf18; obtain rfl := harg19.eq_unread hf19
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    · iexists _; iexact H19

end Cert.Proof.KI

end
-- ==== Proof.KI.Body.lean ====
/-
  The body obligation of the idealized five-heads kernel over the exact proof data.

  At every grid point the body is handed the two activation windows' staging buffers at their blocks (filled out past
  the array's end with whatever they held), the ten weight and bias windows' at their arrays, the five result windows' at
  anything, and the two scratch buffers — from the second point on holding the stacks. It returns the input buffers as
  they were, the scratch buffers holding the stacks (at the first point it has just written them), and each result buffer
  at the head's slice of the sum; at a column inside the array that is the head's result there, which is all a cut
  window's obligation asks.
-/
import proofs.«152352_g44014824849815_cont_8to1_c_708_17_alg».proof.Proof.KI.Data
import proofs.«152352_g44014824849815_cont_8to1_c_708_17_alg».proof.Proof.KI.Before
import proofs.«152352_g44014824849815_cont_8to1_c_708_17_alg».proof.Proof.KI.Entry
import proofs.«152352_g44014824849815_cont_8to1_c_708_17_alg».proof.Proof.KI.RunRest
import proofs.«152352_g44014824849815_cont_8to1_c_708_17_alg».proof.Proof.KI.RunFirst
import Idealize.ShloMosaic.Lib.Tactic
import Idealize.ShloMosaic.Lib.Pipeline.Value
import Idealize.ShloMosaic.Lib.WholeRead

set_option maxRecDepth 16384

noncomputable section

namespace Cert.Proof.KI

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## Reading whole buffers and single pieces -/

/-- The whole-buffer rectangle's offsets are zero. -/
theorem off0 : (![0, 0] : Fin 2 → ℕ) = fun _ => 0 := funext fun a => by fin_cases a <;> rfl

/-- One store through the whole-buffer rectangle leaves its payload, whatever the buffer held. -/
theorem read_one {a b : ℕ} {e : EltTy} {κ : Kind} {sp : Space} (v : View sig κ sp ⟨2, ![a, b]⟩ e)
    (f : v.ty.Contents (Elt Ideal)) (inb : ∀ x, (![0, 0] : Fin 2 → ℕ) x + (⟨2, ![a, b]⟩ : Shape).size x ≤ (⟨2, ![a, b]⟩ : Shape).size x)
    (w : (Rect.unit (s := ⟨2, ![a, b]⟩) ![0, 0] (⟨2, ![a, b]⟩ : Shape).size inb).shape.Idx → Elt Ideal e) :
    v.read (Elt Ideal) (v.writes (Elt Ideal) f [⟨Rect.unit (s := ⟨2, ![a, b]⟩) ![0, 0] (⟨2, ![a, b]⟩ : Shape).size inb, w⟩]) = w := by
  rw [View.read_writes_eq_canon _ _ _ (fun y => ⟨_, List.mem_singleton_self _, View.mem_set_unit_zero off0 inb y⟩),
    View.canon_unit_zero off0]

/-- A load through the whole-buffer rectangle of a whole buffer held at the contents that read `X` reads `X`. -/
theorem readAt_whole_unread {a b : ℕ} {e : EltTy} (arg : Memref sig .tc .vmem ⟨2, ![a, b]⟩ e) (h : arg.IsWhole)
    (inb : ∀ x, (![0, 0] : Fin 2 → ℕ) x + (⟨2, ![a, b]⟩ : Shape).size x ≤ (⟨2, ![a, b]⟩ : Shape).size x) (X : (⟨2, ![a, b]⟩ : Shape).Idx → Elt Ideal e) :
    View.readAt (Elt Ideal) arg.view (Rect.unit (s := ⟨2, ![a, b]⟩) ![0, 0] (⟨2, ![a, b]⟩ : Shape).size inb).toLoadRect (h.unread X) = X := by
  rw [View.readAt_eq_ld, h.read_unread, View.ld_unit_zero off0]

/-- A store of 91 rows at the top of a block of 92 puts the stored row r at row r. -/
theorem updateSlice_top {α : Type} (old : S92x1024.Idx → α) (upd : S91x1024.Idx → α) (h : S92x1024.Slices ![0, 0] S91x1024)
    (r : Fin 91) (k : Fin 1024) :
    updateSlice old upd ![0, 0] h (ix2 (⟨r.val, by omega⟩ : Fin 92) k) = upd (ix2 r k) := by
  unfold updateSlice
  rw [dif_pos (fun a => by
    match a with
    | ⟨0, _⟩ => exact ⟨Nat.zero_le _, by show r.val < 0 + 91; omega⟩
    | ⟨1, _⟩ => exact ⟨Nat.zero_le _, by show k.val < 0 + 1024; omega⟩)]
  congr 1
  funext b
  match b with
  | ⟨0, _⟩ => exact Fin.ext (Nat.sub_zero _)
  | ⟨1, _⟩ => exact Fin.ext (Nat.sub_zero _)

/-- The body's branch condition at a grid point holds at the first point only. -/
theorem isFirst_coords (t : Fin cfg0.N) : isFirst (grid0.coords t) ↔ t.val = 0 := by
  rcases fin_N0 t with rfl | rfl | rfl | rfl | rfl | rfl | rfl | rfl | rfl | rfl <;> decide

/-! ## The stacks the first point writes, read back row by row -/

/-- A write through a rectangle that does not hold an index leaves what the index reads. -/
theorem read_skip {κ : Kind} {sp : Space} {S : Shape} {e : EltTy} (v : View sig κ sp S e) (f : v.ty.Contents (Elt Ideal)) (R : Rect S)
    (w : R.shape.Idx → Elt Ideal e) (L : List (View.Piece (Elt Ideal) S e)) {y : S.Idx} (h : y ∉ R.set) :
    v.read (Elt Ideal) (v.writes (Elt Ideal) f (⟨R, w⟩ :: L)) y = v.read (Elt Ideal) (v.writes (Elt Ideal) f L) y := by
  rw [View.writes_cons, View.read_slice_write_of_not_mem R _ _ _ (by rwa [Rect.map_emb_univ])]

/-- An index whose row is outside a band of rows is outside the band's rectangle. -/
theorem rows_not_mem {b : ℕ} (o n w : ℕ) (inb : ∀ a, (![o, 0] : Fin 2 → ℕ) a + (⟨2, ![n, w]⟩ : Shape).size a ≤ (⟨2, ![500, b]⟩ : Shape).size a)
    (ρ : Fin 500) (k : Fin b) (h : ρ.val < o ∨ o + n ≤ ρ.val) :
    (ix2 ρ k : (⟨2, ![500, b]⟩ : Shape).Idx) ∉ (Rect.unit (s := ⟨2, ![500, b]⟩) ![o, 0] (⟨2, ![n, w]⟩ : Shape).size inb).set := fun hm => by
  have h0 : o ≤ ρ.val ∧ ρ.val < o + n := (Rect.mem_set_unit.mp hm) (0 : Fin 2)
  omega

/-- Row o + r, column k is the band's own (r, k) placed in the stack. -/
theorem rows_emb {b : ℕ} (o n w : ℕ) (inb : ∀ a, (![o, 0] : Fin 2 → ℕ) a + (⟨2, ![n, w]⟩ : Shape).size a ≤ (⟨2, ![500, b]⟩ : Shape).size a)
    (r : Fin n) (k : Fin w) (h : o + r.val < 500) (hk : k.val < b := by omega) :
    (ix2 (⟨o + r.val, h⟩ : Fin 500) (⟨k.val, hk⟩ : Fin b) : (⟨2, ![500, b]⟩ : Shape).Idx)
      = (Rect.unit (s := ⟨2, ![500, b]⟩) ![o, 0] (⟨2, ![n, w]⟩ : Shape).size inb).emb (ix2 r k) :=
  funext fun a => by
    match a with
    | ⟨0, _⟩ => exact Fin.ext (by show o + r.val = o + 1 * r.val; omega)
    | ⟨1, _⟩ => exact Fin.ext (by show k.val = 0 + 1 * k.val; omega)

/-- The same for the band at the top. -/
theorem rows_emb0 {b : ℕ} (n w : ℕ) (inb : ∀ a, (![0, 0] : Fin 2 → ℕ) a + (⟨2, ![n, w]⟩ : Shape).size a ≤ (⟨2, ![500, b]⟩ : Shape).size a)
    (r : Fin n) (k : Fin w) (h : r.val < 500) (hk : k.val < b := by omega) :
    (ix2 (⟨r.val, h⟩ : Fin 500) (⟨k.val, hk⟩ : Fin b) : (⟨2, ![500, b]⟩ : Shape).Idx)
      = (Rect.unit (s := ⟨2, ![500, b]⟩) ![0, 0] (⟨2, ![n, w]⟩ : Shape).size inb).emb (ix2 r k) :=
  funext fun a => by
    match a with
    | ⟨0, _⟩ => exact Fin.ext (by show r.val = 0 + 1 * r.val; omega)
    | ⟨1, _⟩ => exact Fin.ext (by show k.val = 0 + 1 * k.val; omega)

/-- Rows 136 + r of the written weight stack are row r of head 4's weight. -/
theorem stackW4 {κ : Kind} {sp : Space} (v : View sig κ sp S500x1024 .bf16) (f : v.ty.Contents (Elt Ideal)) (c : Dev nD)
    (arg3 : Memref sig .tc .vmem S91x1024 .f32) (harg3 : arg3.IsWhole) (arg5 : Memref sig .tc .vmem S12x1024 .f32) (harg5 : arg5.IsWhole) (arg7 : Memref sig .tc .vmem S10x1024 .f32) (harg7 : arg7.IsWhole) (arg9 : Memref sig .tc .vmem S8x1024 .f32) (harg9 : arg9.IsWhole) (arg11 : Memref sig .tc .vmem S364x1024 .f32) (harg11 : arg11.IsWhole) (arg18 : Memref sig .tc .vmem S500x1024 .bf16) (harg18 : arg18.IsWhole)
    (p3 : Vec Ideal S91x1024 .f32) (p5 : Vec Ideal S12x1024 .f32) (p7 : Vec Ideal S10x1024 .f32) (p9 : Vec Ideal S8x1024 .f32) (p11 : Vec Ideal S364x1024 .f32) (ws : Vec Ideal S500x1024 .bf16) (r : Fin 364) (k : Fin 1024) :
    v.read (Elt Ideal) (v.writes (Elt Ideal) f (runFirst.sl.H18_5 (F := Ideal) c arg3 harg3 arg5 harg5 arg7 harg7 arg9 harg9 arg11 harg11 arg18 harg18 p3 p5 p7 p9 p11 ws)) (ix2 (⟨136 + r.val, by omega⟩ : Fin 500) k) = p11 (ix2 r k) := by
  unfold runFirst.sl.H18_5

  rw [rows_emb 136 364 1024 inb_S500x1024_S364x1024_136_0 r k (by omega)]
  exact (View.read_writes_cons_emb _ _ _ _ _ _).trans ((pay4_apply _ r k).trans (congrFun (readAt_whole_unread arg11 harg11 _ p11) _))

/-- Rows 128 + r of the written weight stack are row r of head 3's weight. -/
theorem stackW3 {κ : Kind} {sp : Space} (v : View sig κ sp S500x1024 .bf16) (f : v.ty.Contents (Elt Ideal)) (c : Dev nD)
    (arg3 : Memref sig .tc .vmem S91x1024 .f32) (harg3 : arg3.IsWhole) (arg5 : Memref sig .tc .vmem S12x1024 .f32) (harg5 : arg5.IsWhole) (arg7 : Memref sig .tc .vmem S10x1024 .f32) (harg7 : arg7.IsWhole) (arg9 : Memref sig .tc .vmem S8x1024 .f32) (harg9 : arg9.IsWhole) (arg11 : Memref sig .tc .vmem S364x1024 .f32) (harg11 : arg11.IsWhole) (arg18 : Memref sig .tc .vmem S500x1024 .bf16) (harg18 : arg18.IsWhole)
    (p3 : Vec Ideal S91x1024 .f32) (p5 : Vec Ideal S12x1024 .f32) (p7 : Vec Ideal S10x1024 .f32) (p9 : Vec Ideal S8x1024 .f32) (p11 : Vec Ideal S364x1024 .f32) (ws : Vec Ideal S500x1024 .bf16) (r : Fin 8) (k : Fin 1024) :
    v.read (Elt Ideal) (v.writes (Elt Ideal) f (runFirst.sl.H18_5 (F := Ideal) c arg3 harg3 arg5 harg5 arg7 harg7 arg9 harg9 arg11 harg11 arg18 harg18 p3 p5 p7 p9 p11 ws)) (ix2 (⟨128 + r.val, by omega⟩ : Fin 500) k) = p9 (ix2 r k) := by
  unfold runFirst.sl.H18_5
  rw [read_skip _ _ _ _ _ (rows_not_mem 136 364 1024 inb_S500x1024_S364x1024_136_0 _ _ (Or.inl (by show 128 + r.val < 136; omega)))]
  rw [rows_emb 128 8 1024 inb_S500x1024_S8x1024_128_0 r k (by omega)]
  exact (View.read_writes_cons_emb _ _ _ _ _ _).trans ((pay2_apply _ r k).trans (congrFun (readAt_whole_unread arg9 harg9 _ p9) _))

/-- Rows 112 + r of the written weight stack are row r of head 2's weight. -/
theorem stackW2 {κ : Kind} {sp : Space} (v : View sig κ sp S500x1024 .bf16) (f : v.ty.Contents (Elt Ideal)) (c : Dev nD)
    (arg3 : Memref sig .tc .vmem S91x1024 .f32) (harg3 : arg3.IsWhole) (arg5 : Memref sig .tc .vmem S12x1024 .f32) (harg5 : arg5.IsWhole) (arg7 : Memref sig .tc .vmem S10x1024 .f32) (harg7 : arg7.IsWhole) (arg9 : Memref sig .tc .vmem S8x1024 .f32) (harg9 : arg9.IsWhole) (arg11 : Memref sig .tc .vmem S364x1024 .f32) (harg11 : arg11.IsWhole) (arg18 : Memref sig .tc .vmem S500x1024 .bf16) (harg18 : arg18.IsWhole)
    (p3 : Vec Ideal S91x1024 .f32) (p5 : Vec Ideal S12x1024 .f32) (p7 : Vec Ideal S10x1024 .f32) (p9 : Vec Ideal S8x1024 .f32) (p11 : Vec Ideal S364x1024 .f32) (ws : Vec Ideal S500x1024 .bf16) (r : Fin 10) (k : Fin 1024) :
    v.read (Elt Ideal) (v.writes (Elt Ideal) f (runFirst.sl.H18_5 (F := Ideal) c arg3 harg3 arg5 harg5 arg7 harg7 arg9 harg9 arg11 harg11 arg18 harg18 p3 p5 p7 p9 p11 ws)) (ix2 (⟨112 + r.val, by omega⟩ : Fin 500) k) = p7 (ix2 r k) := by
  unfold runFirst.sl.H18_5
  rw [read_skip _ _ _ _ _ (rows_not_mem 136 364 1024 inb_S500x1024_S364x1024_136_0 _ _ (Or.inl (by show 112 + r.val < 136; omega)))]
  rw [read_skip _ _ _ _ _ (rows_not_mem 128 8 1024 inb_S500x1024_S8x1024_128_0 _ _ (Or.inl (by show 112 + r.val < 128; omega)))]
  rw [rows_emb 112 10 1024 inb_S500x1024_S10x1024_112_0 r k (by omega)]
  exact (View.read_writes_cons_emb _ _ _ _ _ _).trans ((pay16_apply _ r k).trans (congrFun (readAt_whole_unread arg7 harg7 _ p7) _))

/-- Rows 96 + r of the written weight stack are row r of head 1's weight. -/
theorem stackW1 {κ : Kind} {sp : Space} (v : View sig κ sp S500x1024 .bf16) (f : v.ty.Contents (Elt Ideal)) (c : Dev nD)
    (arg3 : Memref sig .tc .vmem S91x1024 .f32) (harg3 : arg3.IsWhole) (arg5 : Memref sig .tc .vmem S12x1024 .f32) (harg5 : arg5.IsWhole) (arg7 : Memref sig .tc .vmem S10x1024 .f32) (harg7 : arg7.IsWhole) (arg9 : Memref sig .tc .vmem S8x1024 .f32) (harg9 : arg9.IsWhole) (arg11 : Memref sig .tc .vmem S364x1024 .f32) (harg11 : arg11.IsWhole) (arg18 : Memref sig .tc .vmem S500x1024 .bf16) (harg18 : arg18.IsWhole)
    (p3 : Vec Ideal S91x1024 .f32) (p5 : Vec Ideal S12x1024 .f32) (p7 : Vec Ideal S10x1024 .f32) (p9 : Vec Ideal S8x1024 .f32) (p11 : Vec Ideal S364x1024 .f32) (ws : Vec Ideal S500x1024 .bf16) (r : Fin 12) (k : Fin 1024) :
    v.read (Elt Ideal) (v.writes (Elt Ideal) f (runFirst.sl.H18_5 (F := Ideal) c arg3 harg3 arg5 harg5 arg7 harg7 arg9 harg9 arg11 harg11 arg18 harg18 p3 p5 p7 p9 p11 ws)) (ix2 (⟨96 + r.val, by omega⟩ : Fin 500) k) = p5 (ix2 r k) := by
  unfold runFirst.sl.H18_5
  rw [read_skip _ _ _ _ _ (rows_not_mem 136 364 1024 inb_S500x1024_S364x1024_136_0 _ _ (Or.inl (by show 96 + r.val < 136; omega)))]
  rw [read_skip _ _ _ _ _ (rows_not_mem 128 8 1024 inb_S500x1024_S8x1024_128_0 _ _ (Or.inl (by show 96 + r.val < 128; omega)))]
  rw [read_skip _ _ _ _ _ (rows_not_mem 112 10 1024 inb_S500x1024_S10x1024_112_0 _ _ (Or.inl (by show 96 + r.val < 112; omega)))]
  rw [rows_emb 96 12 1024 inb_S500x1024_S12x1024_96_0 r k (by omega)]
  exact (View.read_writes_cons_emb _ _ _ _ _ _).trans ((pay14_apply _ r k).trans (congrFun (readAt_whole_unread arg5 harg5 _ p5) _))

/-- Rows 0 + r of the written weight stack are row r of head 0's weight. -/
theorem stackW0 {κ : Kind} {sp : Space} (v : View sig κ sp S500x1024 .bf16) (f : v.ty.Contents (Elt Ideal)) (c : Dev nD)
    (arg3 : Memref sig .tc .vmem S91x1024 .f32) (harg3 : arg3.IsWhole) (arg5 : Memref sig .tc .vmem S12x1024 .f32) (harg5 : arg5.IsWhole) (arg7 : Memref sig .tc .vmem S10x1024 .f32) (harg7 : arg7.IsWhole) (arg9 : Memref sig .tc .vmem S8x1024 .f32) (harg9 : arg9.IsWhole) (arg11 : Memref sig .tc .vmem S364x1024 .f32) (harg11 : arg11.IsWhole) (arg18 : Memref sig .tc .vmem S500x1024 .bf16) (harg18 : arg18.IsWhole)
    (p3 : Vec Ideal S91x1024 .f32) (p5 : Vec Ideal S12x1024 .f32) (p7 : Vec Ideal S10x1024 .f32) (p9 : Vec Ideal S8x1024 .f32) (p11 : Vec Ideal S364x1024 .f32) (ws : Vec Ideal S500x1024 .bf16) (r : Fin 91) (k : Fin 1024) :
    v.read (Elt Ideal) (v.writes (Elt Ideal) f (runFirst.sl.H18_5 (F := Ideal) c arg3 harg3 arg5 harg5 arg7 harg7 arg9 harg9 arg11 harg11 arg18 harg18 p3 p5 p7 p9 p11 ws)) (ix2 (⟨r.val, by omega⟩ : Fin 500) k) = p3 (ix2 r k) := by
  unfold runFirst.sl.H18_5
  rw [read_skip _ _ _ _ _ (rows_not_mem 136 364 1024 inb_S500x1024_S364x1024_136_0 _ _ (Or.inl (by show r.val < 136; omega)))]
  rw [read_skip _ _ _ _ _ (rows_not_mem 128 8 1024 inb_S500x1024_S8x1024_128_0 _ _ (Or.inl (by show r.val < 128; omega)))]
  rw [read_skip _ _ _ _ _ (rows_not_mem 112 10 1024 inb_S500x1024_S10x1024_112_0 _ _ (Or.inl (by show r.val < 112; omega)))]
  rw [read_skip _ _ _ _ _ (rows_not_mem 96 12 1024 inb_S500x1024_S12x1024_96_0 _ _ (Or.inl (by show r.val < 96; omega)))]
  rw [rows_emb0 92 1024 inb_S500x1024_S92x1024_0_0 (⟨r.val, by omega⟩ : Fin 92) k (by show r.val < 500; omega)]
  exact (View.read_writes_cons_emb _ _ _ _ _ _).trans ((updateSlice_top _ _ _ r k).trans ((pay12_apply _ r k).trans (congrFun (readAt_whole_unread arg3 harg3 _ p3) _)))

/-- Entry 136 + r of the written bias column is entry r of head 4's bias row. -/
theorem stackB4 {κ : Kind} {sp : Space} (v : View sig κ sp S500x1 .f32) (f : v.ty.Contents (Elt Ideal)) (c : Dev nD)
    (arg4 : Memref sig .tc .vmem S1x91 .f32) (harg4 : arg4.IsWhole) (arg6 : Memref sig .tc .vmem S1x12 .f32) (harg6 : arg6.IsWhole) (arg8 : Memref sig .tc .vmem S1x10 .f32) (harg8 : arg8.IsWhole) (arg10 : Memref sig .tc .vmem S1x8 .f32) (harg10 : arg10.IsWhole) (arg12 : Memref sig .tc .vmem S1x364 .f32) (harg12 : arg12.IsWhole)
    (p4 : Vec Ideal S1x91 .f32) (p6 : Vec Ideal S1x12 .f32) (p8 : Vec Ideal S1x10 .f32) (p10 : Vec Ideal S1x8 .f32) (p12 : Vec Ideal S1x364 .f32) (r : Fin 364) :
    v.read (Elt Ideal) (v.writes (Elt Ideal) f (runFirst.sl.H19_5 (F := Ideal) c arg4 harg4 arg6 harg6 arg8 harg8 arg10 harg10 arg12 harg12 p4 p6 p8 p10 p12)) (ix2 (⟨136 + r.val, by omega⟩ : Fin 500) (0 : Fin 1)) = p12 (ix2 (0 : Fin 1) r) := by
  unfold runFirst.sl.H19_5

  rw [rows_emb 136 364 1 inb_S500x1_S364x1_136_0 r (0 : Fin 1) (by omega)]
  exact (View.read_writes_cons_emb _ _ _ _ _ _).trans ((pay5_apply _ r).trans (congrFun (readAt_whole_unread arg12 harg12 _ p12) _))

/-- Entry 128 + r of the written bias column is entry r of head 3's bias row. -/
theorem stackB3 {κ : Kind} {sp : Space} (v : View sig κ sp S500x1 .f32) (f : v.ty.Contents (Elt Ideal)) (c : Dev nD)
    (arg4 : Memref sig .tc .vmem S1x91 .f32) (harg4 : arg4.IsWhole) (arg6 : Memref sig .tc .vmem S1x12 .f32) (harg6 : arg6.IsWhole) (arg8 : Memref sig .tc .vmem S1x10 .f32) (harg8 : arg8.IsWhole) (arg10 : Memref sig .tc .vmem S1x8 .f32) (harg10 : arg10.IsWhole) (arg12 : Memref sig .tc .vmem S1x364 .f32) (harg12 : arg12.IsWhole)
    (p4 : Vec Ideal S1x91 .f32) (p6 : Vec Ideal S1x12 .f32) (p8 : Vec Ideal S1x10 .f32) (p10 : Vec Ideal S1x8 .f32) (p12 : Vec Ideal S1x364 .f32) (r : Fin 8) :
    v.read (Elt Ideal) (v.writes (Elt Ideal) f (runFirst.sl.H19_5 (F := Ideal) c arg4 harg4 arg6 harg6 arg8 harg8 arg10 harg10 arg12 harg12 p4 p6 p8 p10 p12)) (ix2 (⟨128 + r.val, by omega⟩ : Fin 500) (0 : Fin 1)) = p10 (ix2 (0 : Fin 1) r) := by
  unfold runFirst.sl.H19_5
  rw [read_skip _ _ _ _ _ (rows_not_mem 136 364 1 inb_S500x1_S364x1_136_0 _ _ (Or.inl (by show 128 + r.val < 136; omega)))]
  rw [rows_emb 128 8 1 inb_S500x1_S8x1_128_0 r (0 : Fin 1) (by omega)]
  exact (View.read_writes_cons_emb _ _ _ _ _ _).trans ((pay3_apply _ r).trans (congrFun (readAt_whole_unread arg10 harg10 _ p10) _))

/-- Entry 112 + r of the written bias column is entry r of head 2's bias row. -/
theorem stackB2 {κ : Kind} {sp : Space} (v : View sig κ sp S500x1 .f32) (f : v.ty.Contents (Elt Ideal)) (c : Dev nD)
    (arg4 : Memref sig .tc .vmem S1x91 .f32) (harg4 : arg4.IsWhole) (arg6 : Memref sig .tc .vmem S1x12 .f32) (harg6 : arg6.IsWhole) (arg8 : Memref sig .tc .vmem S1x10 .f32) (harg8 : arg8.IsWhole) (arg10 : Memref sig .tc .vmem S1x8 .f32) (harg10 : arg10.IsWhole) (arg12 : Memref sig .tc .vmem S1x364 .f32) (harg12 : arg12.IsWhole)
    (p4 : Vec Ideal S1x91 .f32) (p6 : Vec Ideal S1x12 .f32) (p8 : Vec Ideal S1x10 .f32) (p10 : Vec Ideal S1x8 .f32) (p12 : Vec Ideal S1x364 .f32) (r : Fin 10) :
    v.read (Elt Ideal) (v.writes (Elt Ideal) f (runFirst.sl.H19_5 (F := Ideal) c arg4 harg4 arg6 harg6 arg8 harg8 arg10 harg10 arg12 harg12 p4 p6 p8 p10 p12)) (ix2 (⟨112 + r.val, by omega⟩ : Fin 500) (0 : Fin 1)) = p8 (ix2 (0 : Fin 1) r) := by
  unfold runFirst.sl.H19_5
  rw [read_skip _ _ _ _ _ (rows_not_mem 136 364 1 inb_S500x1_S364x1_136_0 _ _ (Or.inl (by show 112 + r.val < 136; omega)))]
  rw [read_skip _ _ _ _ _ (rows_not_mem 128 8 1 inb_S500x1_S8x1_128_0 _ _ (Or.inl (by show 112 + r.val < 128; omega)))]
  rw [rows_emb 112 10 1 inb_S500x1_S10x1_112_0 r (0 : Fin 1) (by omega)]
  unfold runFirst.sl.r
  exact (View.read_writes_cons_emb _ _ _ _ _ _).trans ((pay1_17_apply _ r).trans (congrFun (readAt_whole_unread arg8 harg8 _ p8) _))

/-- Entry 96 + r of the written bias column is entry r of head 1's bias row. -/
theorem stackB1 {κ : Kind} {sp : Space} (v : View sig κ sp S500x1 .f32) (f : v.ty.Contents (Elt Ideal)) (c : Dev nD)
    (arg4 : Memref sig .tc .vmem S1x91 .f32) (harg4 : arg4.IsWhole) (arg6 : Memref sig .tc .vmem S1x12 .f32) (harg6 : arg6.IsWhole) (arg8 : Memref sig .tc .vmem S1x10 .f32) (harg8 : arg8.IsWhole) (arg10 : Memref sig .tc .vmem S1x8 .f32) (harg10 : arg10.IsWhole) (arg12 : Memref sig .tc .vmem S1x364 .f32) (harg12 : arg12.IsWhole)
    (p4 : Vec Ideal S1x91 .f32) (p6 : Vec Ideal S1x12 .f32) (p8 : Vec Ideal S1x10 .f32) (p10 : Vec Ideal S1x8 .f32) (p12 : Vec Ideal S1x364 .f32) (r : Fin 12) :
    v.read (Elt Ideal) (v.writes (Elt Ideal) f (runFirst.sl.H19_5 (F := Ideal) c arg4 harg4 arg6 harg6 arg8 harg8 arg10 harg10 arg12 harg12 p4 p6 p8 p10 p12)) (ix2 (⟨96 + r.val, by omega⟩ : Fin 500) (0 : Fin 1)) = p6 (ix2 (0 : Fin 1) r) := by
  unfold runFirst.sl.H19_5
  rw [read_skip _ _ _ _ _ (rows_not_mem 136 364 1 inb_S500x1_S364x1_136_0 _ _ (Or.inl (by show 96 + r.val < 136; omega)))]
  rw [read_skip _ _ _ _ _ (rows_not_mem 128 8 1 inb_S500x1_S8x1_128_0 _ _ (Or.inl (by show 96 + r.val < 128; omega)))]
  rw [read_skip _ _ _ _ _ (rows_not_mem 112 10 1 inb_S500x1_S10x1_112_0 _ _ (Or.inl (by show 96 + r.val < 112; omega)))]
  rw [rows_emb 96 12 1 inb_S500x1_S12x1_96_0 r (0 : Fin 1) (by omega)]
  exact (View.read_writes_cons_emb _ _ _ _ _ _).trans ((pay15_apply _ r).trans (congrFun (readAt_whole_unread arg6 harg6 _ p6) _))

/-- Entry 0 + r of the written bias column is entry r of head 0's bias row. -/
theorem stackB0 {κ : Kind} {sp : Space} (v : View sig κ sp S500x1 .f32) (f : v.ty.Contents (Elt Ideal)) (c : Dev nD)
    (arg4 : Memref sig .tc .vmem S1x91 .f32) (harg4 : arg4.IsWhole) (arg6 : Memref sig .tc .vmem S1x12 .f32) (harg6 : arg6.IsWhole) (arg8 : Memref sig .tc .vmem S1x10 .f32) (harg8 : arg8.IsWhole) (arg10 : Memref sig .tc .vmem S1x8 .f32) (harg10 : arg10.IsWhole) (arg12 : Memref sig .tc .vmem S1x364 .f32) (harg12 : arg12.IsWhole)
    (p4 : Vec Ideal S1x91 .f32) (p6 : Vec Ideal S1x12 .f32) (p8 : Vec Ideal S1x10 .f32) (p10 : Vec Ideal S1x8 .f32) (p12 : Vec Ideal S1x364 .f32) (r : Fin 91) :
    v.read (Elt Ideal) (v.writes (Elt Ideal) f (runFirst.sl.H19_5 (F := Ideal) c arg4 harg4 arg6 harg6 arg8 harg8 arg10 harg10 arg12 harg12 p4 p6 p8 p10 p12)) (ix2 (⟨r.val, by omega⟩ : Fin 500) (0 : Fin 1)) = p4 (ix2 (0 : Fin 1) r) := by
  unfold runFirst.sl.H19_5
  rw [read_skip _ _ _ _ _ (rows_not_mem 136 364 1 inb_S500x1_S364x1_136_0 _ _ (Or.inl (by show r.val < 136; omega)))]
  rw [read_skip _ _ _ _ _ (rows_not_mem 128 8 1 inb_S500x1_S8x1_128_0 _ _ (Or.inl (by show r.val < 128; omega)))]
  rw [read_skip _ _ _ _ _ (rows_not_mem 112 10 1 inb_S500x1_S10x1_112_0 _ _ (Or.inl (by show r.val < 112; omega)))]
  rw [read_skip _ _ _ _ _ (rows_not_mem 96 12 1 inb_S500x1_S12x1_96_0 _ _ (Or.inl (by show r.val < 96; omega)))]
  rw [rows_emb0 91 1 inb_S500x1_S91x1_0_0 r (0 : Fin 1) (by show r.val < 500; omega)]
  exact (View.read_writes_cons_emb _ _ _ _ _ _).trans ((pay13_apply _ r).trans (congrFun (readAt_whole_unread arg4 harg4 _ p4) _))

/-! ## What the runs' pieces read as -/

/-- The loads of the weight stack's halves from a whole buffer held at the contents that read `ws`. -/
theorem readAt_lo (arg18 : Memref sig .tc .vmem S500x1024 .bf16) (harg18 : arg18.IsWhole) (ws : Vec Ideal S500x1024 .bf16) :
    View.readAt (Elt Ideal) arg18.view rLo.toLoadRect (harg18.unread ws) = wsLo ws := by
  rw [View.readAt_eq_ld, harg18.read_unread]
theorem readAt_hi (arg18 : Memref sig .tc .vmem S500x1024 .bf16) (harg18 : arg18.IsWhole) (ws : Vec Ideal S500x1024 .bf16) :
    View.readAt (Elt Ideal) arg18.view rHi.toLoadRect (harg18.unread ws) = wsHi ws := by
  rw [View.readAt_eq_ld, harg18.read_unread]

theorem restRead13 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : ¬isFirst i)
    (X0 X1 : Vec Ideal S2048x512 .f32) (p3 : Vec Ideal S91x1024 .f32) (p4 : Vec Ideal S1x91 .f32) (p5 : Vec Ideal S12x1024 .f32) (p6 : Vec Ideal S1x12 .f32) (p7 : Vec Ideal S10x1024 .f32) (p8 : Vec Ideal S1x10 .f32) (p9 : Vec Ideal S8x1024 .f32) (p10 : Vec Ideal S1x8 .f32) (p11 : Vec Ideal S364x1024 .f32) (p12 : Vec Ideal S1x364 .f32) (ws : Vec Ideal S500x1024 .bf16) (bs : Vec Ideal S500x1 .f32)
    (f : arg13.view.ty.Contents (Elt Ideal)) :
    arg13.view.read (Elt Ideal) (arg13.view.writes (Elt Ideal) f (runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).1)
      = k0_pay7 X0 (wsLo ws) X1 (wsHi ws) bs := by
  rw [show (runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).1
      = [⟨Rect.unit (s := S91x2048) ![0, 0] S91x2048.size inb_S91x2048_S91x2048_0_0,
          k0_pay7 (View.readAt (Elt Ideal) arg1.view (Rect.unit (s := S2048x512) ![0, 0] S2048x512.size inb_S2048x512_S2048x512_0_0).toLoadRect (harg1.unread X0))
            (View.readAt (Elt Ideal) arg18.view rLo.toLoadRect (harg18.unread ws))
            (View.readAt (Elt Ideal) arg2.view (Rect.unit (s := S2048x512) ![0, 0] S2048x512.size inb_S2048x512_S2048x512_0_0).toLoadRect (harg2.unread X1))
            (View.readAt (Elt Ideal) arg18.view rHi.toLoadRect (harg18.unread ws))
            (View.readAt (Elt Ideal) arg19.view (Rect.unit (s := S500x1) ![0, 0] S500x1.size inb_S500x1_S500x1_0_0).toLoadRect (harg19.unread bs))⟩] from rfl]
  rw [read_one, readAt_whole_unread arg1 harg1, readAt_whole_unread arg2 harg2, readAt_whole_unread arg19 harg19,
    readAt_lo arg18 harg18, readAt_hi arg18 harg18]

theorem restRead14 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : ¬isFirst i)
    (X0 X1 : Vec Ideal S2048x512 .f32) (p3 : Vec Ideal S91x1024 .f32) (p4 : Vec Ideal S1x91 .f32) (p5 : Vec Ideal S12x1024 .f32) (p6 : Vec Ideal S1x12 .f32) (p7 : Vec Ideal S10x1024 .f32) (p8 : Vec Ideal S1x10 .f32) (p9 : Vec Ideal S8x1024 .f32) (p10 : Vec Ideal S1x8 .f32) (p11 : Vec Ideal S364x1024 .f32) (p12 : Vec Ideal S1x364 .f32) (ws : Vec Ideal S500x1024 .bf16) (bs : Vec Ideal S500x1 .f32)
    (f : arg14.view.ty.Contents (Elt Ideal)) :
    arg14.view.read (Elt Ideal) (arg14.view.writes (Elt Ideal) f (runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.1)
      = k0_pay8 X0 (wsLo ws) X1 (wsHi ws) bs := by
  rw [show (runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.1
      = [⟨Rect.unit (s := S12x2048) ![0, 0] S12x2048.size inb_S12x2048_S12x2048_0_0,
          k0_pay8 (View.readAt (Elt Ideal) arg1.view (Rect.unit (s := S2048x512) ![0, 0] S2048x512.size inb_S2048x512_S2048x512_0_0).toLoadRect (harg1.unread X0))
            (View.readAt (Elt Ideal) arg18.view rLo.toLoadRect (harg18.unread ws))
            (View.readAt (Elt Ideal) arg2.view (Rect.unit (s := S2048x512) ![0, 0] S2048x512.size inb_S2048x512_S2048x512_0_0).toLoadRect (harg2.unread X1))
            (View.readAt (Elt Ideal) arg18.view rHi.toLoadRect (harg18.unread ws))
            (View.readAt (Elt Ideal) arg19.view (Rect.unit (s := S500x1) ![0, 0] S500x1.size inb_S500x1_S500x1_0_0).toLoadRect (harg19.unread bs))⟩] from rfl]
  rw [read_one, readAt_whole_unread arg1 harg1, readAt_whole_unread arg2 harg2, readAt_whole_unread arg19 harg19,
    readAt_lo arg18 harg18, readAt_hi arg18 harg18]

theorem restRead15 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : ¬isFirst i)
    (X0 X1 : Vec Ideal S2048x512 .f32) (p3 : Vec Ideal S91x1024 .f32) (p4 : Vec Ideal S1x91 .f32) (p5 : Vec Ideal S12x1024 .f32) (p6 : Vec Ideal S1x12 .f32) (p7 : Vec Ideal S10x1024 .f32) (p8 : Vec Ideal S1x10 .f32) (p9 : Vec Ideal S8x1024 .f32) (p10 : Vec Ideal S1x8 .f32) (p11 : Vec Ideal S364x1024 .f32) (p12 : Vec Ideal S1x364 .f32) (ws : Vec Ideal S500x1024 .bf16) (bs : Vec Ideal S500x1 .f32)
    (f : arg15.view.ty.Contents (Elt Ideal)) :
    arg15.view.read (Elt Ideal) (arg15.view.writes (Elt Ideal) f (runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.1)
      = k0_pay9 X0 (wsLo ws) X1 (wsHi ws) bs := by
  rw [show (runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.1
      = [⟨Rect.unit (s := S10x2048) ![0, 0] S10x2048.size inb_S10x2048_S10x2048_0_0,
          k0_pay9 (View.readAt (Elt Ideal) arg1.view (Rect.unit (s := S2048x512) ![0, 0] S2048x512.size inb_S2048x512_S2048x512_0_0).toLoadRect (harg1.unread X0))
            (View.readAt (Elt Ideal) arg18.view rLo.toLoadRect (harg18.unread ws))
            (View.readAt (Elt Ideal) arg2.view (Rect.unit (s := S2048x512) ![0, 0] S2048x512.size inb_S2048x512_S2048x512_0_0).toLoadRect (harg2.unread X1))
            (View.readAt (Elt Ideal) arg18.view rHi.toLoadRect (harg18.unread ws))
            (View.readAt (Elt Ideal) arg19.view (Rect.unit (s := S500x1) ![0, 0] S500x1.size inb_S500x1_S500x1_0_0).toLoadRect (harg19.unread bs))⟩] from rfl]
  rw [read_one, readAt_whole_unread arg1 harg1, readAt_whole_unread arg2 harg2, readAt_whole_unread arg19 harg19,
    readAt_lo arg18 harg18, readAt_hi arg18 harg18]

theorem restRead16 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : ¬isFirst i)
    (X0 X1 : Vec Ideal S2048x512 .f32) (p3 : Vec Ideal S91x1024 .f32) (p4 : Vec Ideal S1x91 .f32) (p5 : Vec Ideal S12x1024 .f32) (p6 : Vec Ideal S1x12 .f32) (p7 : Vec Ideal S10x1024 .f32) (p8 : Vec Ideal S1x10 .f32) (p9 : Vec Ideal S8x1024 .f32) (p10 : Vec Ideal S1x8 .f32) (p11 : Vec Ideal S364x1024 .f32) (p12 : Vec Ideal S1x364 .f32) (ws : Vec Ideal S500x1024 .bf16) (bs : Vec Ideal S500x1 .f32)
    (f : arg16.view.ty.Contents (Elt Ideal)) :
    arg16.view.read (Elt Ideal) (arg16.view.writes (Elt Ideal) f (runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.2.1)
      = k0_pay10 X0 (wsLo ws) X1 (wsHi ws) bs := by
  rw [show (runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.2.1
      = [⟨Rect.unit (s := S8x2048) ![0, 0] S8x2048.size inb_S8x2048_S8x2048_0_0,
          k0_pay10 (View.readAt (Elt Ideal) arg1.view (Rect.unit (s := S2048x512) ![0, 0] S2048x512.size inb_S2048x512_S2048x512_0_0).toLoadRect (harg1.unread X0))
            (View.readAt (Elt Ideal) arg18.view rLo.toLoadRect (harg18.unread ws))
            (View.readAt (Elt Ideal) arg2.view (Rect.unit (s := S2048x512) ![0, 0] S2048x512.size inb_S2048x512_S2048x512_0_0).toLoadRect (harg2.unread X1))
            (View.readAt (Elt Ideal) arg18.view rHi.toLoadRect (harg18.unread ws))
            (View.readAt (Elt Ideal) arg19.view (Rect.unit (s := S500x1) ![0, 0] S500x1.size inb_S500x1_S500x1_0_0).toLoadRect (harg19.unread bs))⟩] from rfl]
  rw [read_one, readAt_whole_unread arg1 harg1, readAt_whole_unread arg2 harg2, readAt_whole_unread arg19 harg19,
    readAt_lo arg18 harg18, readAt_hi arg18 harg18]

theorem restRead17 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : ¬isFirst i)
    (X0 X1 : Vec Ideal S2048x512 .f32) (p3 : Vec Ideal S91x1024 .f32) (p4 : Vec Ideal S1x91 .f32) (p5 : Vec Ideal S12x1024 .f32) (p6 : Vec Ideal S1x12 .f32) (p7 : Vec Ideal S10x1024 .f32) (p8 : Vec Ideal S1x10 .f32) (p9 : Vec Ideal S8x1024 .f32) (p10 : Vec Ideal S1x8 .f32) (p11 : Vec Ideal S364x1024 .f32) (p12 : Vec Ideal S1x364 .f32) (ws : Vec Ideal S500x1024 .bf16) (bs : Vec Ideal S500x1 .f32)
    (f : arg17.view.ty.Contents (Elt Ideal)) :
    arg17.view.read (Elt Ideal) (arg17.view.writes (Elt Ideal) f (runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.2.2.1)
      = k0_pay11 X0 (wsLo ws) X1 (wsHi ws) bs := by
  rw [show (runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.2.2.1
      = [⟨Rect.unit (s := S364x2048) ![0, 0] S364x2048.size inb_S364x2048_S364x2048_0_0,
          k0_pay11 (View.readAt (Elt Ideal) arg1.view (Rect.unit (s := S2048x512) ![0, 0] S2048x512.size inb_S2048x512_S2048x512_0_0).toLoadRect (harg1.unread X0))
            (View.readAt (Elt Ideal) arg18.view rLo.toLoadRect (harg18.unread ws))
            (View.readAt (Elt Ideal) arg2.view (Rect.unit (s := S2048x512) ![0, 0] S2048x512.size inb_S2048x512_S2048x512_0_0).toLoadRect (harg2.unread X1))
            (View.readAt (Elt Ideal) arg18.view rHi.toLoadRect (harg18.unread ws))
            (View.readAt (Elt Ideal) arg19.view (Rect.unit (s := S500x1) ![0, 0] S500x1.size inb_S500x1_S500x1_0_0).toLoadRect (harg19.unread bs))⟩] from rfl]
  rw [read_one, readAt_whole_unread arg1 harg1, readAt_whole_unread arg2 harg2, readAt_whole_unread arg19 harg19,
    readAt_lo arg18 harg18, readAt_hi arg18 harg18]

theorem firstRead13 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : isFirst i)
    (X0 X1 : Vec Ideal S2048x512 .f32) (p3 : Vec Ideal S91x1024 .f32) (p4 : Vec Ideal S1x91 .f32) (p5 : Vec Ideal S12x1024 .f32) (p6 : Vec Ideal S1x12 .f32) (p7 : Vec Ideal S10x1024 .f32) (p8 : Vec Ideal S1x10 .f32) (p9 : Vec Ideal S8x1024 .f32) (p10 : Vec Ideal S1x8 .f32) (p11 : Vec Ideal S364x1024 .f32) (p12 : Vec Ideal S1x364 .f32) (ws : Vec Ideal S500x1024 .bf16) (bs : Vec Ideal S500x1 .f32)
    (f : arg13.view.ty.Contents (Elt Ideal)) :
    arg13.view.read (Elt Ideal) (arg13.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).1)
      = k0_pay7 X0 (wsLo (arg18.view.read (Elt Ideal) (arg18.view.writes (Elt Ideal) (harg18.unread ws) (runFirst.sl.H18_5 (F := Ideal) c arg3 harg3 arg5 harg5 arg7 harg7 arg9 harg9 arg11 harg11 arg18 harg18 p3 p5 p7 p9 p11 ws)))) X1 (wsHi (arg18.view.read (Elt Ideal) (arg18.view.writes (Elt Ideal) (harg18.unread ws) (runFirst.sl.H18_5 (F := Ideal) c arg3 harg3 arg5 harg5 arg7 harg7 arg9 harg9 arg11 harg11 arg18 harg18 p3 p5 p7 p9 p11 ws)))) (arg19.view.read (Elt Ideal) (arg19.view.writes (Elt Ideal) (harg19.unread bs) (runFirst.sl.H19_5 (F := Ideal) c arg4 harg4 arg6 harg6 arg8 harg8 arg10 harg10 arg12 harg12 p4 p6 p8 p10 p12))) := by
  rw [show (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).1
      = [⟨Rect.unit (s := S91x2048) ![0, 0] S91x2048.size inb_S91x2048_S91x2048_0_0,
          k0_pay7 (View.readAt (Elt Ideal) arg1.view (Rect.unit (s := S2048x512) ![0, 0] S2048x512.size inb_S2048x512_S2048x512_0_0).toLoadRect (harg1.unread X0))
            (runFirst.sl.v5 (F := Ideal) c arg3 harg3 arg5 harg5 arg7 harg7 arg9 harg9 arg11 harg11 arg18 harg18 p3 p5 p7 p9 p11 ws)
            (View.readAt (Elt Ideal) arg2.view (Rect.unit (s := S2048x512) ![0, 0] S2048x512.size inb_S2048x512_S2048x512_0_0).toLoadRect (harg2.unread X1))
            (runFirst.sl.v9 (F := Ideal) c arg3 harg3 arg5 harg5 arg7 harg7 arg9 harg9 arg11 harg11 arg18 harg18 p3 p5 p7 p9 p11 ws)
            (runFirst.sl.v12 (F := Ideal) c arg4 harg4 arg6 harg6 arg8 harg8 arg10 harg10 arg12 harg12 arg19 harg19 p4 p6 p8 p10 p12 bs)⟩] from rfl]
  unfold runFirst.sl.v5 runFirst.sl.v9 runFirst.sl.v12
  rw [read_one, readAt_whole_unread arg1 harg1, readAt_whole_unread arg2 harg2]
  rw [View.readAt_eq_ld arg19.view _ (Rect.unit (s := S500x1) ![0, 0] S500x1.size inb_S500x1_S500x1_0_0), View.ld_unit_zero off0]
  rfl

theorem firstRead14 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : isFirst i)
    (X0 X1 : Vec Ideal S2048x512 .f32) (p3 : Vec Ideal S91x1024 .f32) (p4 : Vec Ideal S1x91 .f32) (p5 : Vec Ideal S12x1024 .f32) (p6 : Vec Ideal S1x12 .f32) (p7 : Vec Ideal S10x1024 .f32) (p8 : Vec Ideal S1x10 .f32) (p9 : Vec Ideal S8x1024 .f32) (p10 : Vec Ideal S1x8 .f32) (p11 : Vec Ideal S364x1024 .f32) (p12 : Vec Ideal S1x364 .f32) (ws : Vec Ideal S500x1024 .bf16) (bs : Vec Ideal S500x1 .f32)
    (f : arg14.view.ty.Contents (Elt Ideal)) :
    arg14.view.read (Elt Ideal) (arg14.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.1)
      = k0_pay8 X0 (wsLo (arg18.view.read (Elt Ideal) (arg18.view.writes (Elt Ideal) (harg18.unread ws) (runFirst.sl.H18_5 (F := Ideal) c arg3 harg3 arg5 harg5 arg7 harg7 arg9 harg9 arg11 harg11 arg18 harg18 p3 p5 p7 p9 p11 ws)))) X1 (wsHi (arg18.view.read (Elt Ideal) (arg18.view.writes (Elt Ideal) (harg18.unread ws) (runFirst.sl.H18_5 (F := Ideal) c arg3 harg3 arg5 harg5 arg7 harg7 arg9 harg9 arg11 harg11 arg18 harg18 p3 p5 p7 p9 p11 ws)))) (arg19.view.read (Elt Ideal) (arg19.view.writes (Elt Ideal) (harg19.unread bs) (runFirst.sl.H19_5 (F := Ideal) c arg4 harg4 arg6 harg6 arg8 harg8 arg10 harg10 arg12 harg12 p4 p6 p8 p10 p12))) := by
  rw [show (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.1
      = [⟨Rect.unit (s := S12x2048) ![0, 0] S12x2048.size inb_S12x2048_S12x2048_0_0,
          k0_pay8 (View.readAt (Elt Ideal) arg1.view (Rect.unit (s := S2048x512) ![0, 0] S2048x512.size inb_S2048x512_S2048x512_0_0).toLoadRect (harg1.unread X0))
            (runFirst.sl.v5 (F := Ideal) c arg3 harg3 arg5 harg5 arg7 harg7 arg9 harg9 arg11 harg11 arg18 harg18 p3 p5 p7 p9 p11 ws)
            (View.readAt (Elt Ideal) arg2.view (Rect.unit (s := S2048x512) ![0, 0] S2048x512.size inb_S2048x512_S2048x512_0_0).toLoadRect (harg2.unread X1))
            (runFirst.sl.v9 (F := Ideal) c arg3 harg3 arg5 harg5 arg7 harg7 arg9 harg9 arg11 harg11 arg18 harg18 p3 p5 p7 p9 p11 ws)
            (runFirst.sl.v12 (F := Ideal) c arg4 harg4 arg6 harg6 arg8 harg8 arg10 harg10 arg12 harg12 arg19 harg19 p4 p6 p8 p10 p12 bs)⟩] from rfl]
  unfold runFirst.sl.v5 runFirst.sl.v9 runFirst.sl.v12
  rw [read_one, readAt_whole_unread arg1 harg1, readAt_whole_unread arg2 harg2]
  rw [View.readAt_eq_ld arg19.view _ (Rect.unit (s := S500x1) ![0, 0] S500x1.size inb_S500x1_S500x1_0_0), View.ld_unit_zero off0]
  rfl

theorem firstRead15 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : isFirst i)
    (X0 X1 : Vec Ideal S2048x512 .f32) (p3 : Vec Ideal S91x1024 .f32) (p4 : Vec Ideal S1x91 .f32) (p5 : Vec Ideal S12x1024 .f32) (p6 : Vec Ideal S1x12 .f32) (p7 : Vec Ideal S10x1024 .f32) (p8 : Vec Ideal S1x10 .f32) (p9 : Vec Ideal S8x1024 .f32) (p10 : Vec Ideal S1x8 .f32) (p11 : Vec Ideal S364x1024 .f32) (p12 : Vec Ideal S1x364 .f32) (ws : Vec Ideal S500x1024 .bf16) (bs : Vec Ideal S500x1 .f32)
    (f : arg15.view.ty.Contents (Elt Ideal)) :
    arg15.view.read (Elt Ideal) (arg15.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.1)
      = k0_pay9 X0 (wsLo (arg18.view.read (Elt Ideal) (arg18.view.writes (Elt Ideal) (harg18.unread ws) (runFirst.sl.H18_5 (F := Ideal) c arg3 harg3 arg5 harg5 arg7 harg7 arg9 harg9 arg11 harg11 arg18 harg18 p3 p5 p7 p9 p11 ws)))) X1 (wsHi (arg18.view.read (Elt Ideal) (arg18.view.writes (Elt Ideal) (harg18.unread ws) (runFirst.sl.H18_5 (F := Ideal) c arg3 harg3 arg5 harg5 arg7 harg7 arg9 harg9 arg11 harg11 arg18 harg18 p3 p5 p7 p9 p11 ws)))) (arg19.view.read (Elt Ideal) (arg19.view.writes (Elt Ideal) (harg19.unread bs) (runFirst.sl.H19_5 (F := Ideal) c arg4 harg4 arg6 harg6 arg8 harg8 arg10 harg10 arg12 harg12 p4 p6 p8 p10 p12))) := by
  rw [show (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.1
      = [⟨Rect.unit (s := S10x2048) ![0, 0] S10x2048.size inb_S10x2048_S10x2048_0_0,
          k0_pay9 (View.readAt (Elt Ideal) arg1.view (Rect.unit (s := S2048x512) ![0, 0] S2048x512.size inb_S2048x512_S2048x512_0_0).toLoadRect (harg1.unread X0))
            (runFirst.sl.v5 (F := Ideal) c arg3 harg3 arg5 harg5 arg7 harg7 arg9 harg9 arg11 harg11 arg18 harg18 p3 p5 p7 p9 p11 ws)
            (View.readAt (Elt Ideal) arg2.view (Rect.unit (s := S2048x512) ![0, 0] S2048x512.size inb_S2048x512_S2048x512_0_0).toLoadRect (harg2.unread X1))
            (runFirst.sl.v9 (F := Ideal) c arg3 harg3 arg5 harg5 arg7 harg7 arg9 harg9 arg11 harg11 arg18 harg18 p3 p5 p7 p9 p11 ws)
            (runFirst.sl.v12 (F := Ideal) c arg4 harg4 arg6 harg6 arg8 harg8 arg10 harg10 arg12 harg12 arg19 harg19 p4 p6 p8 p10 p12 bs)⟩] from rfl]
  unfold runFirst.sl.v5 runFirst.sl.v9 runFirst.sl.v12
  rw [read_one, readAt_whole_unread arg1 harg1, readAt_whole_unread arg2 harg2]
  rw [View.readAt_eq_ld arg19.view _ (Rect.unit (s := S500x1) ![0, 0] S500x1.size inb_S500x1_S500x1_0_0), View.ld_unit_zero off0]
  rfl

theorem firstRead16 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : isFirst i)
    (X0 X1 : Vec Ideal S2048x512 .f32) (p3 : Vec Ideal S91x1024 .f32) (p4 : Vec Ideal S1x91 .f32) (p5 : Vec Ideal S12x1024 .f32) (p6 : Vec Ideal S1x12 .f32) (p7 : Vec Ideal S10x1024 .f32) (p8 : Vec Ideal S1x10 .f32) (p9 : Vec Ideal S8x1024 .f32) (p10 : Vec Ideal S1x8 .f32) (p11 : Vec Ideal S364x1024 .f32) (p12 : Vec Ideal S1x364 .f32) (ws : Vec Ideal S500x1024 .bf16) (bs : Vec Ideal S500x1 .f32)
    (f : arg16.view.ty.Contents (Elt Ideal)) :
    arg16.view.read (Elt Ideal) (arg16.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.2.1)
      = k0_pay10 X0 (wsLo (arg18.view.read (Elt Ideal) (arg18.view.writes (Elt Ideal) (harg18.unread ws) (runFirst.sl.H18_5 (F := Ideal) c arg3 harg3 arg5 harg5 arg7 harg7 arg9 harg9 arg11 harg11 arg18 harg18 p3 p5 p7 p9 p11 ws)))) X1 (wsHi (arg18.view.read (Elt Ideal) (arg18.view.writes (Elt Ideal) (harg18.unread ws) (runFirst.sl.H18_5 (F := Ideal) c arg3 harg3 arg5 harg5 arg7 harg7 arg9 harg9 arg11 harg11 arg18 harg18 p3 p5 p7 p9 p11 ws)))) (arg19.view.read (Elt Ideal) (arg19.view.writes (Elt Ideal) (harg19.unread bs) (runFirst.sl.H19_5 (F := Ideal) c arg4 harg4 arg6 harg6 arg8 harg8 arg10 harg10 arg12 harg12 p4 p6 p8 p10 p12))) := by
  rw [show (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.2.1
      = [⟨Rect.unit (s := S8x2048) ![0, 0] S8x2048.size inb_S8x2048_S8x2048_0_0,
          k0_pay10 (View.readAt (Elt Ideal) arg1.view (Rect.unit (s := S2048x512) ![0, 0] S2048x512.size inb_S2048x512_S2048x512_0_0).toLoadRect (harg1.unread X0))
            (runFirst.sl.v5 (F := Ideal) c arg3 harg3 arg5 harg5 arg7 harg7 arg9 harg9 arg11 harg11 arg18 harg18 p3 p5 p7 p9 p11 ws)
            (View.readAt (Elt Ideal) arg2.view (Rect.unit (s := S2048x512) ![0, 0] S2048x512.size inb_S2048x512_S2048x512_0_0).toLoadRect (harg2.unread X1))
            (runFirst.sl.v9 (F := Ideal) c arg3 harg3 arg5 harg5 arg7 harg7 arg9 harg9 arg11 harg11 arg18 harg18 p3 p5 p7 p9 p11 ws)
            (runFirst.sl.v12 (F := Ideal) c arg4 harg4 arg6 harg6 arg8 harg8 arg10 harg10 arg12 harg12 arg19 harg19 p4 p6 p8 p10 p12 bs)⟩] from rfl]
  unfold runFirst.sl.v5 runFirst.sl.v9 runFirst.sl.v12
  rw [read_one, readAt_whole_unread arg1 harg1, readAt_whole_unread arg2 harg2]
  rw [View.readAt_eq_ld arg19.view _ (Rect.unit (s := S500x1) ![0, 0] S500x1.size inb_S500x1_S500x1_0_0), View.ld_unit_zero off0]
  rfl

theorem firstRead17 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole) (hc : isFirst i)
    (X0 X1 : Vec Ideal S2048x512 .f32) (p3 : Vec Ideal S91x1024 .f32) (p4 : Vec Ideal S1x91 .f32) (p5 : Vec Ideal S12x1024 .f32) (p6 : Vec Ideal S1x12 .f32) (p7 : Vec Ideal S10x1024 .f32) (p8 : Vec Ideal S1x10 .f32) (p9 : Vec Ideal S8x1024 .f32) (p10 : Vec Ideal S1x8 .f32) (p11 : Vec Ideal S364x1024 .f32) (p12 : Vec Ideal S1x364 .f32) (ws : Vec Ideal S500x1024 .bf16) (bs : Vec Ideal S500x1 .f32)
    (f : arg17.view.ty.Contents (Elt Ideal)) :
    arg17.view.read (Elt Ideal) (arg17.view.writes (Elt Ideal) f (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.2.2.1)
      = k0_pay11 X0 (wsLo (arg18.view.read (Elt Ideal) (arg18.view.writes (Elt Ideal) (harg18.unread ws) (runFirst.sl.H18_5 (F := Ideal) c arg3 harg3 arg5 harg5 arg7 harg7 arg9 harg9 arg11 harg11 arg18 harg18 p3 p5 p7 p9 p11 ws)))) X1 (wsHi (arg18.view.read (Elt Ideal) (arg18.view.writes (Elt Ideal) (harg18.unread ws) (runFirst.sl.H18_5 (F := Ideal) c arg3 harg3 arg5 harg5 arg7 harg7 arg9 harg9 arg11 harg11 arg18 harg18 p3 p5 p7 p9 p11 ws)))) (arg19.view.read (Elt Ideal) (arg19.view.writes (Elt Ideal) (harg19.unread bs) (runFirst.sl.H19_5 (F := Ideal) c arg4 harg4 arg6 harg6 arg8 harg8 arg10 harg10 arg12 harg12 p4 p6 p8 p10 p12))) := by
  rw [show (runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 p3 p4 p5 p6 p7 p8 p9 p10 p11 p12 ws bs).2.2.2.2.1
      = [⟨Rect.unit (s := S364x2048) ![0, 0] S364x2048.size inb_S364x2048_S364x2048_0_0,
          k0_pay11 (View.readAt (Elt Ideal) arg1.view (Rect.unit (s := S2048x512) ![0, 0] S2048x512.size inb_S2048x512_S2048x512_0_0).toLoadRect (harg1.unread X0))
            (runFirst.sl.v5 (F := Ideal) c arg3 harg3 arg5 harg5 arg7 harg7 arg9 harg9 arg11 harg11 arg18 harg18 p3 p5 p7 p9 p11 ws)
            (View.readAt (Elt Ideal) arg2.view (Rect.unit (s := S2048x512) ![0, 0] S2048x512.size inb_S2048x512_S2048x512_0_0).toLoadRect (harg2.unread X1))
            (runFirst.sl.v9 (F := Ideal) c arg3 harg3 arg5 harg5 arg7 harg7 arg9 harg9 arg11 harg11 arg18 harg18 p3 p5 p7 p9 p11 ws)
            (runFirst.sl.v12 (F := Ideal) c arg4 harg4 arg6 harg6 arg8 harg8 arg10 harg10 arg12 harg12 arg19 harg19 p4 p6 p8 p10 p12 bs)⟩] from rfl]
  unfold runFirst.sl.v5 runFirst.sl.v9 runFirst.sl.v12
  rw [read_one, readAt_whole_unread arg1 harg1, readAt_whole_unread arg2 harg2]
  rw [View.readAt_eq_ld arg19.view _ (Rect.unit (s := S500x1) ![0, 0] S500x1.size inb_S500x1_S500x1_0_0), View.ld_unit_zero off0]
  rfl

/-- Whatever the scratch buffers held, after the first point's stores they hold the stacks. -/
theorem firstStacked (c : Dev nD) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg18 : Memref sig .tc .vmem S500x1024 .bf16) (harg18 : arg18.IsWhole) (arg19 : Memref sig .tc .vmem S500x1 .f32) (harg19 : arg19.IsWhole)
    (ws : Vec Ideal S500x1024 .bf16) (g18 : arg18.view.ty.Contents (Elt Ideal)) (g19 : arg19.view.ty.Contents (Elt Ideal)) :
    Stacked m c
      (arg18.view.read (Elt Ideal) (arg18.view.writes (Elt Ideal) g18 (runFirst.sl.H18_5 (F := Ideal) c arg3 harg3 arg5 harg5 arg7 harg7 arg9 harg9 arg11 harg11 arg18 harg18 (wt0 m c) (wt1 m c) (wt2 m c) (wt3 m c) (wt4 m c) ws)))
      (arg19.view.read (Elt Ideal) (arg19.view.writes (Elt Ideal) g19 (runFirst.sl.H19_5 (F := Ideal) c arg4 harg4 arg6 harg6 arg8 harg8 arg10 harg10 arg12 harg12 (br0 m c) (br1 m c) (br2 m c) (br3 m c) (br4 m c)))) where
  w0 r k := stackW0 arg18.view g18 c arg3 harg3 arg5 harg5 arg7 harg7 arg9 harg9 arg11 harg11 arg18 harg18 _ _ _ _ _ ws r k
  w1 r k := stackW1 arg18.view g18 c arg3 harg3 arg5 harg5 arg7 harg7 arg9 harg9 arg11 harg11 arg18 harg18 _ _ _ _ _ ws r k
  w2 r k := stackW2 arg18.view g18 c arg3 harg3 arg5 harg5 arg7 harg7 arg9 harg9 arg11 harg11 arg18 harg18 _ _ _ _ _ ws r k
  w3 r k := stackW3 arg18.view g18 c arg3 harg3 arg5 harg5 arg7 harg7 arg9 harg9 arg11 harg11 arg18 harg18 _ _ _ _ _ ws r k
  w4 r k := stackW4 arg18.view g18 c arg3 harg3 arg5 harg5 arg7 harg7 arg9 harg9 arg11 harg11 arg18 harg18 _ _ _ _ _ ws r k
  b0 r := stackB0 arg19.view g19 c arg4 harg4 arg6 harg6 arg8 harg8 arg10 harg10 arg12 harg12 _ _ _ _ _ r
  b1 r := stackB1 arg19.view g19 c arg4 harg4 arg6 harg6 arg8 harg8 arg10 harg10 arg12 harg12 _ _ _ _ _ r
  b2 r := stackB2 arg19.view g19 c arg4 harg4 arg6 harg6 arg8 harg8 arg10 harg10 arg12 harg12 _ _ _ _ _ r
  b3 r := stackB3 arg19.view g19 c arg4 harg4 arg6 harg6 arg8 harg8 arg10 harg10 arg12 harg12 _ _ _ _ _ r
  b4 r := stackB4 arg19.view g19 c arg4 harg4 arg6 harg6 arg8 harg8 arg10 harg10 arg12 harg12 _ _ _ _ _ r

/-! ## The obligation's two sides, window by window -/

/-- What the body is called with at point `t`: the invariant, what the core owes, and every window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before (0 : Fin 17) t d))
    ∗ (∃ d, owns (c : Thread nD τ) (st0_1 t) fullShare ((dats m 0 c).before (1 : Fin 17) t d))
    ∗ (∃ d, owns (c : Thread nD τ) (st0_2 t) fullShare ((dats m 0 c).before (2 : Fin 17) t d))
    ∗ (∃ d, owns (c : Thread nD τ) (st0_3 t) fullShare ((dats m 0 c).before (3 : Fin 17) t d))
    ∗ (∃ d, owns (c : Thread nD τ) (st0_4 t) fullShare ((dats m 0 c).before (4 : Fin 17) t d))
    ∗ (∃ d, owns (c : Thread nD τ) (st0_5 t) fullShare ((dats m 0 c).before (5 : Fin 17) t d))
    ∗ (∃ d, owns (c : Thread nD τ) (st0_6 t) fullShare ((dats m 0 c).before (6 : Fin 17) t d))
    ∗ (∃ d, owns (c : Thread nD τ) (st0_7 t) fullShare ((dats m 0 c).before (7 : Fin 17) t d))
    ∗ (∃ d, owns (c : Thread nD τ) (st0_8 t) fullShare ((dats m 0 c).before (8 : Fin 17) t d))
    ∗ (∃ d, owns (c : Thread nD τ) (st0_9 t) fullShare ((dats m 0 c).before (9 : Fin 17) t d))
    ∗ (∃ d, owns (c : Thread nD τ) (st0_10 t) fullShare ((dats m 0 c).before (10 : Fin 17) t d))
    ∗ (∃ d, owns (c : Thread nD τ) (st0_11 t) fullShare ((dats m 0 c).before (11 : Fin 17) t d))
    ∗ (∃ d, owns (c : Thread nD τ) (st0_12 t) fullShare ((dats m 0 c).before (12 : Fin 17) t d))
    ∗ (∃ d, owns (c : Thread nD τ) (st0_13 t) fullShare ((dats m 0 c).before (13 : Fin 17) t d))
    ∗ (∃ d, owns (c : Thread nD τ) (st0_14 t) fullShare ((dats m 0 c).before (14 : Fin 17) t d))
    ∗ (∃ d, owns (c : Thread nD τ) (st0_15 t) fullShare ((dats m 0 c).before (15 : Fin 17) t d))
    ∗ (∃ d, owns (c : Thread nD τ) (st0_16 t) fullShare ((dats m 0 c).before (16 : Fin 17) t d)))

/-- What it returns: the invariant at the next point, what the core owes, and every current buffer at what the body
    leaves — for a window whose blocks overhang its array, on the part its transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after (0 : Fin 17) t))))
    ∗ (∃ d, owns (c : Thread nD τ) (st0_1 t) fullShare (win0_1.fill (grid0.coords t) d (win0_1.cut (grid0.coords t) ((dats m 0 c).after (1 : Fin 17) t))))
    ∗ owns (c : Thread nD τ) (st0_2 t) fullShare ((dats m 0 c).after (2 : Fin 17) t)
    ∗ owns (c : Thread nD τ) (st0_3 t) fullShare ((dats m 0 c).after (3 : Fin 17) t)
    ∗ owns (c : Thread nD τ) (st0_4 t) fullShare ((dats m 0 c).after (4 : Fin 17) t)
    ∗ owns (c : Thread nD τ) (st0_5 t) fullShare ((dats m 0 c).after (5 : Fin 17) t)
    ∗ owns (c : Thread nD τ) (st0_6 t) fullShare ((dats m 0 c).after (6 : Fin 17) t)
    ∗ owns (c : Thread nD τ) (st0_7 t) fullShare ((dats m 0 c).after (7 : Fin 17) t)
    ∗ owns (c : Thread nD τ) (st0_8 t) fullShare ((dats m 0 c).after (8 : Fin 17) t)
    ∗ owns (c : Thread nD τ) (st0_9 t) fullShare ((dats m 0 c).after (9 : Fin 17) t)
    ∗ owns (c : Thread nD τ) (st0_10 t) fullShare ((dats m 0 c).after (10 : Fin 17) t)
    ∗ owns (c : Thread nD τ) (st0_11 t) fullShare ((dats m 0 c).after (11 : Fin 17) t)
    ∗ (∃ d, owns (c : Thread nD τ) (st0_12 t) fullShare (win0_12.fill (grid0.coords t) d (win0_12.cut (grid0.coords t) ((dats m 0 c).after (12 : Fin 17) t))))
    ∗ (∃ d, owns (c : Thread nD τ) (st0_13 t) fullShare (win0_13.fill (grid0.coords t) d (win0_13.cut (grid0.coords t) ((dats m 0 c).after (13 : Fin 17) t))))
    ∗ (∃ d, owns (c : Thread nD τ) (st0_14 t) fullShare (win0_14.fill (grid0.coords t) d (win0_14.cut (grid0.coords t) ((dats m 0 c).after (14 : Fin 17) t))))
    ∗ (∃ d, owns (c : Thread nD τ) (st0_15 t) fullShare (win0_15.fill (grid0.coords t) d (win0_15.cut (grid0.coords t) ((dats m 0 c).after (15 : Fin 17) t))))
    ∗ (∃ d, owns (c : Thread nD τ) (st0_16 t) fullShare (win0_16.fill (grid0.coords t) d (win0_16.cut (grid0.coords t) ((dats m 0 c).after (16 : Fin 17) t)))))

/-! ## The body on whole staging buffers, both cases at once -/

/-- From the activation halves at `X0`, `X1`, the weight and bias buffers at their arrays, the result buffers at anything
    and the scratch buffers at `ws`, `bs` — holding the stacks unless this is the first point — the body runs to the
    continuation holding the inputs as they were, the scratch buffers at contents that hold the stacks, and each result
    buffer at its slice of the sum computed from stacks `wv`, `bv`. -/
theorem sound_kernel (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S91x1024 .f32) (harg3 : arg3.IsWhole) (arg4 : Memref sig .tc .vmem S1x91 .f32) (harg4 : arg4.IsWhole) (arg5 : Memref sig .tc .vmem S12x1024 .f32) (harg5 : arg5.IsWhole) (arg6 : Memref sig .tc .vmem S1x12 .f32) (harg6 : arg6.IsWhole) (arg7 : Memref sig .tc .vmem S10x1024 .f32) (harg7 : arg7.IsWhole) (arg8 : Memref sig .tc .vmem S1x10 .f32) (harg8 : arg8.IsWhole) (arg9 : Memref sig .tc .vmem S8x1024 .f32) (harg9 : arg9.IsWhole) (arg10 : Memref sig .tc .vmem S1x8 .f32) (harg10 : arg10.IsWhole) (arg11 : Memref sig .tc .vmem S364x1024 .f32) (harg11 : arg11.IsWhole) (arg12 : Memref sig .tc .vmem S1x364 .f32) (harg12 : arg12.IsWhole) (arg13 : Memref sig .tc .vmem S91x2048 .f32) (harg13 : arg13.IsWhole) (arg14 : Memref sig .tc .vmem S12x2048 .f32) (harg14 : arg14.IsWhole) (arg15 : Memref sig .tc .vmem S10x2048 .f32) (harg15 : arg15.IsWhole) (arg16 : Memref sig .tc .vmem S8x2048 .f32) (harg16 : arg16.IsWhole) (arg17 : Memref sig .tc .vmem S364x2048 .f32) (harg17 : arg17.IsWhole) (arg18 : Memref sig .tc .vmem S500x1024 .bf16) (harg18 : arg18.IsWhole) (arg19 : Memref sig .tc .vmem S500x1 .f32) (harg19 : arg19.IsWhole)
    (X0 X1 : Vec Ideal S2048x512 .f32) (ws : Vec Ideal S500x1024 .bf16) (bs : Vec Ideal S500x1 .f32)
    (hS : ¬isFirst i → Stacked m c ws bs) (K : PUnit → sProp 𝕄) :
    iprop(owns (c : Thread nD τ) arg1 fullShare X0 ∗ owns (c : Thread nD τ) arg2 fullShare X1 ∗ owns (c : Thread nD τ) arg3 fullShare (wt0 m c) ∗ owns (c : Thread nD τ) arg4 fullShare (br0 m c) ∗ owns (c : Thread nD τ) arg5 fullShare (wt1 m c) ∗ owns (c : Thread nD τ) arg6 fullShare (br1 m c) ∗ owns (c : Thread nD τ) arg7 fullShare (wt2 m c) ∗ owns (c : Thread nD τ) arg8 fullShare (br2 m c) ∗ owns (c : Thread nD τ) arg9 fullShare (wt3 m c) ∗ owns (c : Thread nD τ) arg10 fullShare (br3 m c) ∗ owns (c : Thread nD τ) arg11 fullShare (wt4 m c) ∗ owns (c : Thread nD τ) arg12 fullShare (br4 m c) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare ws ∗ owns (c : Thread nD τ) arg19 fullShare bs
        ∗ (iprop(∃ (wv : Vec Ideal S500x1024 .bf16) (bv : Vec Ideal S500x1 .f32) (ws' : Vec Ideal S500x1024 .bf16) (bs' : Vec Ideal S500x1 .f32),
            ⌜Stacked m c wv bv ∧ Stacked m c ws' bs'⌝ ∗ owns (c : Thread nD τ) arg1 fullShare X0 ∗ owns (c : Thread nD τ) arg2 fullShare X1 ∗ owns (c : Thread nD τ) arg3 fullShare (wt0 m c) ∗ owns (c : Thread nD τ) arg4 fullShare (br0 m c) ∗ owns (c : Thread nD τ) arg5 fullShare (wt1 m c) ∗ owns (c : Thread nD τ) arg6 fullShare (br1 m c) ∗ owns (c : Thread nD τ) arg7 fullShare (wt2 m c) ∗ owns (c : Thread nD τ) arg8 fullShare (br2 m c) ∗ owns (c : Thread nD τ) arg9 fullShare (wt3 m c) ∗ owns (c : Thread nD τ) arg10 fullShare (br3 m c) ∗ owns (c : Thread nD τ) arg11 fullShare (wt4 m c) ∗ owns (c : Thread nD τ) arg12 fullShare (br4 m c) ∗ owns (c : Thread nD τ) arg13 fullShare (k0_pay7 X0 (wsLo wv) X1 (wsHi wv) bv) ∗ owns (c : Thread nD τ) arg14 fullShare (k0_pay8 X0 (wsLo wv) X1 (wsHi wv) bv) ∗ owns (c : Thread nD τ) arg15 fullShare (k0_pay9 X0 (wsLo wv) X1 (wsHi wv) bv) ∗ owns (c : Thread nD τ) arg16 fullShare (k0_pay10 X0 (wsLo wv) X1 (wsHi wv) bv) ∗ owns (c : Thread nD τ) arg17 fullShare (k0_pay11 X0 (wsLo wv) X1 (wsHi wv) bv)
            ∗ owns (c : Thread nD τ) arg18 fullShare ws' ∗ owns (c : Thread nD τ) arg19 fullShare bs') -∗ K ⟨⟩))
      ⊢ wp frame (wpE (defs₀ (F := Ideal)) 𝒱₀ c none) Set.univ (cc0__heads_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  by_cases hc : isFirst i
  · iintro ⟨H1, H2, H3, H4, H5, H6, H7, H8, H9, H10, H11, H12, H13, H14, H15, H16, H17, H18, H19, Hk⟩
    iapply ((runFirst (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs).2.2.2.2.2.2.property Set.univ K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H1, H2, H3, H4, H5, H6, H7, H8, H9, H10, H11, H12, ⟨%f13, H13⟩, ⟨%f14, H14⟩, ⟨%f15, H15⟩, ⟨%f16, H16⟩, ⟨%f17, H17⟩, ⟨%f18, H18⟩, ⟨%f19, H19⟩⟩
    iapply Hk
    iexists (arg18.view.read (Elt Ideal) (arg18.view.writes (Elt Ideal) (harg18.unread ws) (runFirst.sl.H18_5 (F := Ideal) c arg3 harg3 arg5 harg5 arg7 harg7 arg9 harg9 arg11 harg11 arg18 harg18 (wt0 m c) (wt1 m c) (wt2 m c) (wt3 m c) (wt4 m c) ws))), (arg19.view.read (Elt Ideal) (arg19.view.writes (Elt Ideal) (harg19.unread bs) (runFirst.sl.H19_5 (F := Ideal) c arg4 harg4 arg6 harg6 arg8 harg8 arg10 harg10 arg12 harg12 (br0 m c) (br1 m c) (br2 m c) (br3 m c) (br4 m c)))), (arg18.view.read (Elt Ideal) (arg18.view.writes (Elt Ideal) f18 (runFirst.sl.H18_5 (F := Ideal) c arg3 harg3 arg5 harg5 arg7 harg7 arg9 harg9 arg11 harg11 arg18 harg18 (wt0 m c) (wt1 m c) (wt2 m c) (wt3 m c) (wt4 m c) ws))), (arg19.view.read (Elt Ideal) (arg19.view.writes (Elt Ideal) f19 (runFirst.sl.H19_5 (F := Ideal) c arg4 harg4 arg6 harg6 arg8 harg8 arg10 harg10 arg12 harg12 (br0 m c) (br1 m c) (br2 m c) (br3 m c) (br4 m c))))
    isplitr
    · ipureintro
      exact ⟨firstStacked m c arg3 harg3 arg4 harg4 arg5 harg5 arg6 harg6 arg7 harg7 arg8 harg8 arg9 harg9 arg10 harg10 arg11 harg11 arg12 harg12 arg18 harg18 arg19 harg19 ws (harg18.unread ws) (harg19.unread bs), firstStacked m c arg3 harg3 arg4 harg4 arg5 harg5 arg6 harg6 arg7 harg7 arg8 harg8 arg9 harg9 arg10 harg10 arg11 harg11 arg12 harg12 arg18 harg18 arg19 harg19 ws f18 f19⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr; swap; · iexact H13
      ipureintro; exact firstRead13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs f13
    isplitl [H14]
    · unfold owns; iexists _; isplitr; swap; · iexact H14
      ipureintro; exact firstRead14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs f14
    isplitl [H15]
    · unfold owns; iexists _; isplitr; swap; · iexact H15
      ipureintro; exact firstRead15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs f15
    isplitl [H16]
    · unfold owns; iexists _; isplitr; swap; · iexact H16
      ipureintro; exact firstRead16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs f16
    isplitl [H17]
    · unfold owns; iexists _; isplitr; swap; · iexact H17
      ipureintro; exact firstRead17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs f17
    isplitl [H18]
    · unfold owns; iexists _; isplitr; swap; · iexact H18
      ipureintro; rfl
    · unfold owns; iexists _; isplitr; swap; · iexact H19
      ipureintro; rfl
  · iintro ⟨H1, H2, H3, H4, H5, H6, H7, H8, H9, H10, H11, H12, H13, H14, H15, H16, H17, H18, H19, Hk⟩
    iapply ((runRest (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs).2.2.2.2.property Set.univ K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H1, H2, H3, H4, H5, H6, H7, H8, H9, H10, H11, H12, ⟨%f13, H13⟩, ⟨%f14, H14⟩, ⟨%f15, H15⟩, ⟨%f16, H16⟩, ⟨%f17, H17⟩, H18, H19⟩
    iapply Hk
    iexists ws, bs, ws, bs
    isplitr; · ipureintro; exact ⟨hS hc, hS hc⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]
    · unfold owns; iexists _; isplitr; swap; · iexact H13
      ipureintro; exact restRead13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs f13
    isplitl [H14]
    · unfold owns; iexists _; isplitr; swap; · iexact H14
      ipureintro; exact restRead14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs f14
    isplitl [H15]
    · unfold owns; iexists _; isplitr; swap; · iexact H15
      ipureintro; exact restRead15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs f15
    isplitl [H16]
    · unfold owns; iexists _; isplitr; swap; · iexact H16
      ipureintro; exact restRead16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs f16
    isplitl [H17]
    · unfold owns; iexists _; isplitr; swap; · iexact H17
      ipureintro; exact restRead17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc X0 X1 (wt0 m c) (br0 m c) (wt1 m c) (br1 m c) (wt2 m c) (br2 m c) (wt3 m c) (br3 m c) (wt4 m c) (br4 m c) ws bs f17
    isplitl [H18]; · iexact H18
    iexact H19

/-! ## The body at a grid point -/

/-- The body at point `t`: every input window's buffer holds its block or array, the invariant yields the scratch
    buffers, the body runs (`sound_kernel`), and what it leaves meets each window's obligation: an input's as found,
    a result's by the entry lemmas at every column inside the array. -/
theorem sound_body (c : Dev nD) (t : Fin cfg0.N) :
    bodyPre m c t ⊢ wp frame (wpE (defs₀ (F := Ideal)) 𝒱₀ c none) Set.univ (bodyAt0 t) (fun _ => bodyPost m c t) := by
  unfold bodyPre bodyPost
  simp only [before_x0, before_x1, before_w2, before_w3, before_w4, before_w5, before_w6, before_w7, before_w8, before_w9, before_w10, before_w11, before_out12, before_out13, before_out14, before_out15, before_out16, after_w2, after_w3, after_w4, after_w5, after_w6, after_w7, after_w8, after_w9, after_w10, after_w11]
  rw [show (dats m 0 c).Φ t.castSucc = Φc m c t.castSucc from rfl, show (dats m 0 c).Φ t.succ = Φc m c t.succ from rfl,
    show (dats m 0 c).owesAt () t.succ = (dats m 0 c).owesAt () t.castSucc from rfl]
  unfold Φc
  iintro ⟨⟨%ws, %bs, %hS, Hws, Hbs⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel m c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (Memref.whole cc0_scratch0) (Memref.isWhole_whole _) (Memref.whole cc0_scratch1) (Memref.isWhole_whole _)
    (win0_0.fill (grid0.coords t) d0 ((win0_0.blk t).view.read (Elt Ideal) (xA m c))) (win0_1.fill (grid0.coords t) d1 ((win0_1.blk t).view.read (Elt Ideal) (xA m c))) ws bs (fun hc => hS (fun h0 => hc ((isFirst_coords t).mpr h0))) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists d12; iexact H12
  isplitl [H13]; · iexists d13; iexact H13
  isplitl [H14]; · iexists d14; iexact H14
  isplitl [H15]; · iexists d15; iexact H15
  isplitl [H16]; · iexists d16; iexact H16
  isplitl [Hws]; · rw [owns_whole]; iexact Hws
  isplitl [Hbs]; · rw [owns_whole]; iexact Hbs
  iintro ⟨%wv, %bv, %ws', %bs', %hSS, K0, K1, K2, K3, K4, K5, K6, K7, K8, K9, K10, K11, K12, K13, K14, K15, K16, Kws, Kbs⟩
  isplitl [Kws Kbs]
  · iexists ws', bs'
    isplitr; · ipureintro; exact fun _ => hSS.2
    isplitl [Kws]
    · rw [← owns_whole (c : Thread nD τ) cc0_scratch0 fullShare ws']; iexact Kws
    · rw [← owns_whole (c : Thread nD τ) cc0_scratch1 fullShare bs']; iexact Kbs
  isplitl [Ho]; · iexact Ho
  isplitl [K0]
  · iexists d0; rw [cut_after_x0]; iexact K0
  isplitl [K1]
  · iexists d1; rw [cut_after_x1]; iexact K1
  isplitl [K2]; · iexact K2
  isplitl [K3]; · iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]
  · iexists (k0_pay7 (win0_0.fill (grid0.coords t) d0 ((win0_0.blk t).view.read (Elt Ideal) (xA m c))) (wsLo wv) (win0_1.fill (grid0.coords t) d1 ((win0_1.blk t).view.read (Elt Ideal) (xA m c))) (wsHi wv) bv)
    rw [← y0_cut m c t (k0_pay7 (win0_0.fill (grid0.coords t) d0 ((win0_0.blk t).view.read (Elt Ideal) (xA m c))) (wsLo wv) (win0_1.fill (grid0.coords t) d1 ((win0_1.blk t).view.read (Elt Ideal) (xA m c))) (wsHi wv) bv) (fun r n hn => entry0 m c wv bv hSS.1 _ _ n ⟨t.val * 2048 + n.val, hn⟩
      (fun k => x0_at m c t d0 n k hn) (fun k => x1_at m c t d1 n k hn) r), Window.fill_cut]
    iexact K12
  isplitl [K13]
  · iexists (k0_pay8 (win0_0.fill (grid0.coords t) d0 ((win0_0.blk t).view.read (Elt Ideal) (xA m c))) (wsLo wv) (win0_1.fill (grid0.coords t) d1 ((win0_1.blk t).view.read (Elt Ideal) (xA m c))) (wsHi wv) bv)
    rw [← y1_cut m c t (k0_pay8 (win0_0.fill (grid0.coords t) d0 ((win0_0.blk t).view.read (Elt Ideal) (xA m c))) (wsLo wv) (win0_1.fill (grid0.coords t) d1 ((win0_1.blk t).view.read (Elt Ideal) (xA m c))) (wsHi wv) bv) (fun r n hn => entry1 m c wv bv hSS.1 _ _ n ⟨t.val * 2048 + n.val, hn⟩
      (fun k => x0_at m c t d0 n k hn) (fun k => x1_at m c t d1 n k hn) r), Window.fill_cut]
    iexact K13
  isplitl [K14]
  · iexists (k0_pay9 (win0_0.fill (grid0.coords t) d0 ((win0_0.blk t).view.read (Elt Ideal) (xA m c))) (wsLo wv) (win0_1.fill (grid0.coords t) d1 ((win0_1.blk t).view.read (Elt Ideal) (xA m c))) (wsHi wv) bv)
    rw [← y2_cut m c t (k0_pay9 (win0_0.fill (grid0.coords t) d0 ((win0_0.blk t).view.read (Elt Ideal) (xA m c))) (wsLo wv) (win0_1.fill (grid0.coords t) d1 ((win0_1.blk t).view.read (Elt Ideal) (xA m c))) (wsHi wv) bv) (fun r n hn => entry2 m c wv bv hSS.1 _ _ n ⟨t.val * 2048 + n.val, hn⟩
      (fun k => x0_at m c t d0 n k hn) (fun k => x1_at m c t d1 n k hn) r), Window.fill_cut]
    iexact K14
  isplitl [K15]
  · iexists (k0_pay10 (win0_0.fill (grid0.coords t) d0 ((win0_0.blk t).view.read (Elt Ideal) (xA m c))) (wsLo wv) (win0_1.fill (grid0.coords t) d1 ((win0_1.blk t).view.read (Elt Ideal) (xA m c))) (wsHi wv) bv)
    rw [← y3_cut m c t (k0_pay10 (win0_0.fill (grid0.coords t) d0 ((win0_0.blk t).view.read (Elt Ideal) (xA m c))) (wsLo wv) (win0_1.fill (grid0.coords t) d1 ((win0_1.blk t).view.read (Elt Ideal) (xA m c))) (wsHi wv) bv) (fun r n hn => entry3 m c wv bv hSS.1 _ _ n ⟨t.val * 2048 + n.val, hn⟩
      (fun k => x0_at m c t d0 n k hn) (fun k => x1_at m c t d1 n k hn) r), Window.fill_cut]
    iexact K15
  · iexists (k0_pay11 (win0_0.fill (grid0.coords t) d0 ((win0_0.blk t).view.read (Elt Ideal) (xA m c))) (wsLo wv) (win0_1.fill (grid0.coords t) d1 ((win0_1.blk t).view.read (Elt Ideal) (xA m c))) (wsHi wv) bv)
    rw [← y4_cut m c t (k0_pay11 (win0_0.fill (grid0.coords t) d0 ((win0_0.blk t).view.read (Elt Ideal) (xA m c))) (wsLo wv) (win0_1.fill (grid0.coords t) d1 ((win0_1.blk t).view.read (Elt Ideal) (xA m c))) (wsHi wv) bv) (fun r n hn => entry4 m c wv bv hSS.1 _ _ n ⟨t.val * 2048 + n.val, hn⟩
      (fun k => x0_at m c t d0 n k hn) (fun k => x1_at m c t d1 n k hn) r), Window.fill_cut]
    iexact K16

/-- The library's body obligation at every point. -/
theorem body_obligation (c : Dev nD) : Pipeline.BodyObligationLoose (dats m 0 c) (defs₀ (F := Ideal)) 𝒱₀ () Set.univ := fun t => by
  rw [bigSep_W0, bigSep_W0]
  exact sound_body m c t

end Cert.Proof.KI

end
-- ==== Proof.KI.Split.lean ====
/-
  The windows' arrays at the region's entry, over the extended reals.

  Seventeen windows read or write sixteen distinct buffers: the activations x are read through two windows, the column
  halves of a block of rows, and each of the ten weight and bias arrays and of the five result arrays through one window.
  The launch hands the pipeline each of the sixteen buffers whole at the full share. The pipeline asks for one points-to
  per window, at the array's contents before any write-back, the two windows on x at the two halves of the full share.
  A points-to at a share q is the separating conjunction of the points-tos at the two halves of q, so the full share of
  x splits into the two the windows want and every other buffer passes as it is.
-/
import proofs.«152352_g44014824849815_cont_8to1_c_708_17_alg».proof.Proof.KI.Data

set_option maxRecDepth 2688

noncomputable section

namespace Cert.Proof.KI

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The sixteen distinct buffers behind the seventeen windows' arrays, one by one. -/
theorem arrBufs_list (c : Dev nD) (V : (b : Ref sig .tc) → Buf (Elt Ideal) ((c : Thread nD τ).loc b)) :
    (Pipeline.arrBufs spec0 c V : sProp 𝕄)
      = iprop((((c : Thread nD τ).loc main_arg0) ↦{fullShare} V main_arg0)
      ∗ (((c : Thread nD τ).loc main_v0) ↦{fullShare} V main_v0)
      ∗ (((c : Thread nD τ).loc main_v1) ↦{fullShare} V main_v1)
      ∗ (((c : Thread nD τ).loc main_v2) ↦{fullShare} V main_v2)
      ∗ (((c : Thread nD τ).loc main_v3) ↦{fullShare} V main_v3)
      ∗ (((c : Thread nD τ).loc main_v4) ↦{fullShare} V main_v4)
      ∗ (((c : Thread nD τ).loc main_v5) ↦{fullShare} V main_v5)
      ∗ (((c : Thread nD τ).loc main_v6) ↦{fullShare} V main_v6)
      ∗ (((c : Thread nD τ).loc main_v7) ↦{fullShare} V main_v7)
      ∗ (((c : Thread nD τ).loc main_v8) ↦{fullShare} V main_v8)
      ∗ (((c : Thread nD τ).loc main_v9) ↦{fullShare} V main_v9)
      ∗ (((c : Thread nD τ).loc main_v10_0) ↦{fullShare} V main_v10_0)
      ∗ (((c : Thread nD τ).loc main_v10_1) ↦{fullShare} V main_v10_1)
      ∗ (((c : Thread nD τ).loc main_v10_2) ↦{fullShare} V main_v10_2)
      ∗ (((c : Thread nD τ).loc main_v10_3) ↦{fullShare} V main_v10_3)
      ∗ (((c : Thread nD τ).loc main_v10_4) ↦{fullShare} V main_v10_4)) := by
  unfold Pipeline.arrBufs
  exact bigSep_eq_bigSepL_of_eq [main_arg0, main_v0, main_v1, main_v2, main_v3, main_v4, main_v5, main_v6, main_v7, main_v8, main_v9, main_v10_0, main_v10_1, main_v10_2, main_v10_3, main_v10_4] (by decide) (by decide) _

/-- The windowed arrays before any write-back, as whole-buffer points-tos, each at its window's share. -/
theorem arrays_whole (c : Dev nD) :
    (dats m 0 c).arrays ((dats m 0 c).arrAt · 0)
      = bigSep Finset.univ fun w : Fin 17 =>
          ((((c : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- The windowed arrays one by one: the activations twice, at the two halves of the full share, then the ten weight and
    bias arrays and the five result arrays, whole at the full share. -/
theorem arrays_list (c : Dev nD) :
    (dats m 0 c).arrays ((dats m 0 c).arrAt · 0)
      = (iprop((((c : Thread nD τ).loc main_arg0) ↦{fullShare.left} V m c main_arg0)
      ∗ (((c : Thread nD τ).loc main_arg0) ↦{fullShare.right} V m c main_arg0)
      ∗ (((c : Thread nD τ).loc main_v0) ↦{fullShare} V m c main_v0)
      ∗ (((c : Thread nD τ).loc main_v1) ↦{fullShare} V m c main_v1)
      ∗ (((c : Thread nD τ).loc main_v2) ↦{fullShare} V m c main_v2)
      ∗ (((c : Thread nD τ).loc main_v3) ↦{fullShare} V m c main_v3)
      ∗ (((c : Thread nD τ).loc main_v4) ↦{fullShare} V m c main_v4)
      ∗ (((c : Thread nD τ).loc main_v5) ↦{fullShare} V m c main_v5)
      ∗ (((c : Thread nD τ).loc main_v6) ↦{fullShare} V m c main_v6)
      ∗ (((c : Thread nD τ).loc main_v7) ↦{fullShare} V m c main_v7)
      ∗ (((c : Thread nD τ).loc main_v8) ↦{fullShare} V m c main_v8)
      ∗ (((c : Thread nD τ).loc main_v9) ↦{fullShare} V m c main_v9)
      ∗ (((c : Thread nD τ).loc main_v10_0) ↦{fullShare} V m c main_v10_0)
      ∗ (((c : Thread nD τ).loc main_v10_1) ↦{fullShare} V m c main_v10_1)
      ∗ (((c : Thread nD τ).loc main_v10_2) ↦{fullShare} V m c main_v10_2)
      ∗ (((c : Thread nD τ).loc main_v10_3) ↦{fullShare} V m c main_v10_3)
      ∗ (((c : Thread nD τ).loc main_v10_4) ↦{fullShare} V m c main_v10_4)) : sProp 𝕄) := by
  rw [arrays_whole, Gen.bigSep_W0]
  rfl

/-- The sixteen buffers behind the windows' arrays, each whole at the full share, give the pipeline its seventeen
    arrays: the full share of the activations is cut into its two halves, one for each of the two windows on them. -/
theorem hsplit (c : Dev nD) :
    (Pipeline.arrBufs spec0 c (V m c) : sProp 𝕄) ⊢ (dats m 0 c).arrays ((dats m 0 c).arrAt · 0) := by
  rw [arrBufs_list, arrays_list]
  iintro ⟨Hx, H0, H1, H2, H3, H4, H5, H6, H7, H8, H9, Ho0, Ho1, Ho2, Ho3, Ho4⟩
  ihave Hx := (pointsTo_share (PosShare.mem_left_op_right fullShare)).1 $$ Hx
  icases Hx with ⟨Hxl, Hxr⟩
  isplitl [Hxl]; · iexact Hxl
  isplitl [Hxr]; · iexact Hxr
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Ho0]; · iexact Ho0
  isplitl [Ho1]; · iexact Ho1
  isplitl [Ho2]; · iexact Ho2
  isplitl [Ho3]; · iexact Ho3
  iexact Ho4

end Cert.Proof.KI

end
-- ==== Proof.KI.Tail.lean ====
/-
  The host operations after the idealized kernel's region: five transposes, each reading one result array
  y_h : [d_h, 20000] of the pipeline and writing a fresh buffer [20000, d_h].

  The result windows hold their arrays whole at the full share, so the five transposes run within ten buffers held
  whole: the five result arrays at what the ten grid points' write-backs left (the proof data's array contents after the last point), and
  the five fresh buffers at whatever they held. Afterwards the result arrays are unchanged and fresh buffer h holds
  the transpose of result array h. The two windows on the activations share one array at half shares: the lines
  after the region never touch it, so it stays inside the pipeline's holdings throughout.
-/
import proofs.«152352_g44014824849815_cont_8to1_c_708_17_alg».proof.Proof.KI.Data
import Idealize.ShloMosaic.Lib.Pipeline.FrameSuffix
import Idealize.ShloMosaic.Lib.Tactic

noncomputable section

namespace Cert.Proof.KI

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffers the lines after the region run within -/

/-- The five result windows' layouts, by themselves: their arrays are five distinct buffers. -/
abbrev outSpec : Fin 5 → Pipeline.WinSpec sig grid0.rank
  | ⟨0, _⟩ => spec0 12
  | ⟨1, _⟩ => spec0 13
  | ⟨2, _⟩ => spec0 14
  | ⟨3, _⟩ => spec0 15
  | ⟨4, _⟩ => spec0 16
  | ⟨_ + 5, h⟩ => absurd h (Nat.not_lt.2 (Nat.le_add_left _ _))

theorem outSpec_inj : Function.Injective (Pipeline.arrRef outSpec) := by decide

/-- What the five result arrays hold when the region is left: the write-backs of all ten grid points. -/
def outA (c : Dev nD) : (k : Fin 5) → Buf (Elt Ideal) ((outSpec k).arr.view.loc (c : Thread nD τ))
  | ⟨0, _⟩ => (dats m 0 c).arrAt 12 cfg0.N
  | ⟨1, _⟩ => (dats m 0 c).arrAt 13 cfg0.N
  | ⟨2, _⟩ => (dats m 0 c).arrAt 14 cfg0.N
  | ⟨3, _⟩ => (dats m 0 c).arrAt 15 cfg0.N
  | ⟨4, _⟩ => (dats m 0 c).arrAt 16 cfg0.N
  | ⟨_ + 5, h⟩ => absurd h (Nat.not_lt.2 (Nat.le_add_left _ _))

/-- Core c's buffers when the region is left, as the later host operations' valuation: the five result arrays at
    their final contents, every other buffer as the region found it. -/
def Wt (c : Dev nD) : Valuation τ sig (Elt Ideal) :=
  Pipeline.withArrays outSpec c (StableHlo.after (hostOps0 (F := Ideal)) (V₀ m c)) (outA m c)

theorem Wt_out0 (c : Dev nD) : Wt m c (Proc.devRef .tc main_v10_0) = (dats m 0 c).arrAt 12 cfg0.N :=
  Pipeline.withArrays_arr outSpec outSpec_inj c _ (outA m c) 0
theorem Wt_out1 (c : Dev nD) : Wt m c (Proc.devRef .tc main_v10_1) = (dats m 0 c).arrAt 13 cfg0.N :=
  Pipeline.withArrays_arr outSpec outSpec_inj c _ (outA m c) 1
theorem Wt_out2 (c : Dev nD) : Wt m c (Proc.devRef .tc main_v10_2) = (dats m 0 c).arrAt 14 cfg0.N :=
  Pipeline.withArrays_arr outSpec outSpec_inj c _ (outA m c) 2
theorem Wt_out3 (c : Dev nD) : Wt m c (Proc.devRef .tc main_v10_3) = (dats m 0 c).arrAt 15 cfg0.N :=
  Pipeline.withArrays_arr outSpec outSpec_inj c _ (outA m c) 3
theorem Wt_out4 (c : Dev nD) : Wt m c (Proc.devRef .tc main_v10_4) = (dats m 0 c).arrAt 16 cfg0.N :=
  Pipeline.withArrays_arr outSpec outSpec_inj c _ (outA m c) 4

/-- Any buffer that is no result array is as the region found it. -/
theorem Wt_rest (c : Dev nD) (b : Ref sig .tc) (hb : ∀ k, Pipeline.arrRef outSpec k ≠ b) :
    Wt m c (Proc.devRef .tc b) = V m c b :=
  Pipeline.withArrays_of_ne outSpec c _ (outA m c) b hb

/-- The ten buffers the five transposes touch: each reads a result array and writes a fresh buffer. -/
def tailL : List (Ref sig .tc) :=
  [main_v10_0, main_v10_1, main_v10_2, main_v10_3, main_v10_4, main_v11, main_v12, main_v13, main_v14, main_v15]
def tailS : Finset (DevRef τ sig) := (tailL.map (Proc.devRef .tc)).toFinset

theorem held_tailS (c : Dev nD) (W : Valuation τ sig (Elt Ideal)) :
    (StableHlo.held (c : Thread nD τ) tailS W : sProp 𝕄) = iprop(
      (((c : Thread nD τ).loc main_v10_0) ↦{fullShare} W (Proc.devRef .tc main_v10_0))
      ∗ (((c : Thread nD τ).loc main_v10_1) ↦{fullShare} W (Proc.devRef .tc main_v10_1))
      ∗ (((c : Thread nD τ).loc main_v10_2) ↦{fullShare} W (Proc.devRef .tc main_v10_2))
      ∗ (((c : Thread nD τ).loc main_v10_3) ↦{fullShare} W (Proc.devRef .tc main_v10_3))
      ∗ (((c : Thread nD τ).loc main_v10_4) ↦{fullShare} W (Proc.devRef .tc main_v10_4))
      ∗ (((c : Thread nD τ).loc main_v11) ↦{fullShare} W (Proc.devRef .tc main_v11))
      ∗ (((c : Thread nD τ).loc main_v12) ↦{fullShare} W (Proc.devRef .tc main_v12))
      ∗ (((c : Thread nD τ).loc main_v13) ↦{fullShare} W (Proc.devRef .tc main_v13))
      ∗ (((c : Thread nD τ).loc main_v14) ↦{fullShare} W (Proc.devRef .tc main_v14))
      ∗ (((c : Thread nD τ).loc main_v15) ↦{fullShare} W (Proc.devRef .tc main_v15))) := by
  unfold StableHlo.held tailS
  rw [bigSep_eq_bigSepL _ (List.Nodup.map (Proc.devRef_injective _) (by decide))]
  rfl

theorem hostOps1_in : ∀ op ∈ (hostOps1 (F := Ideal)), op.bufs ⊆ tailS := by
  intro op hop
  simp only [List.mem_cons, List.mem_nil_iff, or_false] at hop
  rcases hop with rfl | rfl | rfl | rfl | rfl <;>
    (rw [StableHlo.unary_bufs]; intro b hb
     simp only [Finset.mem_insert, Finset.mem_singleton] at hb
     rcases hb with rfl | rfl <;>
       exact List.mem_toFinset.mpr (List.mem_map.mpr ⟨_, by decide, rfl⟩))

theorem hostOps1_fresh : ∀ op ∈ (hostOps1 (F := Ideal)), op.fresh = ∅ := by
  intro op hop
  simp only [List.mem_cons, List.mem_nil_iff, or_false] at hop
  rcases hop with rfl | rfl | rfl | rfl | rfl <;> rfl

/-! ## What the buffers hold after the lines -/

theorem after_out0 (c : Dev nD) : StableHlo.after (hostOps1 (F := Ideal)) (Wt m c) (Proc.devRef .tc main_v10_0) = (dats m 0 c).arrAt 12 cfg0.N := by
  refine Eq.trans ?_ (Wt_out0 m c)
  after_results

theorem after_out1 (c : Dev nD) : StableHlo.after (hostOps1 (F := Ideal)) (Wt m c) (Proc.devRef .tc main_v10_1) = (dats m 0 c).arrAt 13 cfg0.N := by
  refine Eq.trans ?_ (Wt_out1 m c)
  after_results
theorem after_out2 (c : Dev nD) : StableHlo.after (hostOps1 (F := Ideal)) (Wt m c) (Proc.devRef .tc main_v10_2) = (dats m 0 c).arrAt 14 cfg0.N := by
  refine Eq.trans ?_ (Wt_out2 m c)
  after_results
theorem after_out3 (c : Dev nD) : StableHlo.after (hostOps1 (F := Ideal)) (Wt m c) (Proc.devRef .tc main_v10_3) = (dats m 0 c).arrAt 15 cfg0.N := by
  refine Eq.trans ?_ (Wt_out3 m c)
  after_results
theorem after_out4 (c : Dev nD) : StableHlo.after (hostOps1 (F := Ideal)) (Wt m c) (Proc.devRef .tc main_v10_4) = (dats m 0 c).arrAt 16 cfg0.N := by
  refine Eq.trans ?_ (Wt_out4 m c)
  after_results

/-- The five transposed results. -/
abbrev T0 (c : Dev nD) : FVec Ideal S20000x91 .f32 :=
  transpose S20000x91 [1, 0] ((dats m 0 c).arrAt 12 cfg0.N) transposes_S91x20000_S20000x91_1_0
abbrev T1 (c : Dev nD) : FVec Ideal S20000x12 .f32 :=
  transpose S20000x12 [1, 0] ((dats m 0 c).arrAt 13 cfg0.N) transposes_S12x20000_S20000x12_1_0
abbrev T2 (c : Dev nD) : FVec Ideal S20000x10 .f32 :=
  transpose S20000x10 [1, 0] ((dats m 0 c).arrAt 14 cfg0.N) transposes_S10x20000_S20000x10_1_0
abbrev T3 (c : Dev nD) : FVec Ideal S20000x8 .f32 :=
  transpose S20000x8 [1, 0] ((dats m 0 c).arrAt 15 cfg0.N) transposes_S8x20000_S20000x8_1_0
abbrev T4 (c : Dev nD) : FVec Ideal S20000x364 .f32 :=
  transpose S20000x364 [1, 0] ((dats m 0 c).arrAt 16 cfg0.N) transposes_S364x20000_S20000x364_1_0

theorem after_v11 (c : Dev nD) : StableHlo.after (hostOps1 (F := Ideal)) (Wt m c) (Proc.devRef .tc main_v11) = T0 m c := by
  after_results
  exact congrArg (fun x => transpose S20000x91 [1, 0] x transposes_S91x20000_S20000x91_1_0) (Wt_out0 m c)
theorem after_v12 (c : Dev nD) : StableHlo.after (hostOps1 (F := Ideal)) (Wt m c) (Proc.devRef .tc main_v12) = T1 m c := by
  after_results
  exact congrArg (fun x => transpose S20000x12 [1, 0] x transposes_S12x20000_S20000x12_1_0) (Wt_out1 m c)
theorem after_v13 (c : Dev nD) : StableHlo.after (hostOps1 (F := Ideal)) (Wt m c) (Proc.devRef .tc main_v13) = T2 m c := by
  after_results
  exact congrArg (fun x => transpose S20000x10 [1, 0] x transposes_S10x20000_S20000x10_1_0) (Wt_out2 m c)
theorem after_v14 (c : Dev nD) : StableHlo.after (hostOps1 (F := Ideal)) (Wt m c) (Proc.devRef .tc main_v14) = T3 m c := by
  after_results
  exact congrArg (fun x => transpose S20000x8 [1, 0] x transposes_S8x20000_S20000x8_1_0) (Wt_out3 m c)
theorem after_v15 (c : Dev nD) : StableHlo.after (hostOps1 (F := Ideal)) (Wt m c) (Proc.devRef .tc main_v15) = T4 m c := by
  after_results
  exact congrArg (fun x => transpose S20000x364 [1, 0] x transposes_S364x20000_S20000x364_1_0) (Wt_out4 m c)

/-- The ten buffers as the region leaves them are held at the valuation the lines start from, -/
theorem held_in (c : Dev nD) :
    iprop((((c : Thread nD τ).loc main_v10_0) ↦{fullShare} (dats m 0 c).arrAt 12 cfg0.N)
      ∗ (((c : Thread nD τ).loc main_v10_1) ↦{fullShare} (dats m 0 c).arrAt 13 cfg0.N)
      ∗ (((c : Thread nD τ).loc main_v10_2) ↦{fullShare} (dats m 0 c).arrAt 14 cfg0.N)
      ∗ (((c : Thread nD τ).loc main_v10_3) ↦{fullShare} (dats m 0 c).arrAt 15 cfg0.N)
      ∗ (((c : Thread nD τ).loc main_v10_4) ↦{fullShare} (dats m 0 c).arrAt 16 cfg0.N)
      ∗ (((c : Thread nD τ).loc main_v11) ↦{fullShare} V m c main_v11)
      ∗ (((c : Thread nD τ).loc main_v12) ↦{fullShare} V m c main_v12)
      ∗ (((c : Thread nD τ).loc main_v13) ↦{fullShare} V m c main_v13)
      ∗ (((c : Thread nD τ).loc main_v14) ↦{fullShare} V m c main_v14)
      ∗ (((c : Thread nD τ).loc main_v15) ↦{fullShare} V m c main_v15))
      ⊢ (StableHlo.held (c : Thread nD τ) tailS (Wt m c) : sProp 𝕄) := by
  rw [held_tailS, Wt_out0, Wt_out1, Wt_out2, Wt_out3, Wt_out4,
    Wt_rest m c main_v11 (by decide), Wt_rest m c main_v12 (by decide), Wt_rest m c main_v13 (by decide),
    Wt_rest m c main_v14 (by decide), Wt_rest m c main_v15 (by decide)]

/-- and after the lines: the result arrays unchanged, the fresh buffers at the transposes. -/
theorem held_out (c : Dev nD) :
    (StableHlo.held (c : Thread nD τ) tailS (StableHlo.after (hostOps1 (F := Ideal)) (Wt m c)) : sProp 𝕄)
      ⊢ iprop((((c : Thread nD τ).loc main_v10_0) ↦{fullShare} (dats m 0 c).arrAt 12 cfg0.N)
      ∗ (((c : Thread nD τ).loc main_v10_1) ↦{fullShare} (dats m 0 c).arrAt 13 cfg0.N)
      ∗ (((c : Thread nD τ).loc main_v10_2) ↦{fullShare} (dats m 0 c).arrAt 14 cfg0.N)
      ∗ (((c : Thread nD τ).loc main_v10_3) ↦{fullShare} (dats m 0 c).arrAt 15 cfg0.N)
      ∗ (((c : Thread nD τ).loc main_v10_4) ↦{fullShare} (dats m 0 c).arrAt 16 cfg0.N)
      ∗ (((c : Thread nD τ).loc main_v11) ↦{fullShare} T0 m c)
      ∗ (((c : Thread nD τ).loc main_v12) ↦{fullShare} T1 m c)
      ∗ (((c : Thread nD τ).loc main_v13) ↦{fullShare} T2 m c)
      ∗ (((c : Thread nD τ).loc main_v14) ↦{fullShare} T3 m c)
      ∗ (((c : Thread nD τ).loc main_v15) ↦{fullShare} T4 m c)) := by
  rw [held_tailS, after_out0, after_out1, after_out2, after_out3, after_out4, after_v11, after_v12, after_v13, after_v14, after_v15]

/-- A result window's array is held whole at the full share. -/
theorem out_pt (c : Dev nD) (w : Fin 17) (hw : (cfg0.win w).isOut = true)
    (G : Buf (Elt Ideal) ((cfg0.win w).arr.view.loc (c : Thread nD τ))) :
    ((cfg0.win w).arr.view.loc (c : Thread nD τ) ↦[(cfg0.win w).arr.view.set]{(dats m 0 c).share w} G : sProp 𝕄)
      = (((c : Thread nD τ).loc (Pipeline.arrRef spec0 w)) ↦{fullShare} G) := by
  rw [(arr_whole0 w).set_eq_univ, Dat.share, if_pos hw]

/-- No host operation before the region writes an argument. -/
theorem V_arg1 (c : Dev nD) : V m c main_arg1 = m ((c : Thread nD τ).loc main_arg1) := by
  show StableHlo.after (hostOps0 (F := Ideal)) (V₀ m c) (Proc.devRef .tc main_arg1) = _
  after_results
theorem V_arg2 (c : Dev nD) : V m c main_arg2 = m ((c : Thread nD τ).loc main_arg2) := by
  show StableHlo.after (hostOps0 (F := Ideal)) (V₀ m c) (Proc.devRef .tc main_arg2) = _
  after_results
theorem V_arg3 (c : Dev nD) : V m c main_arg3 = m ((c : Thread nD τ).loc main_arg3) := by
  show StableHlo.after (hostOps0 (F := Ideal)) (V₀ m c) (Proc.devRef .tc main_arg3) = _
  after_results
theorem V_arg4 (c : Dev nD) : V m c main_arg4 = m ((c : Thread nD τ).loc main_arg4) := by
  show StableHlo.after (hostOps0 (F := Ideal)) (V₀ m c) (Proc.devRef .tc main_arg4) = _
  after_results
theorem V_arg5 (c : Dev nD) : V m c main_arg5 = m ((c : Thread nD τ).loc main_arg5) := by
  show StableHlo.after (hostOps0 (F := Ideal)) (V₀ m c) (Proc.devRef .tc main_arg5) = _
  after_results
theorem V_arg6 (c : Dev nD) : V m c main_arg6 = m ((c : Thread nD τ).loc main_arg6) := by
  show StableHlo.after (hostOps0 (F := Ideal)) (V₀ m c) (Proc.devRef .tc main_arg6) = _
  after_results
theorem V_arg7 (c : Dev nD) : V m c main_arg7 = m ((c : Thread nD τ).loc main_arg7) := by
  show StableHlo.after (hostOps0 (F := Ideal)) (V₀ m c) (Proc.devRef .tc main_arg7) = _
  after_results
theorem V_arg8 (c : Dev nD) : V m c main_arg8 = m ((c : Thread nD τ).loc main_arg8) := by
  show StableHlo.after (hostOps0 (F := Ideal)) (V₀ m c) (Proc.devRef .tc main_arg8) = _
  after_results
theorem V_arg9 (c : Dev nD) : V m c main_arg9 = m ((c : Thread nD τ).loc main_arg9) := by
  show StableHlo.after (hostOps0 (F := Ideal)) (V₀ m c) (Proc.devRef .tc main_arg9) = _
  after_results
theorem V_arg10 (c : Dev nD) : V m c main_arg10 = m ((c : Thread nD τ).loc main_arg10) := by
  show StableHlo.after (hostOps0 (F := Ideal)) (V₀ m c) (Proc.devRef .tc main_arg10) = _
  after_results

end Cert.Proof.KI

end
-- ==== Proof.KI.Exit.lean ====
/-
  The idealized kernel's region seen from @main: what goes into it, what comes out, and the five transposes that
  follow it.

  Into the region: the two scratch buffers, whole at whatever they hold, make the invariant at grid point 0 (which
  states the stacked weights and biases only from point 1 on); the fifteen unscoped buffers that are no window's
  array (the ten arguments W_h, b_h and the five fresh buffers of the transposed results) bypass it. Out of it: the
  invariant gives the scratch buffers back. Then the five transposes run within the five result arrays, held whole
  at the full share by their windows, and the five fresh buffers; the windowed arrays come back unchanged and fresh
  buffer h holds the transpose of result array h. Last, every bypassing buffer is read off the final state.
-/
import proofs.«152352_g44014824849815_cont_8to1_c_708_17_alg».proof.Proof.KI.Tail
import Idealize.ShloMosaic.Lib.Pipeline.FrameSuffix
import Idealize.ShloMosaic.Lib.Tactic

noncomputable section

namespace Cert.Proof.KI

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The lines after the region, run from the region's exit -/

/-- What bypasses the region: the unscoped buffers that are no window's array, as the region is entered; -/
def Zc (c : Dev nD) : sProp 𝕄 := Pipeline.unscopedRest spec0 c (V m c)

/-- and after the lines: the ten arguments as they were, the five fresh buffers at the transposed results. -/
def Zc' (c : Dev nD) : sProp 𝕄 := iprop(
    (((c : Thread nD τ).loc main_arg1) ↦{fullShare} V m c main_arg1)
  ∗ (((c : Thread nD τ).loc main_arg2) ↦{fullShare} V m c main_arg2)
  ∗ (((c : Thread nD τ).loc main_arg3) ↦{fullShare} V m c main_arg3)
  ∗ (((c : Thread nD τ).loc main_arg4) ↦{fullShare} V m c main_arg4)
  ∗ (((c : Thread nD τ).loc main_arg5) ↦{fullShare} V m c main_arg5)
  ∗ (((c : Thread nD τ).loc main_arg6) ↦{fullShare} V m c main_arg6)
  ∗ (((c : Thread nD τ).loc main_arg7) ↦{fullShare} V m c main_arg7)
  ∗ (((c : Thread nD τ).loc main_arg8) ↦{fullShare} V m c main_arg8)
  ∗ (((c : Thread nD τ).loc main_arg9) ↦{fullShare} V m c main_arg9)
  ∗ (((c : Thread nD τ).loc main_arg10) ↦{fullShare} V m c main_arg10)
  ∗ (((c : Thread nD τ).loc main_v11) ↦{fullShare} T0 m c)
  ∗ (((c : Thread nD τ).loc main_v12) ↦{fullShare} T1 m c)
  ∗ (((c : Thread nD τ).loc main_v13) ↦{fullShare} T2 m c)
  ∗ (((c : Thread nD τ).loc main_v14) ↦{fullShare} T3 m c)
  ∗ (((c : Thread nD τ).loc main_v15) ↦{fullShare} T4 m c))

set_option backward.isDefEq.respectTransparency.types false in
/-- From the region's exit (the boundary, the windowed arrays at their final contents, the bypassing buffers as
    entered) the five transposes run and hand back the arrays unchanged and the bypassing buffers at Zc'. -/
theorem htail (c : Dev nD) (Q' : PUnit → sProp 𝕄) :
    iprop((iprop((dats m 0 c).arrays ((dats m 0 c).arrAt · cfg0.N) ∗ Zc' m c) -∗ Q' ⟨⟩)
        ∗ boundary (c : Thread nD τ) ∗ (dats m 0 c).arrays ((dats m 0 c).arrAt · cfg0.N) ∗ Zc m c)
      ⊢ wp frame (wpE (Pipeline.defs (pcfgs (F := Ideal)) defs₀) (Variants.lift 𝒱₀) (c : Thread nD τ) none) Set.univ
          (Pipeline.chain ([hostOps1 (F := Ideal)].map StableHlo.seq)) Q' := by
  unfold Zc Zc' Dat.arrays
  rw [unscopedRest0_eq, bigSep_W0]
  iintro ⟨Hk, Hb, ⟨H0, H1, H2, H3, H4, H5, H6, H7, H8, H9, H10, H11, H12, H13, H14, H15, H16⟩, A1, A2, A3, A4, A5, A6, A7, A8, A9, A10, R11, R12, R13, R14, R15⟩
  ihave O0 := (Entails.of_eq (out_pt m c 12 rfl _)) $$ H12
  ihave O1 := (Entails.of_eq (out_pt m c 13 rfl _)) $$ H13
  ihave O2 := (Entails.of_eq (out_pt m c 14 rfl _)) $$ H14
  ihave O3 := (Entails.of_eq (out_pt m c 15 rfl _)) $$ H15
  ihave O4 := (Entails.of_eq (out_pt m c 16 rfl _)) $$ H16
  ihave Hh := (held_in m c) $$ [O0 O1 O2 O3 O4 R11 R12 R13 R14 R15]
  · isplitl [O0]; · iexact O0
    isplitl [O1]; · iexact O1
    isplitl [O2]; · iexact O2
    isplitl [O3]; · iexact O3
    isplitl [O4]; · iexact O4
    isplitl [R11]; · iexact R11
    isplitl [R12]; · iexact R12
    isplitl [R13]; · iexact R13
    isplitl [R14]; · iexact R14
    iexact R15
  simp only [List.map, Pipeline.chain_cons, Pipeline.chain_nil]
  iapply (StableHlo.wp_seq (Variants.lift 𝒱₀) none Set.univ c tailS _ hostOps1 hostOps1_in hostOps1_fresh (Wt m c)) $$ [Hb Hh]
  · isplitl [Hb]; · iexact Hb
    iexact Hh
  iintro ⟨Hb, Hh⟩
  ihave Hh := (held_out m c) $$ Hh
  icases Hh with ⟨O0, O1, O2, O3, O4, R11, R12, R13, R14, R15⟩
  rw [wp_pure]; imodintro
  iapply Hk
  isplitl [H0 H1 H2 H3 H4 H5 H6 H7 H8 H9 H10 H11 O0 O1 O2 O3 O4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [O0]; · iapply (Entails.of_eq (out_pt m c 12 rfl _).symm); iexact O0
    isplitl [O1]; · iapply (Entails.of_eq (out_pt m c 13 rfl _).symm); iexact O1
    isplitl [O2]; · iapply (Entails.of_eq (out_pt m c 14 rfl _).symm); iexact O2
    isplitl [O3]; · iapply (Entails.of_eq (out_pt m c 15 rfl _).symm); iexact O3
    iapply (Entails.of_eq (out_pt m c 16 rfl _).symm); iexact O4
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [R11]; · iexact R11
    isplitl [R12]; · iexact R12
    isplitl [R13]; · iexact R13
    isplitl [R14]; · iexact R14
    iexact R15

/-! ## Into the region and out of it -/

/-- Everything that bypasses the region goes to the lines after it; the region's invariant takes none of it. -/
theorem hX (c : Dev nD) : (Pipeline.unscopedRest spec0 c (V m c) : sProp 𝕄) ⊢ iprop(iprop(emp) ∗ Zc m c) := by
  unfold Zc
  iintro H; isplitr; · iempintro
  iexact H

/-- The two scratch buffers, whole at whatever they hold, are the invariant at grid point 0: nothing is said of
    their contents before the first point has run. -/
theorem hin (c : Dev nD) (P : sProp 𝕄) :
    iprop(iprop(emp) ∗ P ∗ Pipeline.scopedRest spec0 c) ⊢ Φc m c 0 := by
  unfold Φc
  rw [scopedRest0_eq]
  iintro ⟨-, -, ⟨%ws, Hw⟩, ⟨%bs, Hs⟩⟩
  iexists ws; iexists bs
  isplitr; · ipureintro; intro h; exact absurd rfl h
  isplitl [Hw]; · iexact Hw
  iexact Hs

/-- After the last point the invariant gives the two scratch buffers back, whole; what they hold is forgotten. -/
theorem hout (c : Dev nD) (t : Fin (cfg0.N + 1)) :
    Φc m c t ⊢ iprop(iprop(emp) ∗ (Pipeline.scopedRest spec0 c : sProp 𝕄)) := by
  unfold Φc
  rw [scopedRest0_eq]
  iintro ⟨%ws, %bs, -, Hw, Hs⟩
  isplitr; · iempintro
  isplitl [Hw]; · iexists ws; iexact Hw
  iexists bs; iexact Hs

/-! ## The final read -/

/-- What the run leaves in the buffers that bypass the region: the five transposed results, the ten arguments as launched. -/
def QY (c : Dev nD) (s : MemSt nD τ sig (Elt Ideal)) : Prop :=
    s.mem ((c : Thread nD τ).loc main_v11) = T0 m c
  ∧ s.mem ((c : Thread nD τ).loc main_v12) = T1 m c
  ∧ s.mem ((c : Thread nD τ).loc main_v13) = T2 m c
  ∧ s.mem ((c : Thread nD τ).loc main_v14) = T3 m c
  ∧ s.mem ((c : Thread nD τ).loc main_v15) = T4 m c
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg7) = m ((c : Thread nD τ).loc main_arg7)
  ∧ s.mem ((c : Thread nD τ).loc main_arg8) = m ((c : Thread nD τ).loc main_arg8)
  ∧ s.mem ((c : Thread nD τ).loc main_arg9) = m ((c : Thread nD τ).loc main_arg9)
  ∧ s.mem ((c : Thread nD τ).loc main_arg10) = m ((c : Thread nD τ).loc main_arg10)

/-- Each of the fifteen buffers, held whole, is read off the final state. -/
theorem hY (c : Dev nD) (s' : Phys nD τ sig (Elt Ideal)) :
    iprop(iprop(emp) ∗ Zc' m c ∗ SI s') ⊢ |={Set.univ}=> iprop(⌜QY m c s'.mem⌝ ∗ (SI s' : sProp 𝕄)) := by
  unfold Zc'
  iintro ⟨-, ⟨A1, A2, A3, A4, A5, A6, A7, A8, A9, A10, R11, R12, R13, R14, R15⟩, HSI⟩
  icombine HSI A1 gives %a1
  icombine HSI A2 gives %a2
  icombine HSI A3 gives %a3
  icombine HSI A4 gives %a4
  icombine HSI A5 gives %a5
  icombine HSI A6 gives %a6
  icombine HSI A7 gives %a7
  icombine HSI A8 gives %a8
  icombine HSI A9 gives %a9
  icombine HSI A10 gives %a10
  icombine HSI R11 gives %r11
  icombine HSI R12 gives %r12
  icombine HSI R13 gives %r13
  icombine HSI R14 gives %r14
  icombine HSI R15 gives %r15
  imodintro
  isplitr
  · ipureintro
    exact ⟨Buf.eq_of_forall_mem_univ r11, Buf.eq_of_forall_mem_univ r12, Buf.eq_of_forall_mem_univ r13,
      Buf.eq_of_forall_mem_univ r14, Buf.eq_of_forall_mem_univ r15,
      (Buf.eq_of_forall_mem_univ a1).trans (V_arg1 m c), (Buf.eq_of_forall_mem_univ a2).trans (V_arg2 m c),
      (Buf.eq_of_forall_mem_univ a3).trans (V_arg3 m c), (Buf.eq_of_forall_mem_univ a4).trans (V_arg4 m c),
      (Buf.eq_of_forall_mem_univ a5).trans (V_arg5 m c), (Buf.eq_of_forall_mem_univ a6).trans (V_arg6 m c),
      (Buf.eq_of_forall_mem_univ a7).trans (V_arg7 m c), (Buf.eq_of_forall_mem_univ a8).trans (V_arg8 m c),
      (Buf.eq_of_forall_mem_univ a9).trans (V_arg9 m c), (Buf.eq_of_forall_mem_univ a10).trans (V_arg10 m c)⟩
  iexact HSI

end Cert.Proof.KI

end
-- ==== Proof.KI.Run.lean ====
/-
  The idealized kernel's run, from the body obligation: ten host operations (five weight transposes, five bias
  reshapes), the pipeline of ten grid points over blocks of 2048 rows of the activations, five transposes of the
  results.

  The two windows on the activations are on ONE array, each holding it at half the full share; every other window
  has an array of its own. So the launch is the one for windows that share arrays: the sixteen distinct buffers
  behind the seventeen windows' arrays are dealt to the windows at entry (the activations' points-to split in two
  halves), the region runs from the body obligation, and the lines after the region run within the result arrays
  and the buffers that bypassed it. The run ends with every windowed array at what the write-backs of all ten
  points left, the five fresh buffers at the transposes of the five result arrays, and the arguments as launched.
-/
import proofs.«152352_g44014824849815_cont_8to1_c_708_17_alg».proof.Proof.KI.Body
import proofs.«152352_g44014824849815_cont_8to1_c_708_17_alg».proof.Proof.KI.Split
import proofs.«152352_g44014824849815_cont_8to1_c_708_17_alg».proof.Proof.KI.Exit
import Idealize.ShloMosaic.Lib.Pipeline.FrameSuffix
import Idealize.ShloMosaic.Lib.Tactic

noncomputable section

namespace Cert.Proof.KI

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The run -/

/-- After the run, on every core: each windowed array holds what the ten grid points' write-backs left (an input
    array what the region found), the five fresh buffers hold the transposed results, the ten arguments what they
    held at launch. -/
def QC : PUnit × MemSt nD τ sig (Elt Ideal) → Prop := fun r => ∀ c : Dev nD,
    (∀ w : Fin cfg0.W, r.2.mem ((cfg0.win w).arr.view.loc (c : Thread nD τ)) = (dats m 0 c).arrAt w cfg0.N)
  ∧ r.2.mem ((c : Thread nD τ).loc main_v11) = transpose S20000x91 [1, 0] ((dats m 0 c).arrAt 12 cfg0.N) transposes_S91x20000_S20000x91_1_0
  ∧ r.2.mem ((c : Thread nD τ).loc main_v12) = transpose S20000x12 [1, 0] ((dats m 0 c).arrAt 13 cfg0.N) transposes_S12x20000_S20000x12_1_0
  ∧ r.2.mem ((c : Thread nD τ).loc main_v13) = transpose S20000x10 [1, 0] ((dats m 0 c).arrAt 14 cfg0.N) transposes_S10x20000_S20000x10_1_0
  ∧ r.2.mem ((c : Thread nD τ).loc main_v14) = transpose S20000x8 [1, 0] ((dats m 0 c).arrAt 15 cfg0.N) transposes_S8x20000_S20000x8_1_0
  ∧ r.2.mem ((c : Thread nD τ).loc main_v15) = transpose S20000x364 [1, 0] ((dats m 0 c).arrAt 16 cfg0.N) transposes_S364x20000_S20000x364_1_0
  ∧ r.2.mem ((c : Thread nD τ).loc main_arg1) = m ((c : Thread nD τ).loc main_arg1)
  ∧ r.2.mem ((c : Thread nD τ).loc main_arg2) = m ((c : Thread nD τ).loc main_arg2)
  ∧ r.2.mem ((c : Thread nD τ).loc main_arg3) = m ((c : Thread nD τ).loc main_arg3)
  ∧ r.2.mem ((c : Thread nD τ).loc main_arg4) = m ((c : Thread nD τ).loc main_arg4)
  ∧ r.2.mem ((c : Thread nD τ).loc main_arg5) = m ((c : Thread nD τ).loc main_arg5)
  ∧ r.2.mem ((c : Thread nD τ).loc main_arg6) = m ((c : Thread nD τ).loc main_arg6)
  ∧ r.2.mem ((c : Thread nD τ).loc main_arg7) = m ((c : Thread nD τ).loc main_arg7)
  ∧ r.2.mem ((c : Thread nD τ).loc main_arg8) = m ((c : Thread nD τ).loc main_arg8)
  ∧ r.2.mem ((c : Thread nD τ).loc main_arg9) = m ((c : Thread nD τ).loc main_arg9)
  ∧ r.2.mem ((c : Thread nD τ).loc main_arg10) = m ((c : Thread nD τ).loc main_arg10)

set_option backward.isDefEq.respectTransparency.types false in
/-- At the compiled mesh, from any memory whose semaphore counters are zero: every weakly fair execution of @main
    on the TensorCore terminates, in a state as QC describes. The ten host operations before the region, the
    region, and the five transposes after it. -/
theorem run_main : θ_run (defs (F := Ideal)) (onTc (τ := τ) (main (F := Ideal))) ⟨m, fun _ => 0, ρ⟩ (QC m) :=
  Pipeline.θ_run_region_noSem_pf_tail (pcfgs (F := Ideal)) (fun p => (cfgs p).toPCfg_adm) (dats m) () cellOf_inj (0 : Fin 1)
    winFacts₀0 (Pipeline.PreFacts.none _) EP defs₀ 𝒱₀ m ρ main (fun _ => Pipeline.chain ([hostOps1].map StableHlo.seq))
    (hbody := body_obligation m) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m)
    (hmain := Pipeline.hmain_around cfgs (0 : Fin 1) defs₀ 𝒱₀ m main [hostOps0] [hostOps1] hostOps0_sub
      ⟨rfl, rfl, rfl, rfl, rfl, rfl, rfl, rfl, rfl, rfl⟩ (fun c => main_chain c))
    (hsplit := hsplit m)
    (hpf := fun _ k => k.elim0)
    (X := fun _ => iprop(emp)) (Y := fun _ => iprop(emp)) (Z := Zc m) (Z' := Zc' m)
    (hX := fun c => by rw [Pipeline.unscopedRestP_none]; exact hX m c)
    (hin := fun c => hin m c _)
    (hout := fun c => hout m c _)
    (htail := htail m)
    (QY := QY m)
    (hY := hY m)
    (hQ := fun _ h c => ⟨(h c).1, (h c).2.2⟩)

end Cert.Proof.KI

end
-- ==== Proof.KI.Final.lean ====
/-
  The idealized kernel's result arrays after the run, in closed form.

  Each result array y_h : [d_h, 20000] is written through a window of 2048 columns at each of the ten grid points;
  the point t writes the columns [2048 t, 2048 t + 2048) that lie inside the array: all 2048 of them for t < 9 and the
  leading 1568 for t = 9, since 20000 = 9 · 2048 + 1568. What a point writes back is its block of the head's array
  (the staging buffer's part the transfer moves, cut back from the filled-out block). Every entry (r, n) lies in the
  block of the point n / 2048: 2048 (n / 2048) ≤ n < 2048 (n / 2048) + 2048, and n < 20000 keeps it on the part inside
  the array. So the blocks cover the array and it ends holding the head, whatever it held before.
  The activations' array is only read: it ends as the region found it, and no host operation writes it.
-/
import proofs.«152352_g44014824849815_cont_8to1_c_708_17_alg».proof.Proof.KI.Data
import Idealize.ShloMosaic.Lib.Pipeline.Value

noncomputable section

namespace Cert.Proof.KI

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## Head 0: the window on the [91, 20000] array -/

/-- The window's block index and the sizes its transfer moves, at every grid point: all 91 rows; the columns from
    2048 t on, 2048 of them or as many as the array still has. -/
theorem idx_facts12 : ∀ t : Fin cfg0.N, win0_12.index t (0 : Fin 2) = 0 ∧ win0_12.index t (1 : Fin 2) = t.val
    ∧ win0_12.xsize (grid0.coords t) (0 : Fin 2) = 91
    ∧ win0_12.xsize (grid0.coords t) (1 : Fin 2) = min 2048 (20000 - t.val * 2048) :=
  (by decide +kernel : ∀ t : Fin grid0.N, _)

/-- What point t writes back is block t of the head's array. -/
theorem flushed12_eq (c : Dev nD) (t : Fin cfg0.N) :
    (dats m 0 c).flushed 12 t = ((cfg0.win 12).blk t).view.read (Elt Ideal) (y0 m c) := by
  show (cfg0.win 12).cut (grid0.coords t) ((dats m 0 c).after 12 t) = _
  dsimp only [dats, blockAt, target]
  exact (cfg0.win 12).cut_fill _ _ _

/-- An entry of the array is in point t's block iff each coordinate is among those the transfer moves on its axis. -/
theorem mem_blk12 (t : Fin cfg0.N) (i : S91x20000.Idx) :
    i ∈ ((cfg0.win 12).blk t).view.set ↔ ∀ a : Fin 2, win0_12.index t a * win0_12.size a ≤ (i a).val
      ∧ (i a).val < win0_12.index t a * win0_12.size a + win0_12.xsize (grid0.coords t) a := by
  show i ∈ ((View.whole main_v10_0).slice (win0_12.rect t)).set ↔ _
  rw [View.set_slice_whole, Rect.mem_set_unit]
  exact Iff.rfl

/-- Entry (r, n) lies in the block of the point n / 2048. -/
theorem cover12 (i : S91x20000.Idx) :
    ∃ t : Fin cfg0.N, (cfg0.win 12).flush t = true ∧ i ∈ ((cfg0.win 12).blk t).view.set := by
  have h0 : (i 0).val < 91 := (i 0).isLt
  have h1 : (i 1).val < 20000 := (i 1).isLt
  have ht : (i 1).val / 2048 < cfg0.N := by show (i 1).val / 2048 < 10; omega
  obtain ⟨e0, e1, e2, e3⟩ := idx_facts12 ⟨(i 1).val / 2048, ht⟩
  refine ⟨⟨(i 1).val / 2048, ht⟩, flush0_12 _, ?_⟩
  rw [mem_blk12]
  intro a
  match a with
  | ⟨0, _⟩ =>
    show win0_12.index _ (0 : Fin 2) * 91 ≤ (i 0).val ∧ (i 0).val < win0_12.index _ (0 : Fin 2) * 91 + win0_12.xsize _ (0 : Fin 2)
    rw [e0, e2]; omega
  | ⟨1, _⟩ =>
    show win0_12.index _ (1 : Fin 2) * 2048 ≤ (i 1).val ∧ (i 1).val < win0_12.index _ (1 : Fin 2) * 2048 + win0_12.xsize _ (1 : Fin 2)
    rw [e1, e3]
    show (i 1).val / 2048 * 2048 ≤ (i 1).val ∧ (i 1).val < (i 1).val / 2048 * 2048 + min 2048 (20000 - (i 1).val / 2048 * 2048)
    omega

/-- The array ends holding the head. -/
theorem final_y0 (c : Dev nD) : (dats m 0 c).arrAt 12 cfg0.N = y0 m c :=
  (dats m 0 c).arrAt_eq_of_cover 12 (y0 m c) (fun t _ => flushed12_eq m c t) cover12

/-! ## Head 1: the window on the [12, 20000] array -/

/-- The window's block index and the sizes its transfer moves, at every grid point: all 12 rows; the columns from
    2048 t on, 2048 of them or as many as the array still has. -/
theorem idx_facts13 : ∀ t : Fin cfg0.N, win0_13.index t (0 : Fin 2) = 0 ∧ win0_13.index t (1 : Fin 2) = t.val
    ∧ win0_13.xsize (grid0.coords t) (0 : Fin 2) = 12
    ∧ win0_13.xsize (grid0.coords t) (1 : Fin 2) = min 2048 (20000 - t.val * 2048) :=
  (by decide +kernel : ∀ t : Fin grid0.N, _)

/-- What point t writes back is block t of the head's array. -/
theorem flushed13_eq (c : Dev nD) (t : Fin cfg0.N) :
    (dats m 0 c).flushed 13 t = ((cfg0.win 13).blk t).view.read (Elt Ideal) (y1 m c) := by
  show (cfg0.win 13).cut (grid0.coords t) ((dats m 0 c).after 13 t) = _
  dsimp only [dats, blockAt, target]
  exact (cfg0.win 13).cut_fill _ _ _

/-- An entry of the array is in point t's block iff each coordinate is among those the transfer moves on its axis. -/
theorem mem_blk13 (t : Fin cfg0.N) (i : S12x20000.Idx) :
    i ∈ ((cfg0.win 13).blk t).view.set ↔ ∀ a : Fin 2, win0_13.index t a * win0_13.size a ≤ (i a).val
      ∧ (i a).val < win0_13.index t a * win0_13.size a + win0_13.xsize (grid0.coords t) a := by
  show i ∈ ((View.whole main_v10_1).slice (win0_13.rect t)).set ↔ _
  rw [View.set_slice_whole, Rect.mem_set_unit]
  exact Iff.rfl

/-- Entry (r, n) lies in the block of the point n / 2048. -/
theorem cover13 (i : S12x20000.Idx) :
    ∃ t : Fin cfg0.N, (cfg0.win 13).flush t = true ∧ i ∈ ((cfg0.win 13).blk t).view.set := by
  have h0 : (i 0).val < 12 := (i 0).isLt
  have h1 : (i 1).val < 20000 := (i 1).isLt
  have ht : (i 1).val / 2048 < cfg0.N := by show (i 1).val / 2048 < 10; omega
  obtain ⟨e0, e1, e2, e3⟩ := idx_facts13 ⟨(i 1).val / 2048, ht⟩
  refine ⟨⟨(i 1).val / 2048, ht⟩, flush0_13 _, ?_⟩
  rw [mem_blk13]
  intro a
  match a with
  | ⟨0, _⟩ =>
    show win0_13.index _ (0 : Fin 2) * 12 ≤ (i 0).val ∧ (i 0).val < win0_13.index _ (0 : Fin 2) * 12 + win0_13.xsize _ (0 : Fin 2)
    rw [e0, e2]; omega
  | ⟨1, _⟩ =>
    show win0_13.index _ (1 : Fin 2) * 2048 ≤ (i 1).val ∧ (i 1).val < win0_13.index _ (1 : Fin 2) * 2048 + win0_13.xsize _ (1 : Fin 2)
    rw [e1, e3]
    show (i 1).val / 2048 * 2048 ≤ (i 1).val ∧ (i 1).val < (i 1).val / 2048 * 2048 + min 2048 (20000 - (i 1).val / 2048 * 2048)
    omega

/-- The array ends holding the head. -/
theorem final_y1 (c : Dev nD) : (dats m 0 c).arrAt 13 cfg0.N = y1 m c :=
  (dats m 0 c).arrAt_eq_of_cover 13 (y1 m c) (fun t _ => flushed13_eq m c t) cover13

/-! ## Head 2: the window on the [10, 20000] array -/

/-- The window's block index and the sizes its transfer moves, at every grid point: all 10 rows; the columns from
    2048 t on, 2048 of them or as many as the array still has. -/
theorem idx_facts14 : ∀ t : Fin cfg0.N, win0_14.index t (0 : Fin 2) = 0 ∧ win0_14.index t (1 : Fin 2) = t.val
    ∧ win0_14.xsize (grid0.coords t) (0 : Fin 2) = 10
    ∧ win0_14.xsize (grid0.coords t) (1 : Fin 2) = min 2048 (20000 - t.val * 2048) :=
  (by decide +kernel : ∀ t : Fin grid0.N, _)

/-- What point t writes back is block t of the head's array. -/
theorem flushed14_eq (c : Dev nD) (t : Fin cfg0.N) :
    (dats m 0 c).flushed 14 t = ((cfg0.win 14).blk t).view.read (Elt Ideal) (y2 m c) := by
  show (cfg0.win 14).cut (grid0.coords t) ((dats m 0 c).after 14 t) = _
  dsimp only [dats, blockAt, target]
  exact (cfg0.win 14).cut_fill _ _ _

/-- An entry of the array is in point t's block iff each coordinate is among those the transfer moves on its axis. -/
theorem mem_blk14 (t : Fin cfg0.N) (i : S10x20000.Idx) :
    i ∈ ((cfg0.win 14).blk t).view.set ↔ ∀ a : Fin 2, win0_14.index t a * win0_14.size a ≤ (i a).val
      ∧ (i a).val < win0_14.index t a * win0_14.size a + win0_14.xsize (grid0.coords t) a := by
  show i ∈ ((View.whole main_v10_2).slice (win0_14.rect t)).set ↔ _
  rw [View.set_slice_whole, Rect.mem_set_unit]
  exact Iff.rfl

/-- Entry (r, n) lies in the block of the point n / 2048. -/
theorem cover14 (i : S10x20000.Idx) :
    ∃ t : Fin cfg0.N, (cfg0.win 14).flush t = true ∧ i ∈ ((cfg0.win 14).blk t).view.set := by
  have h0 : (i 0).val < 10 := (i 0).isLt
  have h1 : (i 1).val < 20000 := (i 1).isLt
  have ht : (i 1).val / 2048 < cfg0.N := by show (i 1).val / 2048 < 10; omega
  obtain ⟨e0, e1, e2, e3⟩ := idx_facts14 ⟨(i 1).val / 2048, ht⟩
  refine ⟨⟨(i 1).val / 2048, ht⟩, flush0_14 _, ?_⟩
  rw [mem_blk14]
  intro a
  match a with
  | ⟨0, _⟩ =>
    show win0_14.index _ (0 : Fin 2) * 10 ≤ (i 0).val ∧ (i 0).val < win0_14.index _ (0 : Fin 2) * 10 + win0_14.xsize _ (0 : Fin 2)
    rw [e0, e2]; omega
  | ⟨1, _⟩ =>
    show win0_14.index _ (1 : Fin 2) * 2048 ≤ (i 1).val ∧ (i 1).val < win0_14.index _ (1 : Fin 2) * 2048 + win0_14.xsize _ (1 : Fin 2)
    rw [e1, e3]
    show (i 1).val / 2048 * 2048 ≤ (i 1).val ∧ (i 1).val < (i 1).val / 2048 * 2048 + min 2048 (20000 - (i 1).val / 2048 * 2048)
    omega

/-- The array ends holding the head. -/
theorem final_y2 (c : Dev nD) : (dats m 0 c).arrAt 14 cfg0.N = y2 m c :=
  (dats m 0 c).arrAt_eq_of_cover 14 (y2 m c) (fun t _ => flushed14_eq m c t) cover14

/-! ## Head 3: the window on the [8, 20000] array -/

/-- The window's block index and the sizes its transfer moves, at every grid point: all 8 rows; the columns from
    2048 t on, 2048 of them or as many as the array still has. -/
theorem idx_facts15 : ∀ t : Fin cfg0.N, win0_15.index t (0 : Fin 2) = 0 ∧ win0_15.index t (1 : Fin 2) = t.val
    ∧ win0_15.xsize (grid0.coords t) (0 : Fin 2) = 8
    ∧ win0_15.xsize (grid0.coords t) (1 : Fin 2) = min 2048 (20000 - t.val * 2048) :=
  (by decide +kernel : ∀ t : Fin grid0.N, _)

/-- What point t writes back is block t of the head's array. -/
theorem flushed15_eq (c : Dev nD) (t : Fin cfg0.N) :
    (dats m 0 c).flushed 15 t = ((cfg0.win 15).blk t).view.read (Elt Ideal) (y3 m c) := by
  show (cfg0.win 15).cut (grid0.coords t) ((dats m 0 c).after 15 t) = _
  dsimp only [dats, blockAt, target]
  exact (cfg0.win 15).cut_fill _ _ _

/-- An entry of the array is in point t's block iff each coordinate is among those the transfer moves on its axis. -/
theorem mem_blk15 (t : Fin cfg0.N) (i : S8x20000.Idx) :
    i ∈ ((cfg0.win 15).blk t).view.set ↔ ∀ a : Fin 2, win0_15.index t a * win0_15.size a ≤ (i a).val
      ∧ (i a).val < win0_15.index t a * win0_15.size a + win0_15.xsize (grid0.coords t) a := by
  show i ∈ ((View.whole main_v10_3).slice (win0_15.rect t)).set ↔ _
  rw [View.set_slice_whole, Rect.mem_set_unit]
  exact Iff.rfl

/-- Entry (r, n) lies in the block of the point n / 2048. -/
theorem cover15 (i : S8x20000.Idx) :
    ∃ t : Fin cfg0.N, (cfg0.win 15).flush t = true ∧ i ∈ ((cfg0.win 15).blk t).view.set := by
  have h0 : (i 0).val < 8 := (i 0).isLt
  have h1 : (i 1).val < 20000 := (i 1).isLt
  have ht : (i 1).val / 2048 < cfg0.N := by show (i 1).val / 2048 < 10; omega
  obtain ⟨e0, e1, e2, e3⟩ := idx_facts15 ⟨(i 1).val / 2048, ht⟩
  refine ⟨⟨(i 1).val / 2048, ht⟩, flush0_15 _, ?_⟩
  rw [mem_blk15]
  intro a
  match a with
  | ⟨0, _⟩ =>
    show win0_15.index _ (0 : Fin 2) * 8 ≤ (i 0).val ∧ (i 0).val < win0_15.index _ (0 : Fin 2) * 8 + win0_15.xsize _ (0 : Fin 2)
    rw [e0, e2]; omega
  | ⟨1, _⟩ =>
    show win0_15.index _ (1 : Fin 2) * 2048 ≤ (i 1).val ∧ (i 1).val < win0_15.index _ (1 : Fin 2) * 2048 + win0_15.xsize _ (1 : Fin 2)
    rw [e1, e3]
    show (i 1).val / 2048 * 2048 ≤ (i 1).val ∧ (i 1).val < (i 1).val / 2048 * 2048 + min 2048 (20000 - (i 1).val / 2048 * 2048)
    omega

/-- The array ends holding the head. -/
theorem final_y3 (c : Dev nD) : (dats m 0 c).arrAt 15 cfg0.N = y3 m c :=
  (dats m 0 c).arrAt_eq_of_cover 15 (y3 m c) (fun t _ => flushed15_eq m c t) cover15

/-! ## Head 4: the window on the [364, 20000] array -/

/-- The window's block index and the sizes its transfer moves, at every grid point: all 364 rows; the columns from
    2048 t on, 2048 of them or as many as the array still has. -/
theorem idx_facts16 : ∀ t : Fin cfg0.N, win0_16.index t (0 : Fin 2) = 0 ∧ win0_16.index t (1 : Fin 2) = t.val
    ∧ win0_16.xsize (grid0.coords t) (0 : Fin 2) = 364
    ∧ win0_16.xsize (grid0.coords t) (1 : Fin 2) = min 2048 (20000 - t.val * 2048) :=
  (by decide +kernel : ∀ t : Fin grid0.N, _)

/-- What point t writes back is block t of the head's array. -/
theorem flushed16_eq (c : Dev nD) (t : Fin cfg0.N) :
    (dats m 0 c).flushed 16 t = ((cfg0.win 16).blk t).view.read (Elt Ideal) (y4 m c) := by
  show (cfg0.win 16).cut (grid0.coords t) ((dats m 0 c).after 16 t) = _
  dsimp only [dats, blockAt, target]
  exact (cfg0.win 16).cut_fill _ _ _

/-- An entry of the array is in point t's block iff each coordinate is among those the transfer moves on its axis. -/
theorem mem_blk16 (t : Fin cfg0.N) (i : S364x20000.Idx) :
    i ∈ ((cfg0.win 16).blk t).view.set ↔ ∀ a : Fin 2, win0_16.index t a * win0_16.size a ≤ (i a).val
      ∧ (i a).val < win0_16.index t a * win0_16.size a + win0_16.xsize (grid0.coords t) a := by
  show i ∈ ((View.whole main_v10_4).slice (win0_16.rect t)).set ↔ _
  rw [View.set_slice_whole, Rect.mem_set_unit]
  exact Iff.rfl

/-- Entry (r, n) lies in the block of the point n / 2048. -/
theorem cover16 (i : S364x20000.Idx) :
    ∃ t : Fin cfg0.N, (cfg0.win 16).flush t = true ∧ i ∈ ((cfg0.win 16).blk t).view.set := by
  have h0 : (i 0).val < 364 := (i 0).isLt
  have h1 : (i 1).val < 20000 := (i 1).isLt
  have ht : (i 1).val / 2048 < cfg0.N := by show (i 1).val / 2048 < 10; omega
  obtain ⟨e0, e1, e2, e3⟩ := idx_facts16 ⟨(i 1).val / 2048, ht⟩
  refine ⟨⟨(i 1).val / 2048, ht⟩, flush0_16 _, ?_⟩
  rw [mem_blk16]
  intro a
  match a with
  | ⟨0, _⟩ =>
    show win0_16.index _ (0 : Fin 2) * 364 ≤ (i 0).val ∧ (i 0).val < win0_16.index _ (0 : Fin 2) * 364 + win0_16.xsize _ (0 : Fin 2)
    rw [e0, e2]; omega
  | ⟨1, _⟩ =>
    show win0_16.index _ (1 : Fin 2) * 2048 ≤ (i 1).val ∧ (i 1).val < win0_16.index _ (1 : Fin 2) * 2048 + win0_16.xsize _ (1 : Fin 2)
    rw [e1, e3]
    show (i 1).val / 2048 * 2048 ≤ (i 1).val ∧ (i 1).val < (i 1).val / 2048 * 2048 + min 2048 (20000 - (i 1).val / 2048 * 2048)
    omega

/-- The array ends holding the head. -/
theorem final_y4 (c : Dev nD) : (dats m 0 c).arrAt 16 cfg0.N = y4 m c :=
  (dats m 0 c).arrAt_eq_of_cover 16 (y4 m c) (fun t _ => flushed16_eq m c t) cover16

/-! ## The activations -/

/-- No host operation before the region writes the activations' array: the region finds it as launched. -/
theorem V_arg0 (c : Dev nD) : V m c main_arg0 = m ((c : Thread nD τ).loc main_arg0) := by
  show StableHlo.after (hostOps0 (F := Ideal)) (V₀ m c) (Proc.devRef .tc main_arg0) = _
  after_results

/-- An input window's array is never written back: the activations end as launched. -/
theorem final_x (c : Dev nD) : (dats m 0 c).arrAt 0 cfg0.N = m ((c : Thread nD τ).loc main_arg0) :=
  ((dats m 0 c).arrAt_in 0 rfl _).trans (V_arg0 m c)

end Cert.Proof.KI

end
-- ==== Proof.KI.HostRead.lean ====
/-
  What the region finds in the arrays the host operations made, entry by entry, and the transposed results as heads.

  Before the region each weight W_h : [1024, d_h] is transposed to Wt_h : [d_h, 1024], so Wt_h (r, k) = W_h (k, r), and
  each bias b_h : [d_h] is reshaped to a row [1, d_h], whose entry (0, r) is b_h r: a reshape keeps the row-major
  position, and position r of the vector is position 0 · d_h + r of the row. The activations are not touched.
  After the region each result y_h : [d_h, 20000] is transposed on the host: entry (n, r) of the transpose is
  y_h (r, n), the head computed output-major and in halves, which is the head Σₖ x (n, k) · W_h (k, r) + b_h r.
-/
import proofs.«152352_g44014824849815_cont_8to1_c_708_17_alg».proof.Proof.KI.Data
import Idealize.ShloMosaic.Lib.ValueLayout

noncomputable section

namespace Cert.Proof.KI

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-! ## The activations -/

/-- No host operation writes the activations: the region finds them as launched. -/
theorem xA_eq (c : Dev nD) : xA m c = m ((c : Thread nD τ).loc main_arg0) := by
  show StableHlo.after (hostOps0 (F := Ideal)) (V₀ m c) (Proc.devRef .tc main_arg0) = _
  after_results

/-! ## Head 0 -/

/-- The output-major weight is the weight's transpose: Wt (r, k) = W (k, r). -/
theorem wt0_apply (c : Dev nD) (r : Fin 91) (k : Fin 1024) :
    wt0 m c (ix2 r k) = m ((c : Thread nD τ).loc main_arg1) (ix2 k r) := by
  have h : wt0 m c = transpose S91x1024 [1, 0] (m ((c : Thread nD τ).loc main_arg1)) transposes_S1024x91_S91x1024_1_0 := by
    show StableHlo.after (hostOps0 (F := Ideal)) (V₀ m c) (Proc.devRef .tc main_v0) = _
    after_results
  rw [h]
  exact transpose_ix2_apply _ _ r k

/-- The bias row holds the bias: entry (0, r) is b r. -/
theorem br0_apply (c : Dev nD) (r : Fin 91) :
    br0 m c (ix2 (0 : Fin 1) r) = m ((c : Thread nD τ).loc main_arg2) (ix1 r) := by
  have h : br0 m c = shapeCast S1x91 (m ((c : Thread nD τ).loc main_arg2)) shapeCasts_S91_S1x91 := by
    show StableHlo.after (hostOps0 (F := Ideal)) (V₀ m c) (Proc.devRef .tc main_v1) = _
    after_results
    rfl
  rw [h]
  exact shapeCast_a_1a_apply _ _ 0 r

/-- The result transposed is the head: entry (n, r) is Σₖ x (n, k) · W (k, r) + b r. -/
theorem head0_eq (c : Dev nD) :
    transpose S20000x91 [1, 0] (y0 m c) transposes_S91x20000_S20000x91_1_0
      = Cert.Spec.head (d := 91) (m ((c : Thread nD τ).loc main_arg0)) (m ((c : Thread nD τ).loc main_arg1)) (m ((c : Thread nD τ).loc main_arg2)) := by
  funext i
  obtain ⟨n, r, rfl⟩ : ∃ (n : Fin 20000) (r : Fin 91), i = ix2 n r := ⟨i 0, i 1, eq_ix2 i⟩
  rw [transpose_ix2_apply]
  unfold y0
  rw [xA_eq]
  exact Cert.Spec.headT_eq_head _ _ _ _ _ (wt0_apply m c) (br0_apply m c) n r

/-! ## Head 1 -/

/-- The output-major weight is the weight's transpose: Wt (r, k) = W (k, r). -/
theorem wt1_apply (c : Dev nD) (r : Fin 12) (k : Fin 1024) :
    wt1 m c (ix2 r k) = m ((c : Thread nD τ).loc main_arg3) (ix2 k r) := by
  have h : wt1 m c = transpose S12x1024 [1, 0] (m ((c : Thread nD τ).loc main_arg3)) transposes_S1024x12_S12x1024_1_0 := by
    show StableHlo.after (hostOps0 (F := Ideal)) (V₀ m c) (Proc.devRef .tc main_v2) = _
    after_results
  rw [h]
  exact transpose_ix2_apply _ _ r k

/-- The bias row holds the bias: entry (0, r) is b r. -/
theorem br1_apply (c : Dev nD) (r : Fin 12) :
    br1 m c (ix2 (0 : Fin 1) r) = m ((c : Thread nD τ).loc main_arg4) (ix1 r) := by
  have h : br1 m c = shapeCast S1x12 (m ((c : Thread nD τ).loc main_arg4)) shapeCasts_S12_S1x12 := by
    show StableHlo.after (hostOps0 (F := Ideal)) (V₀ m c) (Proc.devRef .tc main_v3) = _
    after_results
    rfl
  rw [h]
  exact shapeCast_a_1a_apply _ _ 0 r

/-- The result transposed is the head: entry (n, r) is Σₖ x (n, k) · W (k, r) + b r. -/
theorem head1_eq (c : Dev nD) :
    transpose S20000x12 [1, 0] (y1 m c) transposes_S12x20000_S20000x12_1_0
      = Cert.Spec.head (d := 12) (m ((c : Thread nD τ).loc main_arg0)) (m ((c : Thread nD τ).loc main_arg3)) (m ((c : Thread nD τ).loc main_arg4)) := by
  funext i
  obtain ⟨n, r, rfl⟩ : ∃ (n : Fin 20000) (r : Fin 12), i = ix2 n r := ⟨i 0, i 1, eq_ix2 i⟩
  rw [transpose_ix2_apply]
  unfold y1
  rw [xA_eq]
  exact Cert.Spec.headT_eq_head _ _ _ _ _ (wt1_apply m c) (br1_apply m c) n r

/-! ## Head 2 -/

/-- The output-major weight is the weight's transpose: Wt (r, k) = W (k, r). -/
theorem wt2_apply (c : Dev nD) (r : Fin 10) (k : Fin 1024) :
    wt2 m c (ix2 r k) = m ((c : Thread nD τ).loc main_arg5) (ix2 k r) := by
  have h : wt2 m c = transpose S10x1024 [1, 0] (m ((c : Thread nD τ).loc main_arg5)) transposes_S1024x10_S10x1024_1_0 := by
    show StableHlo.after (hostOps0 (F := Ideal)) (V₀ m c) (Proc.devRef .tc main_v4) = _
    after_results
  rw [h]
  exact transpose_ix2_apply _ _ r k

/-- The bias row holds the bias: entry (0, r) is b r. -/
theorem br2_apply (c : Dev nD) (r : Fin 10) :
    br2 m c (ix2 (0 : Fin 1) r) = m ((c : Thread nD τ).loc main_arg6) (ix1 r) := by
  have h : br2 m c = shapeCast S1x10 (m ((c : Thread nD τ).loc main_arg6)) shapeCasts_S10_S1x10 := by
    show StableHlo.after (hostOps0 (F := Ideal)) (V₀ m c) (Proc.devRef .tc main_v5) = _
    after_results
    rfl
  rw [h]
  exact shapeCast_a_1a_apply _ _ 0 r

/-- The result transposed is the head: entry (n, r) is Σₖ x (n, k) · W (k, r) + b r. -/
theorem head2_eq (c : Dev nD) :
    transpose S20000x10 [1, 0] (y2 m c) transposes_S10x20000_S20000x10_1_0
      = Cert.Spec.head (d := 10) (m ((c : Thread nD τ).loc main_arg0)) (m ((c : Thread nD τ).loc main_arg5)) (m ((c : Thread nD τ).loc main_arg6)) := by
  funext i
  obtain ⟨n, r, rfl⟩ : ∃ (n : Fin 20000) (r : Fin 10), i = ix2 n r := ⟨i 0, i 1, eq_ix2 i⟩
  rw [transpose_ix2_apply]
  unfold y2
  rw [xA_eq]
  exact Cert.Spec.headT_eq_head _ _ _ _ _ (wt2_apply m c) (br2_apply m c) n r

/-! ## Head 3 -/

/-- The output-major weight is the weight's transpose: Wt (r, k) = W (k, r). -/
theorem wt3_apply (c : Dev nD) (r : Fin 8) (k : Fin 1024) :
    wt3 m c (ix2 r k) = m ((c : Thread nD τ).loc main_arg7) (ix2 k r) := by
  have h : wt3 m c = transpose S8x1024 [1, 0] (m ((c : Thread nD τ).loc main_arg7)) transposes_S1024x8_S8x1024_1_0 := by
    show StableHlo.after (hostOps0 (F := Ideal)) (V₀ m c) (Proc.devRef .tc main_v6) = _
    after_results
  rw [h]
  exact transpose_ix2_apply _ _ r k

/-- The bias row holds the bias: entry (0, r) is b r. -/
theorem br3_apply (c : Dev nD) (r : Fin 8) :
    br3 m c (ix2 (0 : Fin 1) r) = m ((c : Thread nD τ).loc main_arg8) (ix1 r) := by
  have h : br3 m c = shapeCast S1x8 (m ((c : Thread nD τ).loc main_arg8)) shapeCasts_S8_S1x8 := by
    show StableHlo.after (hostOps0 (F := Ideal)) (V₀ m c) (Proc.devRef .tc main_v7) = _
    after_results
    rfl
  rw [h]
  exact shapeCast_a_1a_apply _ _ 0 r

/-- The result transposed is the head: entry (n, r) is Σₖ x (n, k) · W (k, r) + b r. -/
theorem head3_eq (c : Dev nD) :
    transpose S20000x8 [1, 0] (y3 m c) transposes_S8x20000_S20000x8_1_0
      = Cert.Spec.head (d := 8) (m ((c : Thread nD τ).loc main_arg0)) (m ((c : Thread nD τ).loc main_arg7)) (m ((c : Thread nD τ).loc main_arg8)) := by
  funext i
  obtain ⟨n, r, rfl⟩ : ∃ (n : Fin 20000) (r : Fin 8), i = ix2 n r := ⟨i 0, i 1, eq_ix2 i⟩
  rw [transpose_ix2_apply]
  unfold y3
  rw [xA_eq]
  exact Cert.Spec.headT_eq_head _ _ _ _ _ (wt3_apply m c) (br3_apply m c) n r

/-! ## Head 4 -/

/-- The output-major weight is the weight's transpose: Wt (r, k) = W (k, r). -/
theorem wt4_apply (c : Dev nD) (r : Fin 364) (k : Fin 1024) :
    wt4 m c (ix2 r k) = m ((c : Thread nD τ).loc main_arg9) (ix2 k r) := by
  have h : wt4 m c = transpose S364x1024 [1, 0] (m ((c : Thread nD τ).loc main_arg9)) transposes_S1024x364_S364x1024_1_0 := by
    show StableHlo.after (hostOps0 (F := Ideal)) (V₀ m c) (Proc.devRef .tc main_v8) = _
    after_results
  rw [h]
  exact transpose_ix2_apply _ _ r k

/-- The bias row holds the bias: entry (0, r) is b r. -/
theorem br4_apply (c : Dev nD) (r : Fin 364) :
    br4 m c (ix2 (0 : Fin 1) r) = m ((c : Thread nD τ).loc main_arg10) (ix1 r) := by
  have h : br4 m c = shapeCast S1x364 (m ((c : Thread nD τ).loc main_arg10)) shapeCasts_S364_S1x364 := by
    show StableHlo.after (hostOps0 (F := Ideal)) (V₀ m c) (Proc.devRef .tc main_v9) = _
    after_results
    rfl
  rw [h]
  exact shapeCast_a_1a_apply _ _ 0 r

/-- The result transposed is the head: entry (n, r) is Σₖ x (n, k) · W (k, r) + b r. -/
theorem head4_eq (c : Dev nD) :
    transpose S20000x364 [1, 0] (y4 m c) transposes_S364x20000_S20000x364_1_0
      = Cert.Spec.head (d := 364) (m ((c : Thread nD τ).loc main_arg0)) (m ((c : Thread nD τ).loc main_arg9)) (m ((c : Thread nD τ).loc main_arg10)) := by
  funext i
  obtain ⟨n, r, rfl⟩ : ∃ (n : Fin 20000) (r : Fin 364), i = ix2 n r := ⟨i 0, i 1, eq_ix2 i⟩
  rw [transpose_ix2_apply]
  unfold y4
  rw [xA_eq]
  exact Cert.Spec.headT_eq_head _ _ _ _ _ (wt4_apply m c) (br4_apply m c) n r

end Cert.Proof.KI

end
-- ==== Proof.KI.Value.lean ====
/-
  The idealized kernel's run, read: the five results as heads of the launch arrays, and the frame.

  The run leaves each result array y_h : [d_h, 20000] as the pipeline's write-backs made it and the host transposes it;
  the write-backs cover the array with the head's blocks, and the transposed head, entry (n, r), is
  Σₖ x (n, k) · W_h (k, r) + b_h r. The activations' array is an input window's and ends as launched; the other ten
  arguments the run keeps.
-/
import proofs.«152352_g44014824849815_cont_8to1_c_708_17_alg».proof.Proof.KI.Run
import proofs.«152352_g44014824849815_cont_8to1_c_708_17_alg».proof.Proof.KI.Final
import proofs.«152352_g44014824849815_cont_8to1_c_708_17_alg».proof.Proof.KI.HostRead
import proofs.«152352_g44014824849815_cont_8to1_c_708_17_alg».proof.Defs
import proofs.«152352_g44014824849815_cont_8to1_c_708_17_alg».proof.Proof.Gen.Pre_finite_inputs

noncomputable section

namespace Cert.Proof.KI

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The idealized kernel runs, its five results end as the five heads of the launch arrays, and the arguments end
    unchanged. -/
theorem run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
          r.2.mem ((c.tc : Thread Cert.KernelIdeal.nD Cert.KernelIdeal.τ).loc Cert.KernelIdeal.main_v11) = Cert.Spec.head (d := 91) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_v12) = Cert.Spec.head (d := 12) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        ∧ r.2.mem ((c.tc : Thread Cert.KernelIdeal.nD Cert.KernelIdeal.τ).loc Cert.KernelIdeal.main_v13) = Cert.Spec.head (d := 10) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
        ∧ r.2.mem ((c.tc : Thread Cert.KernelIdeal.nD Cert.KernelIdeal.τ).loc Cert.KernelIdeal.main_v14) = Cert.Spec.head (d := 8) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
        ∧ r.2.mem ((c.tc : Thread Cert.KernelIdeal.nD Cert.KernelIdeal.τ).loc Cert.KernelIdeal.main_v15) = Cert.Spec.head (d := 364) (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run _ _ _).mono (fun r h c => by
      obtain ⟨hw, h11, h12, h13, h14, h15, k1, k2, k3, k4, k5, k6, k7, k8, k9, k10⟩ := h c
      refine ⟨?_, ?_, ?_, ?_, ?_, (hw 0).trans (final_x m c), k1, k2, k3, k4, k5, k6, k7, k8, k9, k10⟩
      · rw [h11, final_y0, head0_eq]
      · rw [h12, final_y1, head1_eq]
      · rw [h13, final_y2, head2_eq]
      · rw [h14, final_y3, head3_eq]
      · rw [h15, final_y4, head4_eq])
    (run_main m ρ)

/-- The frame: the same run with the results dropped. -/
theorem frame : Cert.frame_KernelIdeal := by
  intro m g _
  exact (θ_run _ _ _).mono (fun r h c => (h c).2.2.2.2.2) (run m g)

end Cert.Proof.KI

end
-- ==== Proof.Ref.Value.lean ====
/-
  The reference's five heads as functions of its argument arrays, over the extended reals: each result array holds,
  at entry (n, r), the sum over the 1024 channels k of x (n, k) · W (k, r), plus the bias b r; the argument arrays end
  as they began. A head is computed as the rows × columns product of x with W, plus the bias laid along the columns of
  a [20000, d] array through a [1, d] row: at (n, r) the product is that sum and the laid-out bias is b r.
-/
import proofs.«152352_g44014824849815_cont_8to1_c_708_17_alg».proof.Defs
import proofs.«152352_g44014824849815_cont_8to1_c_708_17_alg».proof.Proof.Gen.ReferenceIdeal
import proofs.«152352_g44014824849815_cont_8to1_c_708_17_alg».proof.Proof.Gen.ReferenceIdeal.Run
import proofs.«152352_g44014824849815_cont_8to1_c_708_17_alg».proof.Proof.Gen.ReferenceIdeal.Read
import proofs.«152352_g44014824849815_cont_8to1_c_708_17_alg».proof.Proof.Gen.Pre_finite_inputs
import proofs.«152352_g44014824849815_cont_8to1_c_708_17_alg».proof.Proof.Spec
import proofs.«152352_g44014824849815_cont_8to1_c_708_17_alg».proof.Proof.LibDotSum
import proofs.«152352_g44014824849815_cont_8to1_c_708_17_alg».proof.Proof.LibDense

noncomputable section

namespace Cert.Proof.Ref

open Idealize.ShloMosaic Idealize.ShloMosaic.TcCoe Idealize.ShloMosaic.ValueIdx Idealize.SL.Sem

/-- The rows × columns product of x : [20000, 1024] with W : [1024, d], plus the bias b : [d] laid along the columns
    through a [1, d] row, is the head: entry (n, r) is Σₖ x (n, k) · W (k, r) + b r. For any width d and any
    dimension-numbers record contracting x's axis 1 against W's axis 0. -/
theorem head_of_ops {d : Nat} (dd : DotDims ⟨2, ![20000, 1024]⟩ ⟨2, ![1024, d]⟩ ⟨2, ![20000, d]⟩)
    (hlc : dd.lhsContracting = [1]) (hrc : dd.rhsContracting = [0])
    (hln : dd.lhsNonContracting = [0]) (hrn : dd.rhsNonContracting = [1])
    (hlb : dd.lhsBatch = []) (hrb : dd.rhsBatch = [])
    (h₁ : (⟨1, ![d]⟩ : Shape).BroadcastsInDim ⟨2, ![1, d]⟩ ![1])
    (h₂ : (⟨2, ![1, d]⟩ : Shape).BroadcastsInDim ⟨2, ![20000, d]⟩ ![0, 1])
    (x : FVec Ideal ⟨2, ![20000, 1024]⟩ .f32) (w : FVec Ideal ⟨2, ![1024, d]⟩ .f32) (b : FVec Ideal ⟨1, ![d]⟩ .f32) :
    addf (Host.dotGeneral dd none x w)
        (broadcastInDim ⟨2, ![20000, d]⟩ ![0, 1] h₂ (broadcastInDim ⟨2, ![1, d]⟩ ![1] h₁ b))
      = Cert.Spec.head x w b := by
  funext i
  obtain ⟨n, r, rfl⟩ : ∃ (n : Fin 20000) (r : Fin d), i = ix2 n r := ⟨i 0, i 1, eq_ix2 i⟩
  rw [addf_apply, Cert.Lib.dotGeneral_rc_apply dd hlc hrc hln hrn hlb hrb, Cert.Lib.broadcastInDim_row_apply,
    Cert.Spec.head_apply]

/-- Every weakly fair execution of the reference terminates with each of its five results at the head of its weight
    and bias, and its eleven argument arrays unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
          r.2.mem ((c.tc : Thread Cert.ReferenceIdeal.nD Cert.ReferenceIdeal.τ).loc Cert.ReferenceIdeal.main_v15) = Cert.Spec.head (d := 91) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_v3) = Cert.Spec.head (d := 12) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
        ∧ r.2.mem ((c.tc : Thread Cert.ReferenceIdeal.nD Cert.ReferenceIdeal.τ).loc Cert.ReferenceIdeal.main_v7) = Cert.Spec.head (d := 10) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v11) = Cert.Spec.head (d := 8) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
        ∧ r.2.mem ((c.tc : Thread Cert.ReferenceIdeal.nD Cert.ReferenceIdeal.τ).loc Cert.ReferenceIdeal.main_v19) = Cert.Spec.head (d := 364) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run (Cert.ReferenceIdeal.defs (F := Ideal)) _ _).mono (fun _ h c =>
    ⟨(h c).1.trans (head_of_ops _ rfl rfl rfl rfl rfl rfl _ _ _ _ _),
     (h c).2.1.trans (head_of_ops _ rfl rfl rfl rfl rfl rfl _ _ _ _ _),
     (h c).2.2.1.trans (head_of_ops _ rfl rfl rfl rfl rfl rfl _ _ _ _ _),
     (h c).2.2.2.1.trans (head_of_ops _ rfl rfl rfl rfl rfl rfl _ _ _ _ _),
     (h c).2.2.2.2.1.trans (head_of_ops _ rfl rfl rfl rfl rfl rfl _ _ _ _ _),
     (h c).2.2.2.2.2⟩)
    (Cert.ReferenceIdeal.Value.run (F := Ideal) m ρ)

/-- The reference runs to the end, faults nowhere and leaves its argument arrays unchanged: its run with the results
    dropped. -/
theorem frame : Cert.frame_ReferenceIdeal := fun m ρ _ =>
  (θ_run (Cert.ReferenceIdeal.defs (F := Ideal)) _ _).mono (fun _ h c => (h c).2.2.2.2.2)
    (Cert.ReferenceIdeal.Value.run (F := Ideal) m ρ)

end Cert.Proof.Ref

end
-- ==== Proof.lean ====
/-
  Five linear heads, fused: the certificate's claims.

  The kernel computes, for each of five heads with weight W_h : [1024, d_h] and bias b_h : [d_h], the array
  x · W_h + b_h of the activations x : [20000, 1024], in one pass over x: the transposed weights are stacked once into a
  scratch buffer, and at each of ten grid points a block of 2048 rows of x, read as its two column halves, is multiplied
  against the stack, the two partial products and the bias column added, and the rows of each head sliced out into that
  head's [d_h, 2048] result block; the [d_h, 20000] results are transposed afterwards. The reference computes each
  x · W_h + b_h directly.

  Over the extended reals both are the same function of the arguments, entry by entry:
      Σ_{k<1024} x (n, k) · W_h (k, r) + b_h r
  — a sum over 1024 channels is the sum over the first 512 plus the sum over the last 512, and the factors commute; no
  law used needs finite values, so the precondition is never opened (`Cert.Spec.headT_eq_head`). A change of float
  format is the identity there, and the rows of x past the array's end that the last block's buffer holds reach only
  result columns past the array's end, which are not written back.

  The three frames: the word-level kernel's by relational proof data that say nothing of what the body leaves in a
  staging buffer (at the word level the block product is opaque in its whole operand); the idealized kernel's and the
  reference's are their runs with the results dropped. The idealization rewrote nothing.
-/
import proofs.«152352_g44014824849815_cont_8to1_c_708_17_alg».proof.Defs
import proofs.«152352_g44014824849815_cont_8to1_c_708_17_alg».proof.Proof.K.Frame
import proofs.«152352_g44014824849815_cont_8to1_c_708_17_alg».proof.Proof.KI.Value
import proofs.«152352_g44014824849815_cont_8to1_c_708_17_alg».proof.Proof.Ref.Value

noncomputable section

namespace Cert.Proof

open Idealize.ShloMosaic Idealize.SL.Sem

/-- Run from memories that agree on the arguments, the idealized kernel and the idealized reference end with the same five
    arrays: each head of the shared arguments. -/
theorem algebraic : Cert.algebraic_KernelIdeal_ReferenceIdeal := by
  intro m ρ m' ρ' _ hagree
  refine ⟨fun c => Cert.Spec.head (d := 91) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Spec.head (d := 12) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.Spec.head (d := 10) (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Spec.head (d := 8) (m ((c.tc : Thread Cert.KernelIdeal.nD Cert.KernelIdeal.τ).loc Cert.KernelIdeal.main_arg0)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Spec.head (d := 364) (m ((c.tc : Thread Cert.KernelIdeal.nD Cert.KernelIdeal.τ).loc Cert.KernelIdeal.main_arg0)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.Proof.KI.run m ρ, ?_⟩
  refine (θ_run (Cert.ReferenceIdeal.defs (F := Ideal)) _ _).mono (fun r h c => ?_) (Cert.Proof.Ref.run m' ρ')
  obtain ⟨a0, a1, a2, a3, a4, a5, a6, a7, a8, a9, a10⟩ := hagree c
  dsimp only
  rw [← a0, ← a1, ← a2, ← a3, ← a4, ← a5, ← a6, ← a7, ← a8, ← a9, ← a10]
  exact h c

theorem claim : Cert.Claim :=
  ⟨Cert.Kernel.Gen.facts, Cert.KernelIdeal.Gen.facts, Cert.ReferenceIdeal.Gen.facts, Cert.Pre_finite_inputs.Gen.facts,
    Cert.Proof.K.frame, Cert.Proof.KI.frame, Cert.Proof.Ref.frame, trivial, algebraic⟩

end Cert.Proof

end
